-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S16x512 : Shape := ⟨2, ![16, 512]⟩
abbrev S16 : Shape := ⟨1, ![16]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg3 : IVec S16 32) (main_v13 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v13 main_v16
  let main_c_6 : IVec S_ 32 := constantI S_ 32 2048#32
  let main_v18 : IVec S16 32 := broadcastInDim S16 ![] bcast_S_S16 main_c_6
  let main_v19 : IVec S16 1 := cmpi .sle main_arg3 main_v18
  let main_c_7 : IVec S_ 1 := constantI S_ 1 1#1
  let main_v20 : IVec S_ 1 := (fun x v => Host.reduce IntOp.andi x v reducesTo_S16_S_d0 h_S_) main_v19 main_c_7
  let main_v21 : IVec S_ 1 := andi main_v17 main_v20
  main_v21

def fn {F : FTy → Type} [FloatOps F] (main_arg0 : FVec F S16x2048x512 .f32) (main_arg1 : FVec F S16x2048x512 .f32) (main_arg2 : FVec F S16x512 .f32) (main_arg3 : IVec S16 32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_c_4 : IVec S_ 32 := constantI S_ 32 1#32
  let main_v14 : IVec S16 32 := broadcastInDim S16 ![] bcast_S_S16 main_c_4
  let main_v15 : IVec S16 1 := cmpi .sge main_arg3 main_v14
  let main_c_5 : IVec S_ 1 := constantI S_ 1 1#1
  fn_part1 (F := F) main_arg3 main_v13 main_v15 main_c_5
-- ==== Kernel.lean ====
abbrev S16x2048x512 : Shape := ⟨3, ![16, 2048, 512]⟩
abbrev S16x512 : Shape := ⟨2, ![16, 512]⟩
abbrev S16 : Shape := ⟨1, ![16]⟩
abbrev S16x1x512 : Shape := ⟨3, ![16, 1, 512]⟩
abbrev S1x512x512 : Shape := ⟨3, ![1, 512, 512]⟩
abbrev S1 : Shape := ⟨1, ![1]⟩
abbrev S1x1x512 : Shape := ⟨3, ![1, 1, 512]⟩
abbrev S1x512x1 : Shape := ⟨3, ![1, 512, 1]⟩
abbrev S1x512 : Shape := ⟨2, ![1, 512]⟩
abbrev S16x1 : Shape := ⟨2, ![16, 1]⟩
abbrev S_ : Shape := ⟨0, ![]⟩

abbrev nBuf : Space → Nat
  | .hbm => 87
  | .vmem => 10
  | .smem => 1
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x512, .f32⟩
  | .hbm, ⟨3, _⟩ => ⟨S16x1x512, .f32⟩
  | .hbm, ⟨4, _⟩ => ⟨S16x1x512, .f32⟩
  | .hbm, ⟨5, _⟩ => ⟨S16x1x512, .f32⟩
  | .hbm, ⟨6, _⟩ => ⟨S16x512, .f32⟩
  | .hbm, ⟨7, _⟩ => ⟨S16x512, .f32⟩
  | .hbm, ⟨8, _⟩ => ⟨S16x512, .f32⟩
  | .hbm, ⟨9, _⟩ => ⟨S16, .f32⟩
  | .hbm, ⟨10, _⟩ => ⟨S16x1, .f32⟩
  | .hbm, ⟨11, _⟩ => ⟨S16x512, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S16x512, .f32⟩
  | .hbm, ⟨16, _⟩ => ⟨S_, .f32⟩
  | .hbm, ⟨17, _⟩ => ⟨S16, .f32⟩
  | .hbm, ⟨18, _⟩ => ⟨S16x1, .f32⟩
  | .hbm, ⟨19, _⟩ => ⟨S16x1, .f32⟩
  | .hbm, ⟨20, _⟩ => ⟨S_, .f32⟩
  | .hbm, ⟨21, _⟩ => ⟨S16x1, .f32⟩
  | .hbm, ⟨22, _⟩ => ⟨S16x1, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S16x512, .f32⟩
  | .hbm, ⟨27, _⟩ => ⟨S_, .f32⟩
  | .hbm, ⟨28, _⟩ => ⟨S16x512, .f32⟩
  | .hbm, ⟨29, _⟩ => ⟨S16x512, .i1⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | .hbm, ⟨37, _⟩ => ⟨S16x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x512, .f32⟩
  | .hbm, ⟨43, _⟩ => ⟨S16x512, .f32⟩
  | .hbm, ⟨44, _⟩ => ⟨S_, .f32⟩
  | .hbm, ⟨45, _⟩ => ⟨S16x512, .f32⟩
  | .hbm, ⟨46, _⟩ => ⟨S16x512, .i1⟩
  | .hbm, ⟨47, _⟩ => ⟨S_, .f32⟩
  | .hbm, ⟨48, _⟩ => ⟨S16x512, .f32⟩
  | .hbm, ⟨49, _⟩ => ⟨S16x512, .f32⟩
  | .hbm, ⟨50, _⟩ => ⟨S16x512, .f32⟩
  | .hbm, ⟨51, _⟩ => ⟨S_, .f32⟩
  | .hbm, ⟨52, _⟩ => ⟨S16x512, .f32⟩
  | .hbm, ⟨53, _⟩ => ⟨S16x512, .f32⟩
  | .hbm, ⟨54, _⟩ => ⟨S16x512, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16x512, .f32⟩
  | .hbm, ⟨60, _⟩ => ⟨S16x512, .f32⟩
  | .hbm, ⟨61, _⟩ => ⟨S_, .f32⟩
  | .hbm, ⟨62, _⟩ => ⟨S16x512, .f32⟩
  | .hbm, ⟨63, _⟩ => ⟨S16x512, .i1⟩
  | .hbm, ⟨64, _⟩ => ⟨S_, .f32⟩
  | .hbm, ⟨65, _⟩ => ⟨S16x512, .f32⟩
  | .hbm, ⟨66, _⟩ => ⟨S16x512, .f32⟩
  | .hbm, ⟨67, _⟩ => ⟨S16x512, .f32⟩
  | .hbm, ⟨68, _⟩ => ⟨S_, .f32⟩
  | .hbm, ⟨69, _⟩ => ⟨S16x512, .f32⟩
  | .hbm, ⟨70, _⟩ => ⟨S16x512, .f32⟩
  | .hbm, ⟨71, _⟩ => ⟨S16x512, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .smem, ⟨0, _⟩ => ⟨S16, .i32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_cst_14 : Ref sig .tc := ⟨.hbm, 74, rfl⟩
abbrev main_v50 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_cst_16 : Ref sig .tc := ⟨.hbm, 79, rfl⟩
abbrev main_v53 : Ref sig .tc := ⟨.hbm, 80, rfl⟩
abbrev main_cst_17 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v4 : BitVec 32) : BitVec 1 :=
  let arg1 : BitVec 32 := BitVec.ofNat 32 (i 1).val
  let c512_i32 : BitVec 32 := 512#32
  let v5 : BitVec 32 := Scalar.muli arg1 c512_i32
  let v6 : BitVec 1 := Scalar.cmpi .slt v5 v4
  let v7 : BitVec 32 := Scalar.extui v6
  let c0_i32_1 : BitVec 32 := 0#32
  let v8 : BitVec 1 := Scalar.cmpi .ne v7 c0_i32_1
  v8

def cc0_transform_0 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let v22 : BitVec 32 := Scalar.minsi arg1 v21
  let c0_i32_7 : BitVec 32 := 0#32
  let c0_i32_8 : BitVec 32 := 0#32
  ![arg0.toNat, v22.toNat, c0_i32_7.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let v22 : BitVec 32 := Scalar.minsi arg1 v21
  let c0_i32_7 : BitVec 32 := 0#32
  let c0_i32_8 : BitVec 32 := 0#32
  ![arg0.toNat, v22.toNat, c0_i32_7.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  numel1_S1 : S1.numel = 1
  inb_S1x1x512_S1x1x512_0_0_0 : ∀ a, (![0, 0, 0] : Fin 3 → Nat) a + S1x1x512.size a ≤ S1x1x512.size a
  h_S1x1x512 : 0 < S1x1x512.numel
  iota_S1x512x1_d1_w32 : S1x512x1.Iotas .tc 32 [1]
  natLt_1_32 : 1 < 32
  inb_S1x512x512_S1x512x512_0_0_0 : ∀ a, (![0, 0, 0] : Fin 3 → Nat) a + S1x512x512.size a ≤ S1x512x512.size a
  h_S1x512x512 : 0 < S1x512x512.numel
  shapeCasts_S1x1x512_S1x1x512 : S1x1x512.ShapeCasts S1x1x512
  broadcasts_S1x512x1_S1x512x512 : S1x512x1.Broadcasts S1x512x512
  reduces_S1x512x512_S1x512 : S1x512x512.Reduces [1] S1x512
  shapeCasts_S1x512_S1x1x512 : S1x512.ShapeCasts S1x1x512
  shapeCasts_S16x1x512_S16x512 : S16x1x512.ShapeCasts S16x512
  bcast_S16_S16x1_0 : S16.BroadcastsInDim S16x1 (![0] : Fin 1 → Fin S16x1.rank)
  bcast_S16x1_S16x512_0_1 : S16x1.BroadcastsInDim S16x512 (![0, 1] : Fin 2 → Fin S16x512.rank)
  reducesTo_S16x512_S16_d1 : S16x512.ReducesTo [1] S16
  h_S_ : 0 < S_.numel
  bcast_S_S16x1 : S_.BroadcastsInDim S16x1 (![] : Fin 0 → Fin S16x1.rank)
  bcast_S_S16x512 : S_.BroadcastsInDim S16x512 (![] : Fin 0 → Fin S16x512.rank)
  reducesTo_S16x512_S_d0_1 : S16x512.ReducesTo [0, 1] S_
  reducesTo_S16_S_d0 : S16.ReducesTo [0] S_
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x512.size a
  hwx0_2 : ∀ i : grid0.Coords, EltTy.bits .f32 = 32 ∨ (Rect.block (s := S16x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S16x1x512.size a
  hwx0_3 : ∀ i : grid0.Coords, EltTy.bits .f32 = 32 ∨ (Rect.block (s := S16x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S16x1x512.size a
  hwx0_4 : ∀ i : grid0.Coords, EltTy.bits .f32 = 32 ∨ (Rect.block (s := S16x1x512) S1x1x512.size (cc0_transform_4 i) (hinb0_4 i)).WholeWords (EltTy.packing .f32)

variable [Facts₀]

abbrev spec0_0 : Pipeline.WinSpec sig grid0.rank :=
  Pipeline.WinSpec.ofSpec (Memref.whole main_arg0) S1x512x512.size reads0_0 false false 2 stage0_0 sem0_0 nbuf0_0 hstage0_0

abbrev spec0_1 : Pipeline.WinSpec sig grid0.rank :=
  Pipeline.WinSpec.ofSpec (Memref.whole main_arg1) S1x512x512.size reads0_1 false false 2 stage0_1 sem0_1 nbuf0_1 hstage0_1

abbrev spec0_2 : Pipeline.WinSpec sig grid0.rank :=
  Pipeline.WinSpec.ofSpec (Memref.whole main_v0_0) S1x1x512.size reads0_2 true false 2 stage0_2 sem0_2 nbuf0_2 hstage0_2

abbrev spec0_3 : Pipeline.WinSpec sig grid0.rank :=
  Pipeline.WinSpec.ofSpec (Memref.whole main_v0_1) S1x1x512.size reads0_3 true false 2 stage0_3 sem0_3 nbuf0_3 hstage0_3

abbrev spec0_4 : Pipeline.WinSpec sig grid0.rank :=
  Pipeline.WinSpec.ofSpec (Memref.whole main_v0_2) S1x1x512.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x512.size a ≤ S16x2048x512.size a), EltTy.bits .f32 = 32 ∨ (Rect.block (s := S16x2048x512) S1x512x512.size (cc0_transform_0 k0_off1_inb numel1_S1 pf i) h).WholeWords (EltTy.packing .f32)) ∧
  (∀ i : grid0.Coords, ∃ h : (∀ a, (cc0_transform_1 k0_off1_inb numel1_S1 pf i a + 1) * S1x512x512.size a ≤ S16x2048x512.size a), EltTy.bits .f32 = 32 ∨ (Rect.block (s := S16x2048x512) S1x512x512.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | 4 => hwx0_4 | ⟨_ + 5, h⟩ => absurd h (Nat.not_lt.2 (Nat.le_add_left _ _))
abbrev idle0 (pf : pre0.Contents (Elt F)) : Fin 5 → grid0.Coords → Bool := fun | 0 => fun _ => false | 1 => fun _ => false | 2 => fun i => !(k0_cond1 i == 1#1) && !(k0_cond2 i (pf.atD 0 (k0_off1 i)) == 1#1) | 3 => fun i => !(k0_cond1 i == 1#1) && !(k0_cond2 i (pf.atD 0 (k0_off1 i)) == 1#1) | 4 => fun i => !(k0_cond1 i == 1#1) && !(k0_cond2 i (pf.atD 0 (k0_off1 i)) == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S16x2048x512 : Shape := ⟨3, ![16, 2048, 512]⟩
abbrev S16x512 : Shape := ⟨2, ![16, 512]⟩
abbrev S16 : Shape := ⟨1, ![16]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x2048x1 : Shape := ⟨3, ![16, 2048, 1]⟩
abbrev S_ : Shape := ⟨0, ![]⟩

abbrev nBuf : Space → Nat
  | .hbm => 112
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x512, .f32⟩
  | .hbm, ⟨3, _⟩ => ⟨S16, .i32⟩
  | .hbm, ⟨4, _⟩ => ⟨S2048, .i32⟩
  | .hbm, ⟨5, _⟩ => ⟨S1x2048, .i32⟩
  | .hbm, ⟨6, _⟩ => ⟨S16x1, .i32⟩
  | .hbm, ⟨7, _⟩ => ⟨S16x2048, .i32⟩
  | .hbm, ⟨8, _⟩ => ⟨S16x2048, .i32⟩
  | .hbm, ⟨9, _⟩ => ⟨S16x2048, .i1⟩
  | .hbm, ⟨10, _⟩ => ⟨S16x2048, .f32⟩
  | .hbm, ⟨11, _⟩ => ⟨S16x2048x1, .f32⟩
  | .hbm, ⟨12, _⟩ => ⟨S16, .f32⟩
  | .hbm, ⟨13, _⟩ => ⟨S16x1, .f32⟩
  | .hbm, ⟨14, _⟩ => ⟨S16x2048x512, .f32⟩
  | .hbm, ⟨15, _⟩ => ⟨S16x2048x512, .f32⟩
  | .hbm, ⟨16, _⟩ => ⟨S_, .f32⟩
  | .hbm, ⟨17, _⟩ => ⟨S16x512, .f32⟩
  | .hbm, ⟨18, _⟩ => ⟨S16x512, .f32⟩
  | .hbm, ⟨19, _⟩ => ⟨S16x512, .f32⟩
  | .hbm, ⟨20, _⟩ => ⟨S16x2048x512, .f32⟩
  | .hbm, ⟨21, _⟩ => ⟨S16x2048x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S16x512, .f32⟩
  | .hbm, ⟨27, _⟩ => ⟨S_, .f32⟩
  | .hbm, ⟨28, _⟩ => ⟨S16, .f32⟩
  | .hbm, ⟨29, _⟩ => ⟨S16x1, .f32⟩
  | .hbm, ⟨30, _⟩ => ⟨S16x1, .f32⟩
  | .hbm, ⟨31, _⟩ => ⟨S_, .f32⟩
  | .hbm, ⟨32, _⟩ => ⟨S16x1, .f32⟩
  | .hbm, ⟨33, _⟩ => ⟨S16x1, .f32⟩
  | .hbm, ⟨34, _⟩ => ⟨S16x512, .f32⟩
  | .hbm, ⟨35, _⟩ => ⟨S16x512, .f32⟩
  | .hbm, ⟨36, _⟩ => ⟨S16x512, .f32⟩
  | .hbm, ⟨37, _⟩ => ⟨S16x512, .f32⟩
  | .hbm, ⟨38, _⟩ => ⟨S_, .f32⟩
  | .hbm, ⟨39, _⟩ => ⟨S16x512, .f32⟩
  | .hbm, ⟨40, _⟩ => ⟨S16x512, .i1⟩
  | .hbm, ⟨41, _⟩ => ⟨S_, .f32⟩
  | .hbm, ⟨42, _⟩ => ⟨S16x512, .f32⟩
  | .hbm, ⟨43, _⟩ => ⟨S16x512, .f32⟩
  | .hbm, ⟨44, _⟩ => ⟨S16x512, .f32⟩
  | .hbm, ⟨45, _⟩ => ⟨S_, .f32⟩
  | .hbm, ⟨46, _⟩ => ⟨S16x512, .f32⟩
  | .hbm, ⟨47, _⟩ => ⟨S16x512, .f32⟩
  | .hbm, ⟨48, _⟩ => ⟨S16x512, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16x512, .f32⟩
  | .hbm, ⟨54, _⟩ => ⟨S16x512, .f32⟩
  | .hbm, ⟨55, _⟩ => ⟨S_, .f32⟩
  | .hbm, ⟨56, _⟩ => ⟨S16x512, .f32⟩
  | .hbm, ⟨57, _⟩ => ⟨S16x512, .i1⟩
  | .hbm, ⟨58, _⟩ => ⟨S_, .f32⟩
  | .hbm, ⟨59, _⟩ => ⟨S16x512, .f32⟩
  | .hbm, ⟨60, _⟩ => ⟨S16x512, .f32⟩
  | .hbm, ⟨61, _⟩ => ⟨S16x512, .f32⟩
  | .hbm, ⟨62, _⟩ => ⟨S_, .f32⟩
  | .hbm, ⟨63, _⟩ => ⟨S16x512, .f32⟩
  | .hbm, ⟨64, _⟩ => ⟨S16x512, .f32⟩
  | .hbm, ⟨65, _⟩ => ⟨S16x512, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S16x512, .f32⟩
  | .hbm, ⟨71, _⟩ => ⟨S16x512, .f32⟩
  | .hbm, ⟨72, _⟩ => ⟨S_, .f32⟩
  | .hbm, ⟨73, _⟩ => ⟨S16x512, .f32⟩
  | .hbm, ⟨74, _⟩ => ⟨S16x512, .i1⟩
  | .hbm, ⟨75, _⟩ => ⟨S_, .f32⟩
  | .hbm, ⟨76, _⟩ => ⟨S16x512, .f32⟩
  | .hbm, ⟨77, _⟩ => ⟨S16x512, .f32⟩
  | .hbm, ⟨78, _⟩ => ⟨S16x512, .f32⟩
  | .hbm, ⟨79, _⟩ => ⟨S_, .f32⟩
  | .hbm, ⟨80, _⟩ => ⟨S16x512, .f32⟩
  | .hbm, ⟨81, _⟩ => ⟨S16x512, .f32⟩
  | .hbm, ⟨82, _⟩ => ⟨S16x512, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S16x2048x512, .f32⟩
  | .hbm, ⟨88, _⟩ => ⟨S16x2048x512, .f32⟩
  | .hbm, ⟨89, _⟩ => ⟨S_, .f32⟩
  | .hbm, ⟨90, _⟩ => ⟨S16x2048x512, .f32⟩
  | .hbm, ⟨91, _⟩ => ⟨S16x2048x512, .i1⟩
  | .hbm, ⟨92, _⟩ => ⟨S_, .f32⟩
  | .hbm, ⟨93, _⟩ => ⟨S16x2048x512, .f32⟩
  | .hbm, ⟨94, _⟩ => ⟨S16x2048x512, .f32⟩
  | .hbm, ⟨95, _⟩ => ⟨S16x2048x512, .f32⟩
  | .hbm, ⟨96, _⟩ => ⟨S_, .f32⟩
  | .hbm, ⟨97, _⟩ => ⟨S16x2048x512, .f32⟩
  | .hbm, ⟨98, _⟩ => ⟨S16x2048x512, .f32⟩
  | .hbm, ⟨99, _⟩ => ⟨S16x2048x512, .f32⟩
  | .hbm, ⟨100, _⟩ => ⟨S16x2048x512, .f32⟩
  | .hbm, ⟨101, _⟩ => ⟨S16x2048x512, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_cst_18 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_19 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_20 : Ref sig .tc := ⟨.hbm, 102, rfl⟩
abbrev main_v73 : Ref sig .tc := ⟨.hbm, 103, rfl⟩
abbrev main_cst_21 : Ref sig .tc := ⟨.hbm, 104, rfl⟩
abbrev main_v74 : Ref sig .tc := ⟨.hbm, 105, rfl⟩
abbrev main_cst_22 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S16x2048_S16x2048x1_0_1 : S16x2048.BroadcastsInDim S16x2048x1 (![0, 1] : Fin 2 → Fin S16x2048x1.rank)
  bcast_S16x2048x1_S16x2048x512_0_1_2 : S16x2048x1.BroadcastsInDim S16x2048x512 (![0, 1, 2] : Fin 3 → Fin S16x2048x512.rank)
  reducesTo_S16x2048x512_S16x512_d1 : S16x2048x512.ReducesTo [1] S16x512
  h_S_ : 0 < S_.numel
  bcast_S16x1_S16x512_0_1 : S16x1.BroadcastsInDim S16x512 (![0, 1] : Fin 2 → Fin S16x512.rank)
  reducesTo_S16x512_S16_d1 : S16x512.ReducesTo [1] S16
  bcast_S_S16x1 : S_.BroadcastsInDim S16x1 (![] : Fin 0 → Fin S16x1.rank)
  bcast_S_S16x512 : S_.BroadcastsInDim S16x512 (![] : Fin 0 → Fin S16x512.rank)
  reducesTo_S16x512_S_d0_1 : S16x512.ReducesTo [0, 1] S_
  bcast_S_S16x2048x512 : S_.BroadcastsInDim S16x2048x512 (![] : Fin 0 → Fin S16x2048x512.rank)
  reducesTo_S16x1_S_d0_1 : S16x1.ReducesTo [0, 1] S_
  reducesTo_S16x2048x512_S_d0_1_2 : S16x2048x512.ReducesTo [0, 1, 2] S_

variable [Facts₀]

class Facts : Prop extends Facts₀ where

variable [Facts]
-- ==== Proof.KernelIdeal.Base.lean ====
/-
  The ragged masked reduction: the vocabulary every module of its frame and value proofs shares.

  The kernel runs on a 16 x 4 grid (row b, tile kv of 512 positions). Row b's length word len_b is read from the
  prefetched table; the input windows fetch tile min(kv, ceil(len_b / 512) - 1); the three output blocks [1, 1, 512]
  of row b are reset at kv = 0 and, where kv * 512 < len_b, each gains the masked column sums of the tile.
-/
import proofs.«404824_j9861244912212_2_alg».proof.Proof.Gen.KernelIdeal.Launch
import proofs.«404824_j9861244912212_2_alg».proof.Proof.Gen.KernelIdeal.Skeleton
import Idealize.ShloMosaic.Lib.Pipeline.FrameBody
import Idealize.ShloMosaic.Lib.Pipeline.TableIdle
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: as launched (the region is @main's first item). -/
abbrev V (c : Dev nD) (b : Ref sig .tc) : Buf (Elt F) ((c : Thread nD τ).loc b) := m ((c : Thread nD τ).loc b)

/-- The table of lengths as the region reads it at entry (one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The pipeline's side condition of the table: every fetched tile inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it. -/
abbrev tbM : Memref sig .tc .smem S16 .i32 := Memref.whole main_arg3
abbrev htbM : tbM.IsWhole := Memref.isWhole_whole _
abbrev TbBuf (c : Dev nD) : Type := Buf (Elt F) (tbM.view.loc (c : Thread nD τ))
/-- The table's buffer held whole at contents `f`. -/
abbrev tbPt (c : Dev nD) (f : TbBuf (F := F) c) : sProp 𝕄 := tbM.view.loc (c : Thread nD τ) ↦{fullShare} f

/-- The length word the body loads at grid point `i` from the table held at `f`. -/
abbrev wordAt (c : Dev nD) (f : TbBuf (F := F) c) (i : grid0.Coords) : BitVec 32 :=
  tbM.view.readAt (Elt F) (Rect.unit (s := S16) (k0_off1 i) S1.size (k0_off1_inb i)).toLoadRect f (Shape.Idx.first (numel1_S1.symm ▸ Nat.one_pos))

/-- The tile's first position, kv * 512, as the body computes it. -/
abbrev tile0 (i : grid0.Coords) : BitVec 32 := Scalar.muli (BitVec.ofNat 32 (i 1).val) 512#32

/-- One live step of each accumulator: the block found, plus the tile's masked column sums. -/
abbrev stepP (w : BitVec 32) (i : grid0.Coords) (x : Vec F S1x512x512 .f32) (p : Vec F S1x1x512 .f32) : Vec F S1x1x512 .f32 :=
  k0_pay6 w (tile0 i) x p
abbrev stepT (w : BitVec 32) (i : grid0.Coords) (y : Vec F S1x512x512 .f32) (q : Vec F S1x1x512 .f32) : Vec F S1x1x512 .f32 :=
  k0_pay7 w (tile0 i) y q
abbrev stepW (w : BitVec 32) (i : grid0.Coords) (x y : Vec F S1x512x512 .f32) (r : Vec F S1x1x512 .f32) : Vec F S1x1x512 .f32 :=
  k0_pay4 (k0_pay5 w (tile0 i)) (k0_pay8 x y) r

/-- The reset values of the three accumulators (each the zero block). -/
abbrev zeroP : Vec F S1x1x512 .f32 := k0_pay1 (F := F)
abbrev zeroT : Vec F S1x1x512 .f32 := k0_pay2 (F := F)
abbrev zeroW : Vec F S1x1x512 .f32 := k0_pay3 (F := F)

end Cert.KernelIdeal.Hand

end
-- ==== Proof.KernelIdeal.Acc.lean ====
/-
  What the three accumulators hold after each grid point, by recursion on the point's number n = 4 b + kv: reset at
  kv = 0, one live step where kv * 512 < len_b, carried unchanged elsewhere; and the pipeline's proof data over them.
-/
import proofs.«404824_j9861244912212_2_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The table's contents as the body's table memref holds them. -/
abbrev tbf (c : Dev nD) : TbBuf (F := F) c := tbl m 0

/-- The length word the body loads at point `t`. -/
abbrev lenAt (hO : Ok m) (c : Dev nD) (t : Fin (cfgM m hO).N) : BitVec 32 := wordAt c (tbf m c) (grid0.coords t)

/-- The tile of point `t` is live: kv * 512 < len_b, as the body tests it. -/
abbrev live (hO : Ok m) (c : Dev nD) (t : Fin (cfgM m hO).N) : Prop := k0_cond2 (grid0.coords t) (lenAt m hO c t) = 1#1

/-- The first accumulator (column sums of the first input over the valid positions) after point number `n`. -/
def accP (hO : Ok m) (c : Dev nD) : ℕ → Vec F S1x1x512 .f32
  | 0 =>
    if h : 0 < (cfgM m hO).N then
      if live m hO c ⟨0, h⟩ then stepP (lenAt m hO c ⟨0, h⟩) (grid0.coords ⟨0, h⟩) (iblk m hO c 0 ⟨0, h⟩) zeroP else zeroP
    else zeroP
  | n + 1 =>
    if h : n + 1 < (cfgM m hO).N then
      if live m hO c ⟨n + 1, h⟩ then
        stepP (lenAt m hO c ⟨n + 1, h⟩) (grid0.coords ⟨n + 1, h⟩) (iblk m hO c 0 ⟨n + 1, h⟩) (if (n + 1) % 4 = 0 then zeroP else accP hO c n)
      else (if (n + 1) % 4 = 0 then zeroP else accP hO c n)
    else zeroP

/-- The second accumulator (the same sums of the second input). -/
def accT (hO : Ok m) (c : Dev nD) : ℕ → Vec F S1x1x512 .f32
  | 0 =>
    if h : 0 < (cfgM m hO).N then
      if live m hO c ⟨0, h⟩ then stepT (lenAt m hO c ⟨0, h⟩) (grid0.coords ⟨0, h⟩) (iblk m hO c 1 ⟨0, h⟩) zeroT else zeroT
    else zeroT
  | n + 1 =>
    if h : n + 1 < (cfgM m hO).N then
      if live m hO c ⟨n + 1, h⟩ then
        stepT (lenAt m hO c ⟨n + 1, h⟩) (grid0.coords ⟨n + 1, h⟩) (iblk m hO c 1 ⟨n + 1, h⟩) (if (n + 1) % 4 = 0 then zeroT else accT hO c n)
      else (if (n + 1) % 4 = 0 then zeroT else accT hO c n)
    else zeroT

/-- The third accumulator (column sums of the smooth-L1 term of the two inputs). -/
def accW (hO : Ok m) (c : Dev nD) : ℕ → Vec F S1x1x512 .f32
  | 0 =>
    if h : 0 < (cfgM m hO).N then
      if live m hO c ⟨0, h⟩ then stepW (lenAt m hO c ⟨0, h⟩) (grid0.coords ⟨0, h⟩) (iblk m hO c 0 ⟨0, h⟩) (iblk m hO c 1 ⟨0, h⟩) zeroW else zeroW
    else zeroW
  | n + 1 =>
    if h : n + 1 < (cfgM m hO).N then
      if live m hO c ⟨n + 1, h⟩ then
        stepW (lenAt m hO c ⟨n + 1, h⟩) (grid0.coords ⟨n + 1, h⟩) (iblk m hO c 0 ⟨n + 1, h⟩) (iblk m hO c 1 ⟨n + 1, h⟩) (if (n + 1) % 4 = 0 then zeroW else accW hO c n)
      else (if (n + 1) % 4 = 0 then zeroW else accW hO c n)
    else zeroW

/-- The proof data of the one pipeline on core `c`: the arrays as launched; after the body at point `t` each input's
    buffer at its tile and each output's at its accumulator; the invariant the scoped rest, the generator register and
    the table held whole; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => accP m hO c t.val
    | ⟨3, _⟩ => accT m hO c t.val
    | ⟨4, _⟩ => accW m hO c t.val
  Φ _ := iprop(Pipeline.ΦA spec0 c ∗ Pipeline.prefHeld pre0 c (fun _ => fullShare) (tbl m))
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = accP m hO c t.val := by dsimp only [dats]; try rfl
theorem after0_3 (hO : Ok m) (c : Dev nD) (t : Fin (cfgM m hO).N) : (dats m hO 0 c).after 3 t = accT m hO c t.val := by dsimp only [dats]; try rfl
theorem after0_4 (hO : Ok m) (c : Dev nD) (t : Fin (cfgM m hO).N) : (dats m hO 0 c).after 4 t = accW m hO c t.val := by dsimp only [dats]; try rfl

end Cert.KernelIdeal.Hand

end
-- ==== Proof.KernelIdeal.Tables.lean ====
/-
  The table of lengths. Under 1 ≤ len_b ≤ 2048 the input windows' tile index min(kv, ceil(len_b / 512) - 1) lies in
  0..3, so every fetched tile is inside its array; where the tile is live (kv * 512 < len_b) that index is kv itself.
-/
import proofs.«404824_j9861244912212_2_alg».proof.Proof.KernelIdeal.Base
import Idealize.ShloMosaic.Lib.ValueIdx
import Idealize.ShloMosaic.Lib.WordArith

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `b`'s length word in table contents `pf`. -/
abbrev lenW (pf : pre0.Contents (Elt F)) (b : Fin 16) : BitVec 32 := (pf 0 : S16.Idx → BitVec 32) (ValueIdx.ix1 b)

/-- Every length between 1 and 2048 (signed reading). -/
def InRange (pf : pre0.Contents (Elt F)) : Prop := ∀ b : Fin 16, 1 ≤ (lenW pf b).toInt ∧ (lenW pf b).toInt ≤ 2048

/-- The grid coordinates' ranges: 16 rows, 4 tiles. -/
theorem i0_lt (i : grid0.Coords) : (i 0).val < 16 := (i 0).isLt
theorem i1_lt (i : grid0.Coords) : (i 1).val < 4 := (i 1).isLt

/-- The table offset the body and the index maps compute at a grid point is the row. -/
theorem off1_eq (i : grid0.Coords) : k0_off1 i = ![(i 0).val] := by
  have h := i0_lt i
  show ![(BitVec.ofNat 32 (i 0).val).toNat] = ![(i 0).val]
  rw [BitVec.toNat_ofNat, Nat.mod_eq_of_lt (by omega)]

/-- The word an index map or the idle table reads at grid point `i` is row `i 0`'s length. -/
theorem atD_eq (pf : pre0.Contents (Elt F)) (i : grid0.Coords) : pf.atD 0 (k0_off1 i) = lenW pf (i 0) := by
  have h := i0_lt i
  rw [off1_eq]
  show (if h : ∀ a, (![(i 0).val] : Fin 1 → Nat) a + 1 ≤ S16.size a then (pf 0 : S16.Idx → BitVec 32) (fun a => ⟨(![(i 0).val] : Fin 1 → Nat) a, h a⟩) else default) = _
  have hb : ∀ a : Fin 1, (![(i 0).val] : Fin 1 → Nat) a + 1 ≤ S16.size a := by
    intro a; fin_cases a; show (i 0).val + 1 ≤ 16; omega
  rw [dif_pos hb]
  refine congrArg (pf 0 : S16.Idx → BitVec 32) ?_
  funext a; apply Fin.ext; fin_cases a; rfl

theorem at_eq (pf : pre0.Contents (Elt F)) (i : grid0.Coords) :
    pf.at 0 (Rect.unit (s := S16) (k0_off1 i) S1.size (k0_off1_inb i)) numel1_S1 = lenW pf (i 0) := by
  show (pf 0 : S16.Idx → BitVec 32) ((Rect.unit (s := S16) (k0_off1 i) S1.size (k0_off1_inb i)).emb (Shape.Idx.first (numel1_S1.symm ▸ Nat.one_pos))) = _
  refine congrArg (pf 0 : S16.Idx → BitVec 32) ?_
  funext a; apply Fin.ext; fin_cases a
  rw [Rect.emb_apply]
  show (k0_off1 i) 0 + 1 * 0 = (i 0).val
  rw [off1_eq]; rfl

/-- A comparison bit widened to a word and tested against zero is the comparison. -/
theorem bit_iff (b : Bool) : BitVec.ofBool (BitVec.setWidth 32 (BitVec.ofBool b) != 0#32) = 1#1 ↔ b = true := by
  cases b <;> decide

/-- A length in range read unsigned. -/
theorem toNat_of_inRange (w : BitVec 32) (h1 : 1 ≤ w.toInt) (h2 : w.toInt ≤ 2048) :
    1 ≤ w.toNat ∧ w.toNat ≤ 2048 ∧ w.toInt = w.toNat := by
  have e := BitVec.toInt_eq_toNat_cond w
  have := w.isLt
  split at e <;> omega

/-- The reset condition: kv = 0. -/
theorem cond1_iff (i : grid0.Coords) : k0_cond1 i = 1#1 ↔ (i 1).val = 0 := by
  have h := i1_lt i
  unfold k0_cond1
  simp only [Scalar.cmpi, Scalar.extui, IntOp.cmpi]
  rw [bit_iff]
  generalize (i 1).val = n at h ⊢
  interval_cases n <;> decide

/-- The live condition at a length in range: kv * 512 < len. -/
theorem cond2_iff (i : grid0.Coords) (w : BitVec 32) (h1 : 1 ≤ w.toInt) (h2 : w.toInt ≤ 2048) :
    k0_cond2 i w = 1#1 ↔ (i 1).val * 512 < w.toNat := by
  have h := i1_lt i
  obtain ⟨hw1, hw2, hwI⟩ := toNat_of_inRange w h1 h2
  unfold k0_cond2
  simp only [Scalar.cmpi, Scalar.extui, Scalar.muli, IntOp.cmpi, IntOp.muli]
  rw [bit_iff, BitVec.slt_iff_toInt_lt]
  have ea : (BitVec.ofNat 32 (i 1).val).toInt = ((i 1).val : Int) := WordArith.toInt_ofNat_small _ (by omega)
  have eb : (512#32 : BitVec 32).toInt = 512 := by decide
  rw [WordArith.toInt_mul_of_bounds _ _ (by rw [ea, eb]; omega) (by rw [ea, eb]; omega), ea, eb, hwI]
  omega

/-- The index maps' word chain, from the tile coordinate's word `a` and the length word `w` to the fetched tile:
    floor((w + 511) / 512) - 1, capped by `a` (the floor's correction term included, as the index maps compute it). -/
def tileWord (a w : BitVec 32) : BitVec 32 :=
  let v3 := Scalar.subi (Scalar.addi w 512#32) 1#32
  let v4 := Scalar.divsi v3 512#32
  let v9 := Scalar.subi (Scalar.extui (Scalar.cmpi .sgt v3 0#32)) (Scalar.extui (Scalar.cmpi .slt v3 0#32))
  let v14 := Scalar.subi (Scalar.extui (Scalar.cmpi .sgt 512#32 0#32)) (Scalar.extui (Scalar.cmpi .slt 512#32 0#32))
  let v18 := Scalar.andi (Scalar.cmpi .ne v9 v14) (Scalar.cmpi .ne (Scalar.remsi v3 512#32) 0#32)
  Scalar.minsi a (Scalar.subi (Scalar.select v18 (Scalar.subi v4 1#32) v4) 1#32)

/-- The same read, with the offset spelt as the index maps spell it. -/
theorem at_eq' (pf : pre0.Contents (Elt F)) (i : grid0.Coords) :
    pf.at 0 (Rect.unit (s := S16) ![(Scalar.indexCast (BitVec.ofNat 32 (i 0).val)).toNat] S1.size (k0_off1_inb i)) numel1_S1 = lenW pf (i 0) :=
  at_eq pf i

/-- Both index maps are (row, the word chain at the row's length, 0). -/
theorem transform0_tile (pf : pre0.Contents (Elt F)) (i : grid0.Coords) :
    cc0_transform_0 k0_off1_inb numel1_S1 pf i
      = ![(BitVec.ofNat 32 (i 0).val).toNat, (tileWord (BitVec.ofNat 32 (i 1).val) (lenW pf (i 0))).toNat, (0#32 : BitVec 32).toNat] := by
  rw [← at_eq' pf i]; rfl

theorem transform1_tile (pf : pre0.Contents (Elt F)) (i : grid0.Coords) :
    cc0_transform_1 k0_off1_inb numel1_S1 pf i
      = ![(BitVec.ofNat 32 (i 0).val).toNat, (tileWord (BitVec.ofNat 32 (i 1).val) (lenW pf (i 0))).toNat, (0#32 : BitVec 32).toNat] := by
  rw [← at_eq' pf i]; rfl

/-- A positive word below 2³¹ divided by 512, signed: no corner, no sign, the natural quotient. -/
theorem divsi_512 (s : BitVec 32) (hs : s.toNat < 2 ^ 31) : (Scalar.divsi s 512#32).toNat = s.toNat / 512 := by
  have hcorner : ¬ IntOp.SDivCorner s 512#32 := by
    intro hc; rcases hc with hc | ⟨_, hc⟩ <;> exact absurd hc (by decide)
  have hm : s.msb = false := BitVec.msb_eq_false_iff_two_mul_lt.mpr (by omega)
  simp only [Scalar.divsi, IntOp.divsi, if_neg hcorner, BitVec.sdiv_eq, hm, show (512#32 : BitVec 32).msb = false from by decide,
    BitVec.udiv_eq, BitVec.toNat_udiv, BitVec.toNat_ofNat]

/-- At a length in 1..2048 the sum w + 511 is positive, so the floor correction is off and the chain is
    min(kv, (w + 511) / 512 - 1) on natural numbers. -/
theorem tileWord_toNat (n : Nat) (hn : n < 4) (w : BitVec 32) (h1 : 1 ≤ w.toInt) (h2 : w.toInt ≤ 2048) :
    (tileWord (BitVec.ofNat 32 n) w).toNat = min n ((w.toNat + 511) / 512 - 1) := by
  obtain ⟨hw1, hw2, hwI⟩ := toNat_of_inRange w h1 h2
  obtain ⟨s, hs⟩ : ∃ s, s = Scalar.subi (Scalar.addi w 512#32) 1#32 := ⟨_, rfl⟩
  have hsN : s.toNat = w.toNat + 511 := by
    subst hs; simp only [Scalar.subi, Scalar.addi, IntOp.subi, IntOp.addi]; bv_omega
  have hsI : s.toInt = (s.toNat : Int) := by
    have e := BitVec.toInt_eq_toNat_cond s
    split at e <;> omega
  have h0 : (0#32 : BitVec 32).toInt = 0 := by decide
  have c5 : Scalar.cmpi .sgt s 0#32 = 1#1 := by
    simp only [Scalar.cmpi, IntOp.cmpi]
    rw [WordArith.ofBool_eq_one_iff, BitVec.slt_iff_toInt_lt, h0, hsI]; omega
  have c7 : Scalar.cmpi .slt s 0#32 = 0#1 := by
    simp only [Scalar.cmpi, IntOp.cmpi]
    have : s.slt 0#32 = false := by
      rw [Bool.eq_false_iff]; intro hc; rw [BitVec.slt_iff_toInt_lt, h0, hsI] at hc; omega
    rw [this]; rfl
  have hq : (Scalar.divsi s 512#32).toNat = (w.toNat + 511) / 512 := by rw [divsi_512 s (by omega), hsN]
  unfold tileWord
  simp only []
  rw [← hs, c5, c7]
  have c15 : Scalar.cmpi CmpIPredicate.ne (Scalar.subi (Scalar.extui 1#1) (Scalar.extui 0#1))
      (Scalar.subi (Scalar.extui (Scalar.cmpi CmpIPredicate.sgt 512#32 0#32))
        (Scalar.extui (Scalar.cmpi CmpIPredicate.slt 512#32 0#32))) = 0#1 := by decide
  have c18 : ∀ x : BitVec 1, Scalar.andi 0#1 x = 0#1 := by decide
  have csel : ∀ (a b : BitVec 32), Scalar.select 0#1 a b = b := fun a b => if_neg (by decide)
  rw [c15, c18, csel]
  obtain ⟨q, hqd⟩ : ∃ q, q = Scalar.divsi s 512#32 := ⟨_, rfl⟩
  rw [← hqd] at hq ⊢
  have hq1 : 1 ≤ q.toNat ∧ q.toNat ≤ 4 := by rw [hq]; omega
  have hsub : (Scalar.subi q 1#32).toNat = q.toNat - 1 := by
    simp only [Scalar.subi, IntOp.subi]; bv_omega
  have ha : (BitVec.ofNat 32 n).toNat = n := WordArith.toNat_ofNat_of_lt n (by omega)
  show (IntOp.minsi _ _).toNat = _
  rw [WordArith.toNat_minsi_of_lt _ _ (by rw [ha]; omega) (by rw [hsub]; omega), ha, hsub, hq]

/-- The input windows' index maps in closed form, at lengths in range. -/
theorem transform0_eq (pf : pre0.Contents (Elt F)) (h : InRange pf) (i : grid0.Coords) :
    cc0_transform_0 k0_off1_inb numel1_S1 pf i = ![(i 0).val, min (i 1).val (((lenW pf (i 0)).toNat + 511) / 512 - 1), 0] := by
  rw [transform0_tile, tileWord_toNat _ (i1_lt i) _ (h (i 0)).1 (h (i 0)).2,
    WordArith.toNat_ofNat_of_lt _ (by have := i0_lt i; omega)]
  rfl
theorem transform1_eq (pf : pre0.Contents (Elt F)) (h : InRange pf) (i : grid0.Coords) :
    cc0_transform_1 k0_off1_inb numel1_S1 pf i = ![(i 0).val, min (i 1).val (((lenW pf (i 0)).toNat + 511) / 512 - 1), 0] := by
  rw [transform1_tile, tileWord_toNat _ (i1_lt i) _ (h (i 0)).1 (h (i 0)).2,
    WordArith.toNat_ofNat_of_lt _ (by have := i0_lt i; omega)]
  rfl

/-- At lengths in range every fetched tile lies inside its array. -/
theorem ok0_of_inRange (pf : pre0.Contents (Elt F)) (h : InRange pf) : ok0 pf := by
  have key : ∀ (i : grid0.Coords) (a : Fin 3),
      ((![(i 0).val, min (i 1).val (((lenW pf (i 0)).toNat + 511) / 512 - 1), 0] : Fin 3 → Nat) a + 1) * S1x512x512.size a
        ≤ S16x2048x512.size a := by
    intro i a
    have h0 := i0_lt i
    have h1 := i1_lt i
    fin_cases a
    · show ((i 0).val + 1) * 1 ≤ 16; omega
    · show (min (i 1).val (((lenW pf (i 0)).toNat + 511) / 512 - 1) + 1) * 512 ≤ 2048; omega
    · show (0 + 1) * 512 ≤ 512; omega
  refine ⟨fun i => ⟨?_, Or.inl rfl⟩, fun i => ⟨?_, Or.inl rfl⟩⟩
  · rw [transform0_eq pf h i]; exact key i
  · rw [transform1_eq pf h i]; exact key i

end Cert.KernelIdeal.Hand

end
-- ==== Proof.KernelIdeal.Runs.lean ====
/-
  The kernel body's four runs, by its two conditions (kv = 0: reset; kv * 512 < len: accumulate), each on whole staging
  memrefs holding the two input tiles at `x`, `y`, the table held whole at `f`: what each accumulator's buffer ends with.
-/
import proofs.«404824_j9861244912212_2_alg».proof.Proof.KernelIdeal.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 block, however spelt. -/
private theorem hz3 : (![0, 0, 0] : Fin 3 → Nat) = fun _ => 0 := funext fun a => by fin_cases a <;> rfl

section Whole
variable {Val : EltTy → Type} [∀ e, Nonempty (Val e)] {sg : RefSig} {κ : Kind} {sp : Space} {S : Shape} {e : EltTy}

/-- One store through the whole-shape rectangle reads back as its payload, whatever was there before. -/
private theorem read_writes_unit0 (v : View sg κ sp S e) (g : v.ty.Contents Val) {off : Fin S.rank → Nat} (h : off = fun _ => 0)
    (inb : ∀ a, off a + S.size a ≤ S.size a) (w : S.Idx → Val e) :
    v.read Val (v.writes Val g [(⟨Rect.unit off S.size inb, w⟩ : View.Piece Val S e)]) = w := by
  rw [View.read_writes_eq_canon _ _ _ (fun y => ⟨_, List.mem_singleton_self _, View.mem_set_unit_zero h inb y⟩),
    View.canon_unit_zero h]

/-- Two stores through the whole-shape rectangle: the later one's payload is read back. -/
private theorem read_writes_unit0_cons (v : View sg κ sp S e) (g : v.ty.Contents Val) {off : Fin S.rank → Nat} (h : off = fun _ => 0)
    (inb : ∀ a, off a + S.size a ≤ S.size a) (w : S.Idx → Val e) (L : List (View.Piece Val S e)) :
    v.read Val (v.writes Val g ((⟨Rect.unit off S.size inb, w⟩ : View.Piece Val S e) :: L)) = w := by
  rw [View.read_writes_eq_canon _ _ _ (fun y => ⟨_, List.mem_cons_self, View.mem_set_unit_zero h inb y⟩),
    View.canon_cons_unit_zero h]
end Whole

/-- kv = 0 and the tile live: each accumulator is reset, then gains the tile's masked sums. -/
theorem run_first_live (c : Dev nD) (i : grid0.Coords) (f : TbBuf (F := F) c) (h1 : k0_cond1 i = 1#1) (h2 : k0_cond2 i (wordAt c f i) = 1#1)
    (arg3 : Memref sig .tc .vmem S1x512x512 .f32) (harg3 : arg3.IsWhole) (arg4 : Memref sig .tc .vmem S1x512x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x512 .f32) (harg7 : arg7.IsWhole)
    (x y : Vec F S1x512x512 .f32)  (E : Set ℕ) (K : PUnit → sProp 𝕄) :
    iprop(owns (c : Thread nD τ) arg3 fullShare x ∗ owns (c : Thread nD τ) arg4 fullShare y
        ∗ (∃ d, owns (c : Thread nD τ) arg5 fullShare d) ∗ (∃ d, owns (c : Thread nD τ) arg6 fullShare d) ∗ (∃ d, owns (c : Thread nD τ) arg7 fullShare d) ∗ tbPt c f
        ∗ (iprop(owns (c : Thread nD τ) arg3 fullShare x ∗ owns (c : Thread nD τ) arg4 fullShare y
            ∗ owns (c : Thread nD τ) arg5 fullShare (stepP (wordAt c f i) i x zeroP) ∗ owns (c : Thread nD τ) arg6 fullShare (stepT (wordAt c f i) i y zeroT)
            ∗ owns (c : Thread nD τ) arg7 fullShare (stepW (wordAt c f i) i x y zeroW) ∗ tbPt c f) -∗ K ⟨⟩))
      ⊢ wp frame (wpE (defs₀ (F := F)) Variants.none c none) E
          (cc0__ragged_kernel i tbM htbM arg3 harg3 arg4 harg4 arg5 harg5 arg6 harg6 arg7 harg7) K := by
  simp only [cc0__ragged_kernel_eq_skeleton]; unfold cc0__ragged_kernel_skel
  simp only [k0_part1_eq_skeleton]; unfold k0_part1_skel
  unfold owns
  iintro ⟨⟨%f3, %hf3, H3⟩, ⟨%f4, %hf4, H4⟩, ⟨%d5, %f5, -, H5⟩, ⟨%d6, %f6, -, H6⟩, ⟨%d7, %f7, -, H7⟩, HT, Hk⟩
  obtain rfl := harg3.eq_unread hf3; obtain rfl := harg4.eq_unread hf4
  sl_exec (disch := first | exact h1 | exact h2 | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    pick_goal 2
    · iexact H5
    · ipureintro
      refine (read_writes_unit0_cons _ _ hz3 _ _ _).trans ?_
      sl_unfold_words
      simp only [View.readAt_eq_ld, harg3.read_unread, View.ld_unit_zero (S := S1x512x512) hz3,
        View.readCov_unit_zero (S := S1x1x512) _ hz3]
      rfl
  isplitl [H6]
  · iexists _; isplitr
    pick_goal 2
    · iexact H6
    · ipureintro
      refine (read_writes_unit0_cons _ _ hz3 _ _ _).trans ?_
      sl_unfold_words
      simp only [View.readAt_eq_ld, harg4.read_unread, View.ld_unit_zero (S := S1x512x512) hz3,
        View.readCov_unit_zero (S := S1x1x512) _ hz3]
      rfl
  isplitl [H7]
  · iexists _; isplitr
    pick_goal 2
    · iexact H7
    · ipureintro
      refine (read_writes_unit0_cons _ _ hz3 _ _ _).trans ?_
      sl_unfold_words
      simp only [View.readAt_eq_ld, harg3.read_unread, harg4.read_unread, View.ld_unit_zero (S := S1x512x512) hz3,
        View.readCov_unit_zero (S := S1x1x512) _ hz3]
      rfl
  iexact HT

/-- kv = 0 and the tile dead: each accumulator is reset. -/
theorem run_first_dead (c : Dev nD) (i : grid0.Coords) (f : TbBuf (F := F) c) (h1 : k0_cond1 i = 1#1) (h2 : ¬ k0_cond2 i (wordAt c f i) = 1#1)
    (arg3 : Memref sig .tc .vmem S1x512x512 .f32) (harg3 : arg3.IsWhole) (arg4 : Memref sig .tc .vmem S1x512x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x512 .f32) (harg7 : arg7.IsWhole)
    (x y : Vec F S1x512x512 .f32)  (E : Set ℕ) (K : PUnit → sProp 𝕄) :
    iprop(owns (c : Thread nD τ) arg3 fullShare x ∗ owns (c : Thread nD τ) arg4 fullShare y
        ∗ (∃ d, owns (c : Thread nD τ) arg5 fullShare d) ∗ (∃ d, owns (c : Thread nD τ) arg6 fullShare d) ∗ (∃ d, owns (c : Thread nD τ) arg7 fullShare d) ∗ tbPt c f
        ∗ (iprop(owns (c : Thread nD τ) arg3 fullShare x ∗ owns (c : Thread nD τ) arg4 fullShare y
            ∗ owns (c : Thread nD τ) arg5 fullShare (zeroP (F := F)) ∗ owns (c : Thread nD τ) arg6 fullShare (zeroT (F := F))
            ∗ owns (c : Thread nD τ) arg7 fullShare (zeroW (F := F)) ∗ tbPt c f) -∗ K ⟨⟩))
      ⊢ wp frame (wpE (defs₀ (F := F)) Variants.none c none) E
          (cc0__ragged_kernel i tbM htbM arg3 harg3 arg4 harg4 arg5 harg5 arg6 harg6 arg7 harg7) K := by
  simp only [cc0__ragged_kernel_eq_skeleton]; unfold cc0__ragged_kernel_skel
  simp only [k0_part1_eq_skeleton]; unfold k0_part1_skel
  unfold owns
  iintro ⟨⟨%f3, %hf3, H3⟩, ⟨%f4, %hf4, H4⟩, ⟨%d5, %f5, -, H5⟩, ⟨%d6, %f6, -, H6⟩, ⟨%d7, %f7, -, H7⟩, HT, Hk⟩
  obtain rfl := harg3.eq_unread hf3; obtain rfl := harg4.eq_unread hf4
  sl_exec (disch := first | exact h1 | exact h2 | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    pick_goal 2
    · iexact H5
    · ipureintro
      exact read_writes_unit0 _ _ hz3 _ _
  isplitl [H6]
  · iexists _; isplitr
    pick_goal 2
    · iexact H6
    · ipureintro
      exact read_writes_unit0 _ _ hz3 _ _
  isplitl [H7]
  · iexists _; isplitr
    pick_goal 2
    · iexact H7
    · ipureintro
      exact read_writes_unit0 _ _ hz3 _ _
  iexact HT

/-- kv > 0 and the tile live: each accumulator, found at `p`, `q`, `r`, gains the tile's masked sums. -/
theorem run_later_live (c : Dev nD) (i : grid0.Coords) (f : TbBuf (F := F) c) (h1 : ¬ k0_cond1 i = 1#1) (h2 : k0_cond2 i (wordAt c f i) = 1#1)
    (arg3 : Memref sig .tc .vmem S1x512x512 .f32) (harg3 : arg3.IsWhole) (arg4 : Memref sig .tc .vmem S1x512x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x512 .f32) (harg7 : arg7.IsWhole)
    (x y : Vec F S1x512x512 .f32) (p q r : Vec F S1x1x512 .f32) (E : Set ℕ) (K : PUnit → sProp 𝕄) :
    iprop(owns (c : Thread nD τ) arg3 fullShare x ∗ owns (c : Thread nD τ) arg4 fullShare y
        ∗ owns (c : Thread nD τ) arg5 fullShare p ∗ owns (c : Thread nD τ) arg6 fullShare q ∗ owns (c : Thread nD τ) arg7 fullShare r ∗ tbPt c f
        ∗ (iprop(owns (c : Thread nD τ) arg3 fullShare x ∗ owns (c : Thread nD τ) arg4 fullShare y
            ∗ owns (c : Thread nD τ) arg5 fullShare (stepP (wordAt c f i) i x p) ∗ owns (c : Thread nD τ) arg6 fullShare (stepT (wordAt c f i) i y q)
            ∗ owns (c : Thread nD τ) arg7 fullShare (stepW (wordAt c f i) i x y r) ∗ tbPt c f) -∗ K ⟨⟩))
      ⊢ wp frame (wpE (defs₀ (F := F)) Variants.none c none) E
          (cc0__ragged_kernel i tbM htbM arg3 harg3 arg4 harg4 arg5 harg5 arg6 harg6 arg7 harg7) K := by
  simp only [cc0__ragged_kernel_eq_skeleton]; unfold cc0__ragged_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, HT, Hk⟩
  obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    pick_goal 2
    · iexact H5
    · ipureintro
      refine (read_writes_unit0 _ _ hz3 _ _).trans ?_
      sl_unfold_words
      simp only [View.readAt_eq_ld, harg3.read_unread, harg5.read_unread, View.ld_unit_zero (S := S1x512x512) hz3,
        View.ld_unit_zero (S := S1x1x512) hz3]
      rfl
  isplitl [H6]
  · iexists _; isplitr
    pick_goal 2
    · iexact H6
    · ipureintro
      refine (read_writes_unit0 _ _ hz3 _ _).trans ?_
      sl_unfold_words
      simp only [View.readAt_eq_ld, harg4.read_unread, harg6.read_unread, View.ld_unit_zero (S := S1x512x512) hz3,
        View.ld_unit_zero (S := S1x1x512) hz3]
      rfl
  isplitl [H7]
  · iexists _; isplitr
    pick_goal 2
    · iexact H7
    · ipureintro
      refine (read_writes_unit0 _ _ hz3 _ _).trans ?_
      sl_unfold_words
      simp only [View.readAt_eq_ld, harg3.read_unread, harg4.read_unread, harg7.read_unread, View.ld_unit_zero (S := S1x512x512) hz3,
        View.ld_unit_zero (S := S1x1x512) hz3]
      rfl
  iexact HT

/-- kv > 0 and the tile dead: nothing is stored; every buffer is handed back as found. -/
theorem run_later_dead (c : Dev nD) (i : grid0.Coords) (f : TbBuf (F := F) c) (h1 : ¬ k0_cond1 i = 1#1) (h2 : ¬ k0_cond2 i (wordAt c f i) = 1#1)
    (arg3 : Memref sig .tc .vmem S1x512x512 .f32) (harg3 : arg3.IsWhole) (arg4 : Memref sig .tc .vmem S1x512x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x512 .f32) (harg7 : arg7.IsWhole)
    (x y : Vec F S1x512x512 .f32) (p q r : Vec F S1x1x512 .f32) (E : Set ℕ) (K : PUnit → sProp 𝕄) :
    iprop(owns (c : Thread nD τ) arg3 fullShare x ∗ owns (c : Thread nD τ) arg4 fullShare y
        ∗ owns (c : Thread nD τ) arg5 fullShare p ∗ owns (c : Thread nD τ) arg6 fullShare q ∗ owns (c : Thread nD τ) arg7 fullShare r ∗ tbPt c f
        ∗ (iprop(owns (c : Thread nD τ) arg3 fullShare x ∗ owns (c : Thread nD τ) arg4 fullShare y
            ∗ owns (c : Thread nD τ) arg5 fullShare p ∗ owns (c : Thread nD τ) arg6 fullShare q
            ∗ owns (c : Thread nD τ) arg7 fullShare r ∗ tbPt c f) -∗ K ⟨⟩))
      ⊢ wp frame (wpE (defs₀ (F := F)) Variants.none c none) E
          (cc0__ragged_kernel i tbM htbM arg3 harg3 arg4 harg4 arg5 harg5 arg6 harg6 arg7 harg7) K := by
  simp only [cc0__ragged_kernel_eq_skeleton]; unfold cc0__ragged_kernel_skel
  unfold owns
  iintro ⟨⟨%f3, %hf3, H3⟩, ⟨%f4, %hf4, H4⟩, ⟨%f5, %hf5, H5⟩, ⟨%f6, %hf6, H6⟩, ⟨%f7, %hf7, H7⟩, HT, Hk⟩
  obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexact HT

end Cert.KernelIdeal.Hand

end
-- ==== Proof.KernelIdeal.Data.lean ====
/-
  The body obligation: at every grid point the kernel body, handed each input's tile and each accumulator as the
  point before left it, leaves the accumulators at their next values.

  The grid point number n is row n / 4, tile n % 4. The accumulators' windows read the row only: each is written back
  exactly at a row's last tile (n % 4 = 3), and is idle exactly where neither branch of the body stores (n % 4 ≠ 0 and
  the tile dead). So an accumulator's buffer holds nothing stored exactly at a row's first tile, and elsewhere holds
  the accumulator's value after the point before; the inputs' buffers hold their tiles at every point. With that the
  obligation at a point is one of the body's four runs, by its two conditions.
-/
import proofs.«404824_j9861244912212_2_alg».proof.Proof.KernelIdeal.Acc
import proofs.«404824_j9861244912212_2_alg».proof.Proof.KernelIdeal.Tables
import proofs.«404824_j9861244912212_2_alg».proof.Proof.KernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid point's coordinates in closed form: row n / 4, tile n % 4. -/
theorem coords1 : ∀ t : Fin grid0.N, (grid0.coords t 1).val = t.val % 4 := by decide +kernel
theorem coords0 : ∀ t : Fin grid0.N, (grid0.coords t 0).val = t.val / 4 := by decide +kernel

/-- Each accumulator's window is written back exactly at a row's last tile, at any contents of the table (its index
    map reads none). -/
theorem flush_2 (a : (pcfg0 (F := F)).Adm) : ∀ t : Fin (cfg0 a).N, ((cfg0 a).win 2).flush t = decide (t.val % 4 = 3) :=
  (by decide +kernel : ∀ t : Fin grid0.N, Pipeline.Window.flushOf grid0 true cc0_transform_2 t = decide (t.val % 4 = 3))
theorem flush_3 (a : (pcfg0 (F := F)).Adm) : ∀ t : Fin (cfg0 a).N, ((cfg0 a).win 3).flush t = decide (t.val % 4 = 3) :=
  (by decide +kernel : ∀ t : Fin grid0.N, Pipeline.Window.flushOf grid0 true cc0_transform_3 t = decide (t.val % 4 = 3))
theorem flush_4 (a : (pcfg0 (F := F)).Adm) : ∀ t : Fin (cfg0 a).N, ((cfg0 a).win 4).flush t = decide (t.val % 4 = 3) :=
  (by decide +kernel : ∀ t : Fin grid0.N, Pipeline.Window.flushOf grid0 true cc0_transform_4 t = decide (t.val % 4 = 3))

/-- The kernel body at point t, on what the pipeline calls it with: the table whole, each window's current staging
    memref. -/
abbrev bodyAt0 (a : (pcfg0 (F := F)).Adm) (t : Fin (cfg0 a).N) : Prog (TpuEff nD τ sig (Elt F) Λ₀ .tc) PUnit :=
  cc0__ragged_kernel (grid0.coords t) (Memref.whole main_arg3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- The word the body loads at a grid point is the row's length word. -/
theorem wordAt_tbf (c : Dev nD) (i : grid0.Coords) : wordAt c (tbf m c) i = lenW (tbl m) (i 0) := by
  rw [← at_eq]
  rfl

/-- Where each window is idle, at any contents of the table: an input nowhere; an accumulator where the point is not
    a row's first tile and the tile is dead at the row's length word. -/
theorem idle_0 (a : (pcfg0 (F := F)).Adm) (i : grid0.Coords) : (cfg0 a).idle 0 i = false := rfl
theorem idle_1 (a : (pcfg0 (F := F)).Adm) (i : grid0.Coords) : (cfg0 a).idle 1 i = false := rfl
theorem idle_2 (a : (pcfg0 (F := F)).Adm) (i : grid0.Coords) :
    (cfg0 a).idle 2 i = (!(k0_cond1 i == 1#1) && !(k0_cond2 i (lenW a.1 (i 0)) == 1#1)) := by
  rw [← atD_eq]; rfl
theorem idle_3 (a : (pcfg0 (F := F)).Adm) (i : grid0.Coords) :
    (cfg0 a).idle 3 i = (!(k0_cond1 i == 1#1) && !(k0_cond2 i (lenW a.1 (i 0)) == 1#1)) := by
  rw [← atD_eq]; rfl
theorem idle_4 (a : (pcfg0 (F := F)).Adm) (i : grid0.Coords) :
    (cfg0 a).idle 4 i = (!(k0_cond1 i == 1#1) && !(k0_cond2 i (lenW a.1 (i 0)) == 1#1)) := by
  rw [← atD_eq]; rfl

/-- The reset condition at point t: its tile index t % 4 is zero. -/
theorem cond1_at (t : Fin grid0.N) : k0_cond1 (grid0.coords t) = 1#1 ↔ t.val % 4 = 0 := by
  rw [cond1_iff, coords1]

/-- A window written back exactly at a row's last tile and never idle at its first holds nothing stored exactly
    at the row's first tile. -/
theorem fresh_closed {Λ : Labels} (cfg : Pipeline.Cfg sig Λ) (w : Fin cfg.W)
    (hfl : ∀ t : Fin cfg.N, (cfg.win w).flush t = decide (t.val % 4 = 3))
    (hid : ∀ t : Fin cfg.N, t.val % 4 = 0 → cfg.idle w (cfg.grid.coords t) = false) :
    ∀ n, n ≤ cfg.N → cfg.fresh w n = decide (n % 4 = 0) :=
  cfg.fresh_tab w (fun n => decide (n % 4 = 0)) (by decide) (fun t => by
    show decide ((t.val + 1) % 4 = 0) = _
    rw [hfl]
    by_cases h0 : t.val % 4 = 0
    · rw [hid t h0, Bool.false_and, Bool.or_false]; exact decide_eq_decide.2 (by omega)
    · rw [decide_eq_false h0, Bool.and_false, Bool.or_false]; exact decide_eq_decide.2 (by omega))

/-- An accumulator is never idle at a row's first tile (it is reset there). -/
theorem idle_first_2 (a : (pcfg0 (F := F)).Adm) (t : Fin (cfg0 a).N) (h : t.val % 4 = 0) : (cfg0 a).idle 2 ((cfg0 a).grid.coords t) = false := by
  rw [idle_2, beq_iff_eq.2 ((cond1_at t).2 h)]; rfl
theorem idle_first_3 (a : (pcfg0 (F := F)).Adm) (t : Fin (cfg0 a).N) (h : t.val % 4 = 0) : (cfg0 a).idle 3 ((cfg0 a).grid.coords t) = false := by
  rw [idle_3, beq_iff_eq.2 ((cond1_at t).2 h)]; rfl
theorem idle_first_4 (a : (pcfg0 (F := F)).Adm) (t : Fin (cfg0 a).N) (h : t.val % 4 = 0) : (cfg0 a).idle 4 ((cfg0 a).grid.coords t) = false := by
  rw [idle_4, beq_iff_eq.2 ((cond1_at t).2 h)]; rfl

/-- So an accumulator's buffer holds nothing stored exactly at a row's first tile. -/
theorem fresh_2 (a : (pcfg0 (F := F)).Adm) (t : Fin (cfg0 a).N) : (cfg0 a).fresh 2 t.val = decide (t.val % 4 = 0) :=
  fresh_closed (cfg0 a) 2 (flush_2 a) (idle_first_2 a) t.val (Nat.le_of_lt t.isLt)
theorem fresh_3 (a : (pcfg0 (F := F)).Adm) (t : Fin (cfg0 a).N) : (cfg0 a).fresh 3 t.val = decide (t.val % 4 = 0) :=
  fresh_closed (cfg0 a) 3 (flush_3 a) (idle_first_3 a) t.val (Nat.le_of_lt t.isLt)
theorem fresh_4 (a : (pcfg0 (F := F)).Adm) (t : Fin (cfg0 a).N) : (cfg0 a).fresh 4 t.val = decide (t.val % 4 = 0) :=
  fresh_closed (cfg0 a) 4 (flush_4 a) (idle_first_4 a) t.val (Nat.le_of_lt t.isLt)

/-- What an idle point of an output window says: not the row's first tile, and the tile dead. -/
theorem idle_iff (hO : Ok m) (c : Dev nD) (t : Fin (cfgM m hO).N) :
    (!(k0_cond1 (grid0.coords t) == 1#1) && !(k0_cond2 (grid0.coords t) (lenW (tbl m) (grid0.coords t 0)) == 1#1)) = true
      ↔ t.val % 4 ≠ 0 ∧ ¬ live m hO c t := by
  unfold live lenAt
  rw [wordAt_tbf, Bool.and_eq_true, Bool.not_eq_true', Bool.not_eq_true', beq_eq_false_iff_ne, beq_eq_false_iff_ne, ne_eq, ne_eq, cond1_at]

/-- Each accumulator after point t, in one form for every point: the value carried in (the zero block at a row's
    first tile, else the value after the point before), stepped if the tile is live. -/
theorem accP_at (hO : Ok m) (c : Dev nD) (t : Fin (cfgM m hO).N) :
    accP m hO c t.val = if live m hO c t
      then stepP (lenAt m hO c t) (grid0.coords t) (iblk m hO c 0 t) (if t.val % 4 = 0 then zeroP else accP m hO c (t.val - 1))
      else (if t.val % 4 = 0 then zeroP else accP m hO c (t.val - 1)) := by
  obtain ⟨n, h⟩ := t
  cases n with
  | zero => rw [accP, dif_pos h]; rfl
  | succ n => rw [accP, dif_pos h]; rfl

theorem accT_at (hO : Ok m) (c : Dev nD) (t : Fin (cfgM m hO).N) :
    accT m hO c t.val = if live m hO c t
      then stepT (lenAt m hO c t) (grid0.coords t) (iblk m hO c 1 t) (if t.val % 4 = 0 then zeroT else accT m hO c (t.val - 1))
      else (if t.val % 4 = 0 then zeroT else accT m hO c (t.val - 1)) := by
  obtain ⟨n, h⟩ := t
  cases n with
  | zero => rw [accT, dif_pos h]; rfl
  | succ n => rw [accT, dif_pos h]; rfl
theorem accW_at (hO : Ok m) (c : Dev nD) (t : Fin (cfgM m hO).N) :
    accW m hO c t.val = if live m hO c t
      then stepW (lenAt m hO c t) (grid0.coords t) (iblk m hO c 0 t) (iblk m hO c 1 t) (if t.val % 4 = 0 then zeroW else accW m hO c (t.val - 1))
      else (if t.val % 4 = 0 then zeroW else accW m hO c (t.val - 1)) := by
  obtain ⟨n, h⟩ := t
  cases n with
  | zero => rw [accW, dif_pos h]; rfl
  | succ n => rw [accW, dif_pos h]; rfl

/-! The four cases of each accumulator's step. -/

theorem accP_reset_live (hO : Ok m) (c : Dev nD) (t : Fin (cfgM m hO).N) (h0 : t.val % 4 = 0) (hl : live m hO c t) :
    accP m hO c t.val = stepP (lenAt m hO c t) (grid0.coords t) (iblk m hO c 0 t) zeroP := by
  rw [accP_at, if_pos hl, if_pos h0]
theorem accP_reset_dead (hO : Ok m) (c : Dev nD) (t : Fin (cfgM m hO).N) (h0 : t.val % 4 = 0) (hl : ¬ live m hO c t) :
    accP m hO c t.val = zeroP := by
  rw [accP_at, if_neg hl, if_pos h0]
theorem accP_step (hO : Ok m) (c : Dev nD) (t : Fin (cfgM m hO).N) (h0 : t.val % 4 ≠ 0) (hl : live m hO c t) :
    accP m hO c t.val = stepP (lenAt m hO c t) (grid0.coords t) (iblk m hO c 0 t) (accP m hO c (t.val - 1)) := by
  rw [accP_at, if_pos hl, if_neg h0]
theorem accP_carry (hO : Ok m) (c : Dev nD) (t : Fin (cfgM m hO).N) (h0 : t.val % 4 ≠ 0) (hl : ¬ live m hO c t) :
    accP m hO c t.val = accP m hO c (t.val - 1) := by
  rw [accP_at, if_neg hl, if_neg h0]

theorem accT_reset_live (hO : Ok m) (c : Dev nD) (t : Fin (cfgM m hO).N) (h0 : t.val % 4 = 0) (hl : live m hO c t) :
    accT m hO c t.val = stepT (lenAt m hO c t) (grid0.coords t) (iblk m hO c 1 t) zeroT := by
  rw [accT_at, if_pos hl, if_pos h0]
theorem accT_reset_dead (hO : Ok m) (c : Dev nD) (t : Fin (cfgM m hO).N) (h0 : t.val % 4 = 0) (hl : ¬ live m hO c t) :
    accT m hO c t.val = zeroT := by
  rw [accT_at, if_neg hl, if_pos h0]
theorem accT_step (hO : Ok m) (c : Dev nD) (t : Fin (cfgM m hO).N) (h0 : t.val % 4 ≠ 0) (hl : live m hO c t) :
    accT m hO c t.val = stepT (lenAt m hO c t) (grid0.coords t) (iblk m hO c 1 t) (accT m hO c (t.val - 1)) := by
  rw [accT_at, if_pos hl, if_neg h0]
theorem accT_carry (hO : Ok m) (c : Dev nD) (t : Fin (cfgM m hO).N) (h0 : t.val % 4 ≠ 0) (hl : ¬ live m hO c t) :
    accT m hO c t.val = accT m hO c (t.val - 1) := by
  rw [accT_at, if_neg hl, if_neg h0]

theorem accW_reset_live (hO : Ok m) (c : Dev nD) (t : Fin (cfgM m hO).N) (h0 : t.val % 4 = 0) (hl : live m hO c t) :
    accW m hO c t.val = stepW (lenAt m hO c t) (grid0.coords t) (iblk m hO c 0 t) (iblk m hO c 1 t) zeroW := by
  rw [accW_at, if_pos hl, if_pos h0]
theorem accW_reset_dead (hO : Ok m) (c : Dev nD) (t : Fin (cfgM m hO).N) (h0 : t.val % 4 = 0) (hl : ¬ live m hO c t) :
    accW m hO c t.val = zeroW := by
  rw [accW_at, if_neg hl, if_pos h0]
theorem accW_step (hO : Ok m) (c : Dev nD) (t : Fin (cfgM m hO).N) (h0 : t.val % 4 ≠ 0) (hl : live m hO c t) :
    accW m hO c t.val = stepW (lenAt m hO c t) (grid0.coords t) (iblk m hO c 0 t) (iblk m hO c 1 t) (accW m hO c (t.val - 1)) := by
  rw [accW_at, if_pos hl, if_neg h0]
theorem accW_carry (hO : Ok m) (c : Dev nD) (t : Fin (cfgM m hO).N) (h0 : t.val % 4 ≠ 0) (hl : ¬ live m hO c t) :
    accW m hO c t.val = accW m hO c (t.val - 1) := by
  rw [accW_at, if_neg hl, if_neg h0]

/-! ## What each window's staging buffer holds when the body runs -/

/-- An input's buffer holds its tile at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! An accumulator's buffer holds anything at a row's first tile, else the accumulator after the point before. -/

theorem before_2 (hO : Ok m) (c : Dev nD) (t : Fin (cfgM m hO).N) (d) :
    (dats m hO 0 c).before 2 t d = if t.val % 4 = 0 then d else accP m hO c (t.val - 1) := by
  rw [(dats m hO 0 c).before_out_traj 2 rfl (fun _ _ => rfl) (fun t ht hi hf => by
      rw [after0_2, after0_2]
      rw [idle_2] at hi
      obtain ⟨h0, hl⟩ := (idle_iff m hO c t).1 hi
      exact accP_carry m hO c t h0 hl) t.val t rfl d, fresh_2, after0_2]
  simp only [decide_eq_true_eq]
theorem before_2_first (hO : Ok m) (c : Dev nD) (t : Fin (cfgM m hO).N) (h0 : t.val % 4 = 0) (d) :
    (dats m hO 0 c).before 2 t d = d := (before_2 m hO c t d).trans (if_pos h0)
theorem before_2_later (hO : Ok m) (c : Dev nD) (t : Fin (cfgM m hO).N) (h0 : t.val % 4 ≠ 0) (d) :
    (dats m hO 0 c).before 2 t d = accP m hO c (t.val - 1) := (before_2 m hO c t d).trans (if_neg h0)

theorem before_3 (hO : Ok m) (c : Dev nD) (t : Fin (cfgM m hO).N) (d) :
    (dats m hO 0 c).before 3 t d = if t.val % 4 = 0 then d else accT m hO c (t.val - 1) := by
  rw [(dats m hO 0 c).before_out_traj 3 rfl (fun _ _ => rfl) (fun t ht hi hf => by
      rw [after0_3, after0_3]
      rw [idle_3] at hi
      obtain ⟨h0, hl⟩ := (idle_iff m hO c t).1 hi
      exact accT_carry m hO c t h0 hl) t.val t rfl d, fresh_3, after0_3]
  simp only [decide_eq_true_eq]
theorem before_3_first (hO : Ok m) (c : Dev nD) (t : Fin (cfgM m hO).N) (h0 : t.val % 4 = 0) (d) :
    (dats m hO 0 c).before 3 t d = d := (before_3 m hO c t d).trans (if_pos h0)
theorem before_3_later (hO : Ok m) (c : Dev nD) (t : Fin (cfgM m hO).N) (h0 : t.val % 4 ≠ 0) (d) :
    (dats m hO 0 c).before 3 t d = accT m hO c (t.val - 1) := (before_3 m hO c t d).trans (if_neg h0)

theorem before_4 (hO : Ok m) (c : Dev nD) (t : Fin (cfgM m hO).N) (d) :
    (dats m hO 0 c).before 4 t d = if t.val % 4 = 0 then d else accW m hO c (t.val - 1) := by
  rw [(dats m hO 0 c).before_out_traj 4 rfl (fun _ _ => rfl) (fun t ht hi hf => by
      rw [after0_4, after0_4]
      rw [idle_4] at hi
      obtain ⟨h0, hl⟩ := (idle_iff m hO c t).1 hi
      exact accW_carry m hO c t h0 hl) t.val t rfl d, fresh_4, after0_4]
  simp only [decide_eq_true_eq]
theorem before_4_first (hO : Ok m) (c : Dev nD) (t : Fin (cfgM m hO).N) (h0 : t.val % 4 = 0) (d) :
    (dats m hO 0 c).before 4 t d = d := (before_4 m hO c t d).trans (if_pos h0)
theorem before_4_later (hO : Ok m) (c : Dev nD) (t : Fin (cfgM m hO).N) (h0 : t.val % 4 ≠ 0) (d) :
    (dats m hO 0 c).before 4 t d = accW m hO c (t.val - 1) := (before_4 m hO c t d).trans (if_neg h0)

/-! ## The accumulators' post: the value after the point serves at every point

At a point idle for an accumulator that does not write it back the obligation asks for the buffer as found; there the
accumulator is carried unchanged, so its value after the point IS what was found. -/

theorem leaves_2 (hO : Ok m) (c : Dev nD) (t : Fin (cfgM m hO).N) :
    owns (c : Thread nD τ) (((cfgM m hO).win 2).stage ((cfgM m hO).slots t 2)) fullShare ((dats m hO 0 c).after 2 t)
      ⊢ ((dats m hO 0 c).leavesExact 2 t : sProp 𝕄) := by
  unfold Dat.leavesExact
  cases hi : (cfgM m hO).idle 2 ((cfgM m hO).grid.coords t)
  · exact .rfl
  · cases hf : ((cfgM m hO).win 2).flush t
    · rw [idle_2] at hi
      obtain ⟨h0, hl⟩ := (idle_iff m hO c t).1 hi
      have e : (dats m hO 0 c).before 2 t ((dats m hO 0 c).after 2 t) = (dats m hO 0 c).after 2 t :=
        (before_2_later m hO c t h0 _).trans (((after0_2 m hO c t).trans (accP_carry m hO c t h0 hl)).symm)
      iintro H
      iexists (dats m hO 0 c).after 2 t
      rw [e]; iexact H
    · exact .rfl

theorem leaves_3 (hO : Ok m) (c : Dev nD) (t : Fin (cfgM m hO).N) :
    owns (c : Thread nD τ) (((cfgM m hO).win 3).stage ((cfgM m hO).slots t 3)) fullShare ((dats m hO 0 c).after 3 t)
      ⊢ ((dats m hO 0 c).leavesExact 3 t : sProp 𝕄) := by
  unfold Dat.leavesExact
  cases hi : (cfgM m hO).idle 3 ((cfgM m hO).grid.coords t)
  · exact .rfl
  · cases hf : ((cfgM m hO).win 3).flush t
    · rw [idle_3] at hi
      obtain ⟨h0, hl⟩ := (idle_iff m hO c t).1 hi
      have e : (dats m hO 0 c).before 3 t ((dats m hO 0 c).after 3 t) = (dats m hO 0 c).after 3 t :=
        (before_3_later m hO c t h0 _).trans (((after0_3 m hO c t).trans (accT_carry m hO c t h0 hl)).symm)
      iintro H
      iexists (dats m hO 0 c).after 3 t
      rw [e]; iexact H
    · exact .rfl

theorem leaves_4 (hO : Ok m) (c : Dev nD) (t : Fin (cfgM m hO).N) :
    owns (c : Thread nD τ) (((cfgM m hO).win 4).stage ((cfgM m hO).slots t 4)) fullShare ((dats m hO 0 c).after 4 t)
      ⊢ ((dats m hO 0 c).leavesExact 4 t : sProp 𝕄) := by
  unfold Dat.leavesExact
  cases hi : (cfgM m hO).idle 4 ((cfgM m hO).grid.coords t)
  · exact .rfl
  · cases hf : ((cfgM m hO).win 4).flush t
    · rw [idle_4] at hi
      obtain ⟨h0, hl⟩ := (idle_iff m hO c t).1 hi
      have e : (dats m hO 0 c).before 4 t ((dats m hO 0 c).after 4 t) = (dats m hO 0 c).after 4 t :=
        (before_4_later m hO c t h0 _).trans (((after0_4 m hO c t).trans (accW_carry m hO c t h0 hl)).symm)
      iintro H
      iexists (dats m hO 0 c).after 4 t
      rw [e]; iexact H
    · exact .rfl

/-! ## The body obligation -/

/-- The invariant at every point: the scoped rest and the generator register, and the one table held whole. -/
theorem Phi_eq (hO : Ok m) (c : Dev nD) (t : Fin ((cfgM m hO).N + 1)) :
    ((dats m hO 0 c).Φ t : sProp 𝕄) = iprop(Pipeline.ΦA spec0 c ∗ tbPt c (tbf m c)) := by
  show iprop(Pipeline.ΦA spec0 c ∗ Pipeline.prefHeld pre0 c (fun _ => fullShare) (tbl m)) = _
  unfold Pipeline.prefHeld
  rw [show (Finset.univ : Finset (Fin 1)) = {(0 : Fin 1)} from by decide, bigSep_singleton]
  rfl

/-- Each window's current staging memref at point t, as the pipeline passes it to the body. -/
abbrev ms0 (hO : Ok m) (t : Fin (cfgM m hO).N) : Memref sig .tc .vmem S1x512x512 .f32 := spec0_0.stage ((cfgM m hO).slots t 0)
abbrev ms1 (hO : Ok m) (t : Fin (cfgM m hO).N) : Memref sig .tc .vmem S1x512x512 .f32 := spec0_1.stage ((cfgM m hO).slots t 1)
abbrev ms2 (hO : Ok m) (t : Fin (cfgM m hO).N) : Memref sig .tc .vmem S1x1x512 .f32 := spec0_2.stage ((cfgM m hO).slots t 2)
abbrev ms3 (hO : Ok m) (t : Fin (cfgM m hO).N) : Memref sig .tc .vmem S1x1x512 .f32 := spec0_3.stage ((cfgM m hO).slots t 3)
abbrev ms4 (hO : Ok m) (t : Fin (cfgM m hO).N) : Memref sig .tc .vmem S1x1x512 .f32 := spec0_4.stage ((cfgM m hO).slots t 4)

/-- What the body is called with at point t: the invariant, what the core owes, each window's buffer at what it holds. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- What it returns: every buffer at its value after the point. -/
def bodyMid (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- The body at any point, by its two conditions: the inputs' buffers hold their tiles, the accumulators' what the
    point before left (anything at a row's first tile, where they are reset); the matching run applies; the
    invariant's table is lent to the run and returned; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyMid m hO c t) := by
  unfold bodyPre bodyMid bodyAt0
  rw [Phi_eq, Phi_eq, show (dats m hO 0 c).owesAt () t.succ = (dats m hO 0 c).owesAt () t.castSucc from rfl]
  simp only [before_0, before_1]
  rw [after0_0, after0_1, after0_2, after0_3, after0_4]
  by_cases h1 : k0_cond1 (grid0.coords t) = 1#1
  · have h0 : t.val % 4 = 0 := (cond1_at t).1 h1
    simp only [before_2_first m hO c t h0, before_3_first m hO c t h0, before_4_first m hO c t h0]
    by_cases h2 : live m hO c t
    · rw [accP_reset_live m hO c t h0 h2, accT_reset_live m hO c t h0 h2, accW_reset_live m hO c t h0 h2]
      iintro ⟨⟨HΦ, HT⟩, Ho, ⟨%d0, H0⟩, ⟨%d1, H1⟩, H2, H3, H4⟩
      iapply (run_first_live c (grid0.coords t) (tbf m c) h1 h2 _ _ _ _ _ _ _ _ _ _ (iblk m hO c 0 t) (iblk m hO c 1 t) Set.univ _)
      isplitl [H0]; · iexact H0
      isplitl [H1]; · iexact H1
      isplitl [H2]; · iexact H2
      isplitl [H3]; · iexact H3
      isplitl [H4]; · iexact H4
      isplitl [HT]; · iexact HT
      iintro ⟨H0, H1, H2, H3, H4, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      iexact H4
    · rw [accP_reset_dead m hO c t h0 h2, accT_reset_dead m hO c t h0 h2, accW_reset_dead m hO c t h0 h2]
      iintro ⟨⟨HΦ, HT⟩, Ho, ⟨%d0, H0⟩, ⟨%d1, H1⟩, H2, H3, H4⟩
      iapply (run_first_dead c (grid0.coords t) (tbf m c) h1 h2 _ _ _ _ _ _ _ _ _ _ (iblk m hO c 0 t) (iblk m hO c 1 t) Set.univ _)
      isplitl [H0]; · iexact H0
      isplitl [H1]; · iexact H1
      isplitl [H2]; · iexact H2
      isplitl [H3]; · iexact H3
      isplitl [H4]; · iexact H4
      isplitl [HT]; · iexact HT
      iintro ⟨H0, H1, H2, H3, H4, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      iexact H4
  · have h0 : t.val % 4 ≠ 0 := fun h => h1 ((cond1_at t).2 h)
    simp only [before_2_later m hO c t h0, before_3_later m hO c t h0, before_4_later m hO c t h0]
    by_cases h2 : live m hO c t
    · rw [accP_step m hO c t h0 h2, accT_step m hO c t h0 h2, accW_step m hO c t h0 h2]
      iintro ⟨⟨HΦ, HT⟩, Ho, ⟨%d0, H0⟩, ⟨%d1, H1⟩, ⟨%d2, H2⟩, ⟨%d3, H3⟩, ⟨%d4, H4⟩⟩
      iapply (run_later_live c (grid0.coords t) (tbf m c) h1 h2 _ _ _ _ _ _ _ _ _ _ (iblk m hO c 0 t) (iblk m hO c 1 t)
        (accP m hO c (t.val - 1)) (accT m hO c (t.val - 1)) (accW m hO c (t.val - 1)) Set.univ _)
      isplitl [H0]; · iexact H0
      isplitl [H1]; · iexact H1
      isplitl [H2]; · iexact H2
      isplitl [H3]; · iexact H3
      isplitl [H4]; · iexact H4
      isplitl [HT]; · iexact HT
      iintro ⟨H0, H1, H2, H3, H4, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      iexact H4
    · rw [accP_carry m hO c t h0 h2, accT_carry m hO c t h0 h2, accW_carry m hO c t h0 h2]
      iintro ⟨⟨HΦ, HT⟩, Ho, ⟨%d0, H0⟩, ⟨%d1, H1⟩, ⟨%d2, H2⟩, ⟨%d3, H3⟩, ⟨%d4, H4⟩⟩
      iapply (run_later_dead c (grid0.coords t) (tbf m c) h1 h2 _ _ _ _ _ _ _ _ _ _ (iblk m hO c 0 t) (iblk m hO c 1 t)
        (accP m hO c (t.val - 1)) (accT m hO c (t.val - 1)) (accW m hO c (t.val - 1)) Set.univ _)
      isplitl [H0]; · iexact H0
      isplitl [H1]; · iexact H1
      isplitl [H2]; · iexact H2
      isplitl [H3]; · iexact H3
      isplitl [H4]; · iexact H4
      isplitl [HT]; · iexact HT
      iintro ⟨H0, H1, H2, H3, H4, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      iexact H4

/-- The body obligation, at every point: the body's run, then each accumulator's value after the point handed back in
    the form the point asks for. -/
theorem body_obligation (hO : Ok m) (hR : InRange (tbl m)) (c : Dev nD) :
    BodyObligation (dats (F := F) m hO 0 c) (defs₀ (F := F)) Variants.none () Set.univ := fun t => by
  rw [bigSep_W0, bigSep_W0]
  refine (sound_body m hO c t).trans (wp_mono _ _ _ fun _ => ?_)
  unfold bodyMid
  exact BIClass.sep_mono .rfl (BIClass.sep_mono .rfl (BIClass.sep_mono .rfl (BIClass.sep_mono .rfl
    (BIClass.sep_mono (leaves_2 m hO c t) (BIClass.sep_mono (leaves_3 m hO c t) (leaves_4 m hO c t))))))

end Cert.KernelIdeal.Hand

end
-- ==== Proof.KernelIdeal.Run.lean ====
/-
  The launch: @main is the kernel region followed by 81 host operations. Its run, from any memory with zero
  counters: every weakly fair execution terminates, and every unscoped buffer ends at the host operations' values over
  what the region left — the pipeline's arrays at what the proof data compute, every other buffer as launched.
-/
import proofs.«404824_j9861244912212_2_alg».proof.Proof.KernelIdeal.Data
import Idealize.ShloMosaic.Lib.Pipeline.Frame
import Idealize.ShloMosaic.Lib.Pipeline.FrameSuffix
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region, in order. -/
abbrev tailOps : List (HloOp τ sig (Elt F)) :=
  List.flatten [hostOps1, hostOps1_1, hostOps1_2, hostOps1_3, hostOps1_4, hostOps1_5, hostOps1_6, hostOps1_7, hostOps1_8]

/-- Core `c`'s unscoped buffers when the region is left: the pipeline's arrays at what the proof data compute, every
    other buffer as launched. -/
def Vexit (hO : Ok m) (c : Dev nD) : Valuation τ sig (Elt F) :=
  Pipeline.withArrays spec0 c (fun b => m (c, b)) (fun w => (dats m hO 0 c).arrAt w (cfgM m hO).N)

/-- and at the end of @main. -/
def Vend (hO : Ok m) (c : Dev nD) : Valuation τ sig (Elt F) := StableHlo.after tailOps (Vexit m hO c)

/-! ## What the host operations write

  Each of the 81 operations writes one result buffer of its own; none writes an argument of @main. -/

/-- The arguments of @main. -/
abbrev mainArgs : List (Ref sig .tc) := [main_arg0, main_arg1, main_arg2, main_arg3]

/-- No host operation writes an argument. -/
theorem tail_keeps {b : Ref sig .tc} (hb : b ∈ mainArgs) :
    (tailOps : List (HloOp τ sig (Elt F))).Forall fun op => Proc.devRef (τ := τ) .tc b ∉ op.writes := by
  simp only [mainArgs, List.mem_cons, List.mem_nil_iff, or_false] at hb
  rcases hb with rfl | rfl | rfl | rfl <;>
  · simp only [tailOps, List.flatten, List.cons_append, List.nil_append, List.append_nil, List.Forall]
    repeat' apply And.intro
    all_goals exact fun h => absurd (Finset.mem_singleton.mp h) (StableHlo.devRef_ne_of_ne (by decide))

/-- So an argument's buffer is, after the host operations, what the region left. -/
theorem Vend_of_arg (hO : Ok m) (c : Dev nD) {b : Ref sig .tc} (hb : b ∈ mainArgs) :
    Vend m hO c (Proc.devRef .tc b) = Vexit m hO c (Proc.devRef .tc b) :=
  StableHlo.after_of_forall_not_mem tailOps (Vexit m hO c) (List.forall_iff_forall_mem.mp (tail_keeps hb))

/-! ## The unscoped buffers, sorted: the arrays, the table, the rest -/

/-- Core `c`'s unscoped buffers held at a valuation `W` are the pipeline's arrays at `W`'s contents, the table
    whole at `W`'s, and every other unscoped buffer at `W`'s (the arrays distinct unscoped whole buffers, the table
    unscoped and no array). Stated at any admissible contents of the table and any proof data. -/
theorem held_sorted (a : (p : Fin 1) → (pcfgs (F := F) p).Adm)
    (pdats : (p : Fin 1) → (c : Dev nD) → Dat τ (Elt F) Unit ℕ (UR sig nD τ) ℕ (Pipeline.pin (pcfgs (F := F)) a p) c)
    (c : Dev nD) (hshare : ∀ w, (pdats 0 c).share w = fullShare) (W : Valuation τ sig (Elt F))
    (A : (w : Fin (Pipeline.pin (pcfgs (F := F)) a 0).W) → Buf (Elt F) (((Pipeline.pin (pcfgs (F := F)) a 0).spec w).arr.view.loc (c : Thread nD τ)))
    (hA : ∀ w, A w = W (Proc.devRef .tc (Pipeline.arrRef spec0 w))) :
    (StableHlo.held (c : Thread nD τ) (Pipeline.ucRefs τ sig) W : sProp 𝕄)
      = iprop((pdats 0 c).arrays A ∗ Pipeline.prefHeld pre0 c (fun _ => fullShare) (fun k => W (Proc.devRef .tc (pre0.ref k)))
          ∗ Pipeline.unscopedRestP pre0 spec0 c (fun b => W (Proc.devRef .tc b))) := by
  rw [← Pipeline.unscopedBufs_held (Ix := Unit) (Name := ℕ) (U := UR sig nD τ) (Lvl := ℕ) c W,
    Pipeline.unscopedBufs_split (Pipeline.pin (pcfgs (F := F)) a) 0 (launch0 (F := F)).win.arr_unscoped (launch0 (F := F)).win.arr_inj c _,
    Pipeline.unscopedRest_split (launch0 (F := F)).pre c _,
    Pipeline.arrays_eq (Pipeline.pin (pcfgs (F := F)) a) pdats 0 c (launch0 (F := F)).arr_whole hshare A]
  simp only [hA]

/-! ## The host stretches as segments -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- No core owes another anything: no level is assigned. -/
abbrev noPairs : GSem nD τ sig → Finset Unit := fun _ => ∅
abbrev noLevel : GSem nD τ sig → Unit → ℕ := fun _ _ => 0

/-- What rides beside the buffers through @main: the core owing nothing, and its generator register at some state. -/
abbrev Rest (c : Dev nD) : sProp 𝕄 :=
  iprop((∃ W, owes (c : Thread nD τ) (0 : CellTallies nD τ sig Unit) W) ∗ ∃ r, prngReg c r)

/-- A stretch of host operations over every unscoped buffer, from the valuation `W`. -/
def hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- Core `c`'s unscoped buffers after each stretch in turn. -/
abbrev Vs1 (hO : Ok m) (c : Dev nD) : Valuation τ sig (Elt F) := StableHlo.after hostOps1 (Vexit m hO c)
abbrev Vs2 (hO : Ok m) (c : Dev nD) : Valuation τ sig (Elt F) := StableHlo.after hostOps1_1 (Vs1 m hO c)
abbrev Vs3 (hO : Ok m) (c : Dev nD) : Valuation τ sig (Elt F) := StableHlo.after hostOps1_2 (Vs2 m hO c)
abbrev Vs4 (hO : Ok m) (c : Dev nD) : Valuation τ sig (Elt F) := StableHlo.after hostOps1_3 (Vs3 m hO c)
abbrev Vs5 (hO : Ok m) (c : Dev nD) : Valuation τ sig (Elt F) := StableHlo.after hostOps1_4 (Vs4 m hO c)
abbrev Vs6 (hO : Ok m) (c : Dev nD) : Valuation τ sig (Elt F) := StableHlo.after hostOps1_5 (Vs5 m hO c)
abbrev Vs7 (hO : Ok m) (c : Dev nD) : Valuation τ sig (Elt F) := StableHlo.after hostOps1_6 (Vs6 m hO c)
abbrev Vs8 (hO : Ok m) (c : Dev nD) : Valuation τ sig (Elt F) := StableHlo.after hostOps1_7 (Vs7 m hO c)
abbrev Vs9 (hO : Ok m) (c : Dev nD) : Valuation τ sig (Elt F) := StableHlo.after hostOps1_8 (Vs8 m hO c)

/-- The last of them is the valuation at the end of @main. -/
theorem Vs9_eq (hO : Ok m) (c : Dev nD) : Vs9 m hO c = Vend m hO c := by
  unfold Vend
  simp only [tailOps, List.flatten_cons, List.flatten_nil, StableHlo.after_append, StableHlo.after_nil]

/-! ## The region -/

/-- The proof data hold every array at the full share. -/
theorem dats_share (hO : Ok m) (c : Dev nD) (w : Fin (cfgM m hO).W) : (dats m hO 0 c).share w = fullShare :=
  (dats m hO 0 c).share_full (fun _ => rfl) w

/-- What the region leaves at an array's buffer is what the proof data compute for it. -/
theorem Vexit_arr (hO : Ok m) (c : Dev nD) (w : Fin (cfgM m hO).W) :
    Vexit m hO c (Proc.devRef .tc (Pipeline.arrRef spec0 w)) = (dats m hO 0 c).arrAt w (cfgM m hO).N :=
  Pipeline.withArrays_arr spec0 (launch0 (F := F)).win.arr_inj c _ _ w

/-- Every other buffer it leaves as launched. -/
theorem Vexit_of_ne (hO : Ok m) (c : Dev nD) (b : Ref sig .tc) (hb : ∀ w, Pipeline.arrRef spec0 w ≠ b) :
    Vexit m hO c (Proc.devRef .tc b) = V m c b :=
  Pipeline.withArrays_of_ne spec0 c _ _ b hb

/-- The unscoped buffers as launched, sorted. -/
theorem held_launch (hO : Ok m) (c : Dev nD) :
    (StableHlo.held (c : Thread nD τ) (Pipeline.ucRefs τ sig) (fun b => m (c, b)) : sProp 𝕄)
      = iprop((dats m hO 0 c).arrays ((dats m hO 0 c).arrAt · 0) ∗ Pipeline.prefHeld pre0 c (fun _ => fullShare) (tbl m)
          ∗ Pipeline.unscopedRestP pre0 spec0 c (V m c)) := by
  rw [held_sorted (fun _ => adm m hO) (dats m hO) c (dats_share m hO c) (fun b : DevRef τ sig => m (c, b))
      ((dats m hO 0 c).arrAt · 0) (fun w => A_eq m hO c w),
    show (fun k => (fun b : DevRef τ sig => m (c, b)) (Proc.devRef .tc (pre0.ref k))) = tbl m from funext (V_pre m c)]

/-- The unscoped buffers as the region leaves them, sorted: the arrays at their final contents, the table and the
    rest as launched. -/
theorem held_exit (hO : Ok m) (c : Dev nD) :
    (StableHlo.held (c : Thread nD τ) (Pipeline.ucRefs τ sig) (Vexit m hO c) : sProp 𝕄)
      = iprop((dats m hO 0 c).arrays ((dats m hO 0 c).arrAt · (cfgM m hO).N) ∗ Pipeline.prefHeld pre0 c (fun _ => fullShare) (tbl m)
          ∗ Pipeline.unscopedRestP pre0 spec0 c (V m c)) := by
  rw [held_sorted (fun _ => adm m hO) (dats m hO) c (dats_share m hO c) _ ((dats m hO 0 c).arrAt · (cfgM m hO).N)
      (fun w => (Vexit_arr m hO c w).symm),
    show (fun k => Vexit m hO c (Proc.devRef .tc (pre0.ref k))) = tbl m from
      funext fun k => (Vexit_of_ne m hO c _ fun w e => (launch0 (F := F)).pre.disj k w e.symm).trans (V_pre m c k)]
  refine congrArg (fun X => iprop(_ ∗ _ ∗ X)) ?_
  unfold Pipeline.unscopedRestP
  refine bigSep_congr fun b hb => ?_
  beta_reduce
  rw [Vexit_of_ne m hO c b fun w e =>
    (Finset.mem_sdiff.mp (Finset.mem_sdiff.mp hb).1).2 (Finset.mem_image.mpr ⟨w, Finset.mem_univ _, e⟩)]

set_option backward.isDefEq.respectTransparency.types false in
/-- THE REGION: entered from every unscoped buffer as launched — the arrays into the pipeline, the table whole into
    the invariant beside the generator register, every other buffer bypassing —, left with the arrays at their final
    contents and the table whole again. -/
def reg0 (hO : Ok m) (hR : InRange (tbl m)) :
    Pipeline.RegionSeg (pcfgs (F := F)) (fun _ => adm m hO) (dats m hO) () defs₀ Variants.none noPairs noLevel 0 where
  win := (launch0 (F := F)).win.to₀
  block_pos := (launch0 (F := F)).block_pos
  stage_whole := (launch0 (F := F)).stage_whole
  K := PEmpty
  osem := fun k => k.elim
  ho := Pipeline.OwnSemFacts.none _
  hbody c := (body_obligation m hO hR c).loose
  hwaits := Pipeline.hwaits_of_owed_zero _ _ _ _ noPairs noLevel 0 fun _ _ => rfl
  pre c := iprop(StableHlo.held (c : Thread nD τ) (Pipeline.ucRefs τ sig) (fun b => m (c, b)) ∗ Rest c)
  post c := iprop(StableHlo.held (c : Thread nD τ) (Pipeline.ucRefs τ sig) (Vexit m hO c) ∗ Rest c)
  X c := iprop(∃ r, prngReg c r)
  Y c := iprop((∃ r, prngReg c r) ∗ Pipeline.prefHeld pre0 c (fun _ => fullShare) (tbl m))
  Z c := Pipeline.unscopedRestP pre0 spec0 c (V m c)
  hentry c := by
    rw [held_launch m hO c]
    iintro ⟨⟨⟨Ha, Ht, Hz⟩, HO, Hp⟩, -, -⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (dats m hO 0 c).Φ 0 = iprop(Pipeline.ΦA spec0 c ∗ Pipeline.prefHeld pre0 c (fun _ => fullShare) (tbl m)) from rfl]
    unfold Pipeline.ΦA
    iintro ⟨Hp, Ht, Hr⟩
    isplitr [Ht]
    · isplitl [Hr] <;> iassumption
    · iexact Ht
  hout c := by
    rw [Pipeline.ownSems0_none,
      show (dats m hO 0 c).Φ (Fin.last (cfgM m hO).N) = iprop(Pipeline.ΦA spec0 c ∗ Pipeline.prefHeld pre0 c (fun _ => fullShare) (tbl m)) from rfl]
    unfold Pipeline.ΦA
    iintro ⟨⟨Hr, Hp⟩, Ht⟩
    isplitl [Hp Ht]
    · isplitl [Hp] <;> iassumption
    isplitr; · iempintro
    iexact Hr
  hexit c := by
    rw [held_exit m hO c]
    iintro ⟨Ha, HO, ⟨Hp, Ht⟩, Hz⟩
    imodintro
    isplitr [HO Hp]
    · isplitl [Ha]; · iexact Ha
      isplitl [Ht] <;> iassumption
    isplitl [HO]
    · unfold Pipeline.Dat.owesAt Pipeline.owesWithin
      icases HO with ⟨%W, -, HO⟩; iexists W; iexact HO
    iexact Hp

/-- @main as the list of its items: the region, then the nine stretches. -/
abbrev segs (hO : Ok m) (hR : InRange (tbl m)) :
    List (Pipeline.Seg (pcfgs (F := F)) (fun _ => adm m hO) (dats m hO) () defs₀ Variants.none noPairs noLevel) :=
  [.region (reg0 m hO hR),
   .host (hseg hostOps1 hostOps1_sub hostOps1_fresh (Vexit m hO)),
   .host (hseg hostOps1_1 hostOps1_1_sub hostOps1_1_fresh (Vs1 m hO)),
   .host (hseg hostOps1_2 hostOps1_2_sub hostOps1_2_fresh (Vs2 m hO)),
   .host (hseg hostOps1_3 hostOps1_3_sub hostOps1_3_fresh (Vs3 m hO)),
   .host (hseg hostOps1_4 hostOps1_4_sub hostOps1_4_fresh (Vs4 m hO)),
   .host (hseg hostOps1_5 hostOps1_5_sub hostOps1_5_fresh (Vs5 m hO)),
   .host (hseg hostOps1_6 hostOps1_6_sub hostOps1_6_fresh (Vs6 m hO)),
   .host (hseg hostOps1_7 hostOps1_7_sub hostOps1_7_fresh (Vs7 m hO)),
   .host (hseg hostOps1_8 hostOps1_8_sub hostOps1_8_fresh (Vs8 m hO))]

/-! ## The launch -/

set_option backward.isDefEq.respectTransparency.types false in
/-- From any memory with zero counters, every weakly fair execution of @main terminates, and every unscoped buffer of
    every core ends at the host operations' values over what the region left. -/
theorem run_main (hO : Ok m) (hR : InRange (tbl m)) :
    θ_run defs (onTc (τ := τ) (main (F := F))) ⟨m, fun _ => 0, ρ⟩
      (fun r => ∀ c : Dev nD, ∀ b ∈ Pipeline.ucRefs τ sig, r.2.mem ((c : Thread nD τ).1, b) = Vend m hO c b) :=
  Pipeline.θ_run_regions_kit (pcfgs (F := F)) (fun _ => adm m hO) (dats m hO) () (cellOf_inj _) emb₁ defs₀ Variants.none noPairs noLevel m ρ main
    (segs m hO hR)
    (fun c Q => by
      rewrite [main_chain c, Pipeline.Seg.run_eq_chain,
        show (segs m hO hR).map Pipeline.Seg.prog = [
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5, StableHlo.seq hostOps1_6, StableHlo.seq hostOps1_7,
          StableHlo.seq hostOps1_8 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) fun _ => adm m hO) (cellOf_inj _))
      (Pipeline.launchToks (Pipeline.pin (pcfgs (F := F)) fun _ => adm m hO) (cellOf_inj _)))
    (hu₀ := by
      iintro Hu; imodintro
      isplitl [Hu]
      · iapply (show (ownU _ : sProp 𝕄) ⊢ BI.own (emb₁ (initOf (Pipeline.cells (Pipeline.pin (pcfgs (F := F)) fun _ => adm m hO) (cellOf_inj _))
          (Pipeline.launchToks (Pipeline.pin (pcfgs (F := F)) fun _ => adm m hO) (cellOf_inj _)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ Rest c))
    (Tₙ := fun c => StableHlo.held (c : Thread nD τ) (Pipeline.ucRefs τ sig) (Vs9 m hO c))
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (Vs9 m hO c) ∗ Rest c) ⊢ _
        iintro ⟨Hh, HO, -⟩
        isplitl [Hh] <;> iassumption⟩)
    (hinit := by
      refine Pipeline.initEach noPairs noLevel fun c => ?_
      rw [show unscopedBufs c (fun b => m ((c : Thread nD τ).loc b))
        = StableHlo.held (c : Thread nD τ) (Pipeline.ucRefs τ sig) (fun b => m (c, b)) from Pipeline.unscopedBufs_held (Ix := Unit) (Name := ℕ) (U := UR sig nD τ) (Lvl := ℕ) c (fun b => m (c, b))]
      iintro ⟨⟨Hh, -, HO, -, Hp, -⟩, -⟩
      imodintro
      isplitl [Hh]; · iexact Hh
      isplitl [HO]; · iexists ∅; iexact HO
      iexists _; iexact Hp)
    (QY := fun c s => ∀ b ∈ Pipeline.ucRefs τ sig, s.mem ((c : Thread nD τ).1, b) = Vend m hO c b)
    (hfin := fun c s' => by
      unfold StableHlo.held
      iintro ⟨Hh, HSI⟩
      ihave Hr := (pointsTo_read_all (Pipeline.ucRefs τ sig) (fun b => ((c : Thread nD τ).1, b)) (Vs9 m hO c) s') $$ [Hh HSI]
      · isplitl [Hh] <;> iassumption
      icases Hr with ⟨%h, HSI⟩
      imodintro
      isplitr
      · ipureintro
        intro b hb
        rw [← Vs9_eq m hO c]
        exact h b hb
      · iexact HSI)
    (hQ := fun _ h => h)

/-! ## The arguments at the end -/

/-- No item of @main changes an argument array. -/
theorem Vend_arg0 (hO : Ok m) (c : Dev nD) : Vend m hO c main_arg0 = m ((c : Thread nD τ).loc main_arg0) :=
  (Vend_of_arg m hO c (by decide)).trans <| (Vexit_arr m hO c 0).trans <|
    ((dats m hO 0 c).arrAt_in 0 rfl _).trans (A_eq m hO c 0)
theorem Vend_arg1 (hO : Ok m) (c : Dev nD) : Vend m hO c main_arg1 = m ((c : Thread nD τ).loc main_arg1) :=
  (Vend_of_arg m hO c (by decide)).trans <| (Vexit_arr m hO c 1).trans <|
    ((dats m hO 0 c).arrAt_in 1 rfl _).trans (A_eq m hO c 1)
theorem Vend_arg2 (hO : Ok m) (c : Dev nD) : Vend m hO c main_arg2 = m ((c : Thread nD τ).loc main_arg2) :=
  (Vend_of_arg m hO c (by decide)).trans (Vexit_of_ne m hO c main_arg2 (by decide))
theorem Vend_arg3 (hO : Ok m) (c : Dev nD) : Vend m hO c main_arg3 = m ((c : Thread nD τ).loc main_arg3) :=
  (Vend_of_arg m hO c (by decide)).trans (Vexit_of_ne m hO c main_arg3 (by decide))

/-- The frame: the program runs, and its argument arrays end unchanged. -/
theorem frame (hO : Ok m) (hR : InRange (tbl m)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run_main m ρ hO hR).mono fun r h c =>
    ⟨(h c _ (Finset.mem_filter.mpr ⟨StableHlo.devRef_mem_tcRefs main_arg0, by decide⟩)).trans (Vend_arg0 m hO c),
     (h c _ (Finset.mem_filter.mpr ⟨StableHlo.devRef_mem_tcRefs main_arg1, by decide⟩)).trans (Vend_arg1 m hO c),
     (h c _ (Finset.mem_filter.mpr ⟨StableHlo.devRef_mem_tcRefs main_arg2, by decide⟩)).trans (Vend_arg2 m hO c),
     (h c _ (Finset.mem_filter.mpr ⟨StableHlo.devRef_mem_tcRefs main_arg3, by decide⟩)).trans (Vend_arg3 m hO c)⟩

end Cert.KernelIdeal.Hand

end
-- ==== Proof.KernelIdeal.Out.lean ====
/-
  From blocks to arrays: each output array's row b is what its accumulator held after the row's last tile, the point
  that writes the block back.

  The three output windows have block [1, 1, 512] over an array [16, 1, 512] and block index (b, 0, 0) at grid point
  (b, kv), whatever the table of lengths holds: their index maps do not read it. Numbering the points n = 4 b + kv, the
  block index changes exactly after the points with n % 4 = 3, so those sixteen points are the ones that write a block
  back, and point 4 r + 3 writes row r. The blocks of different rows are disjoint and together they are the whole
  array, so after the grid row r of the array holds what the block held after point 4 r + 3.
-/
import proofs.«404824_j9861244912212_2_alg».proof.Proof.KernelIdeal.Acc
import proofs.«404824_j9861244912212_2_alg».proof.Proof.KernelIdeal.Tables
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The output windows' schedule, at any admissible contents of the table

Each fact holds at all 64 grid points by the window's index map alone, which does not read the table; hence it holds at
any admissible contents `a`. -/

section Schedule
variable (a : (pcfg0 (F := F)).Adm)

/-- An output block is written back exactly after the last tile of its row: at the points n with n % 4 = 3. -/
theorem outFlush2 : ∀ t : Fin (cfg0 a).N, ((cfg0 a).win 2).flush t = decide (t.val % 4 = 3) :=
  (by decide +kernel : ∀ t : Fin grid0.N, Pipeline.Window.flushOf grid0 true cc0_transform_2 t = decide (t.val % 4 = 3))
theorem outFlush3 : ∀ t : Fin (cfg0 a).N, ((cfg0 a).win 3).flush t = decide (t.val % 4 = 3) :=
  (by decide +kernel : ∀ t : Fin grid0.N, Pipeline.Window.flushOf grid0 true cc0_transform_3 t = decide (t.val % 4 = 3))
theorem outFlush4 : ∀ t : Fin (cfg0 a).N, ((cfg0 a).win 4).flush t = decide (t.val % 4 = 3) :=
  (by decide +kernel : ∀ t : Fin grid0.N, Pipeline.Window.flushOf grid0 true cc0_transform_4 t = decide (t.val % 4 = 3))

/-- At point n an output window's block index is (n / 4, 0, 0): the row, and nothing else. -/
theorem outIndex2 : ∀ t : Fin (cfg0 a).N, ((cfg0 a).win 2).index t = ![t.val / 4, 0, 0] :=
  (by decide +kernel : ∀ t : Fin grid0.N, cc0_transform_2 (grid0.coords t) = ![t.val / 4, 0, 0])
theorem outIndex3 : ∀ t : Fin (cfg0 a).N, ((cfg0 a).win 3).index t = ![t.val / 4, 0, 0] :=
  (by decide +kernel : ∀ t : Fin grid0.N, cc0_transform_3 (grid0.coords t) = ![t.val / 4, 0, 0])
theorem outIndex4 : ∀ t : Fin (cfg0 a).N, ((cfg0 a).win 4).index t = ![t.val / 4, 0, 0] :=
  (by decide +kernel : ∀ t : Fin grid0.N, cc0_transform_4 (grid0.coords t) = ![t.val / 4, 0, 0])

/-- The last point of row b, number 4 b + 3, is a point of the grid. -/
theorem rowPt (b : Fin 16) : 4 * b.val + 3 < (cfg0 a).N := by
  show 4 * b.val + 3 < grid0.N
  rw [N_0]; omega

end Schedule

/-! ## From blocks to the array, for any proof data over the pipeline

Stated for arbitrary proof data `dat` at arbitrary admissible contents `a`: only the windows' schedule matters here,
not what the blocks hold. Per output window: the array's final contents as one function of the index; what each
writing point writes is its block of that function; the writing points' blocks cover the array; hence the array ends
at that function, and row b reads the block after point 4 b + 3. -/

section Rows
variable (a : (pcfg0 (F := F)).Adm) (c : Dev nD) (dat : Dat τ (Elt F) Unit ℕ (UR sig nD τ) ℕ (cfg0 a) c)

/-- The proof data's block after a point, read at equal points and equal indices. -/
theorem after_congr (w : Fin (cfg0 a).W) {t t' : Fin (cfg0 a).N} (e : t = t')
    {x x' : ((cfg0 a).win w).block.Idx} (ex : x = x') : dat.after w t x = dat.after w t' x' := by
  subst e; subst ex; rfl

/-! ### Window 2 -/

/-- Output array 2 after the whole grid, as one function of its index: row r holds what the proof data says the block
    held after the row's last point, number 4 r + 3. -/
def rowsOf2 : S16x1x512.Idx → Elt F .f32 := fun j =>
  (dat.after 2 ⟨4 * (j 0).val + 3, rowPt a ⟨(j 0).val, (j 0).isLt⟩⟩ : S1x1x512.Idx → Elt F .f32) (ix3 0 0 (j 2))

/-- What a point that writes block 2 back (a row's last point) writes is that row of the function above: the block's
    index in the array is (t / 4, 0, 0), its size (1, 1, 512), and 4 (t / 4) + 3 = t where t % 4 = 3. -/
theorem flushedRows2 (t : Fin (cfg0 a).N) (hf : ((cfg0 a).win 2).flush t = true) :
    dat.flushed 2 t = (((cfg0 a).win 2).blk t).view.read (Elt F) (rowsOf2 a c dat) := by
  have h3 : t.val % 4 = 3 := of_decide_eq_true ((outFlush2 a t).symm.trans hf)
  have hi := outIndex2 a t
  have hi0 : ((cfg0 a).win 2).index t (0 : Fin 3) = t.val / 4 := congrFun hi (0 : Fin 3)
  have hi2 : ((cfg0 a).win 2).index t (2 : Fin 3) = 0 := congrFun hi (2 : Fin 3)
  funext y
  have hy0 : (y (0 : Fin 3)).val < 1 := (y (0 : Fin 3)).isLt
  have hy1 : (y (1 : Fin 3)).val < 1 := (y (1 : Fin 3)).isLt
  show (dat.after 2 t : S1x1x512.Idx → Elt F .f32) (((cfg0 a).win 2).xinj ((cfg0 a).grid.coords t) y)
    = rowsOf2 a c dat ((((cfg0 a).win 2).blk t).view.emb y)
  unfold rowsOf2
  refine after_congr a c dat 2 (Fin.ext ?_) (funext fun ax => Fin.ext ?_)
  · show t.val = 4 * (((cfg0 a).win 2).index t (0 : Fin 3) * 1 + 1 * (y (0 : Fin 3)).val) + 3
    rw [hi0]; omega
  · match ax with
    | ⟨0, _⟩ => show (y (0 : Fin 3)).val = 0; omega
    | ⟨1, _⟩ => show (y (1 : Fin 3)).val = 0; omega
    | ⟨2, _⟩ =>
      show (y (2 : Fin 3)).val = ((cfg0 a).win 2).index t (2 : Fin 3) * 512 + 1 * (y (2 : Fin 3)).val
      rw [hi2]; omega

/-- Row r of the array lies in the block of the row's last point, 4 r + 3, which writes it back. -/
theorem coverRows2 (i : S16x1x512.Idx) :
    ∃ t : Fin (cfg0 a).N, ((cfg0 a).win 2).flush t = true ∧ i ∈ (((cfg0 a).win 2).blk t).view.set := by
  have hb : (i (0 : Fin 3)).val < 16 := (i (0 : Fin 3)).isLt
  have h1 : (i (1 : Fin 3)).val < 1 := (i (1 : Fin 3)).isLt
  have h2 : (i (2 : Fin 3)).val < 512 := (i (2 : Fin 3)).isLt
  have hi := outIndex2 a ⟨4 * (i (0 : Fin 3)).val + 3, rowPt a ⟨(i (0 : Fin 3)).val, hb⟩⟩
  have hi0 : ((cfg0 a).win 2).index ⟨4 * (i (0 : Fin 3)).val + 3, rowPt a ⟨(i (0 : Fin 3)).val, hb⟩⟩ (0 : Fin 3)
      = (4 * (i (0 : Fin 3)).val + 3) / 4 := congrFun hi (0 : Fin 3)
  have hi1 : ((cfg0 a).win 2).index ⟨4 * (i (0 : Fin 3)).val + 3, rowPt a ⟨(i (0 : Fin 3)).val, hb⟩⟩ (1 : Fin 3) = 0 :=
    congrFun hi (1 : Fin 3)
  have hi2 : ((cfg0 a).win 2).index ⟨4 * (i (0 : Fin 3)).val + 3, rowPt a ⟨(i (0 : Fin 3)).val, hb⟩⟩ (2 : Fin 3) = 0 :=
    congrFun hi (2 : Fin 3)
  refine ⟨⟨4 * (i (0 : Fin 3)).val + 3, rowPt a ⟨(i (0 : Fin 3)).val, hb⟩⟩, ?_, ?_⟩
  · rw [outFlush2 a]
    exact decide_eq_true (by show (4 * (i (0 : Fin 3)).val + 3) % 4 = 3; omega)
  · refine Eq.mpr (congrArg (fun s => i ∈ s) (View.set_slice_whole main_v0_0
      (((cfg0 a).win 2).rect ⟨4 * (i (0 : Fin 3)).val + 3, rowPt a ⟨(i (0 : Fin 3)).val, hb⟩⟩)))
      (Rect.mem_set_unit.mpr fun ax => ?_)
    match ax with
    | ⟨0, _⟩ =>
      show ((cfg0 a).win 2).index ⟨4 * (i (0 : Fin 3)).val + 3, rowPt a ⟨(i (0 : Fin 3)).val, hb⟩⟩ (0 : Fin 3) * 1 ≤ (i (0 : Fin 3)).val
        ∧ (i (0 : Fin 3)).val < ((cfg0 a).win 2).index ⟨4 * (i (0 : Fin 3)).val + 3, rowPt a ⟨(i (0 : Fin 3)).val, hb⟩⟩ (0 : Fin 3) * 1 + 1
      rw [hi0]; omega
    | ⟨1, _⟩ =>
      show ((cfg0 a).win 2).index ⟨4 * (i (0 : Fin 3)).val + 3, rowPt a ⟨(i (0 : Fin 3)).val, hb⟩⟩ (1 : Fin 3) * 1 ≤ (i (1 : Fin 3)).val
        ∧ (i (1 : Fin 3)).val < ((cfg0 a).win 2).index ⟨4 * (i (0 : Fin 3)).val + 3, rowPt a ⟨(i (0 : Fin 3)).val, hb⟩⟩ (1 : Fin 3) * 1 + 1
      rw [hi1]; omega
    | ⟨2, _⟩ =>
      show ((cfg0 a).win 2).index ⟨4 * (i (0 : Fin 3)).val + 3, rowPt a ⟨(i (0 : Fin 3)).val, hb⟩⟩ (2 : Fin 3) * 512 ≤ (i (2 : Fin 3)).val
        ∧ (i (2 : Fin 3)).val < ((cfg0 a).win 2).index ⟨4 * (i (0 : Fin 3)).val + 3, rowPt a ⟨(i (0 : Fin 3)).val, hb⟩⟩ (2 : Fin 3) * 512 + 512
      rw [hi2]; omega

/-- After the whole grid the array holds, row by row, what the row's last point left in the block. -/
theorem arrRows2 : (dat.arrAt 2 (cfg0 a).N : S16x1x512.Idx → Elt F .f32) = rowsOf2 a c dat :=
  dat.arrAt_eq_of_cover 2 (rowsOf2 a c dat) (flushedRows2 a c dat) (coverRows2 a)

theorem arrRow2 (b : Fin 16) (d : Fin 512) :
    (dat.arrAt 2 (cfg0 a).N : S16x1x512.Idx → Elt F .f32) (ix3 b 0 d)
      = (dat.after 2 ⟨4 * b.val + 3, rowPt a b⟩ : S1x1x512.Idx → Elt F .f32) (ix3 0 0 d) := by
  rw [arrRows2]; rfl

/-! ### Window 3 -/

/-- Output array 3 after the whole grid, as one function of its index: row r holds what the proof data says the block
    held after the row's last point, number 4 r + 3. -/
def rowsOf3 : S16x1x512.Idx → Elt F .f32 := fun j =>
  (dat.after 3 ⟨4 * (j 0).val + 3, rowPt a ⟨(j 0).val, (j 0).isLt⟩⟩ : S1x1x512.Idx → Elt F .f32) (ix3 0 0 (j 2))

/-- What a point that writes block 3 back (a row's last point) writes is that row of the function above: the block's
    index in the array is (t / 4, 0, 0), its size (1, 1, 512), and 4 (t / 4) + 3 = t where t % 4 = 3. -/
theorem flushedRows3 (t : Fin (cfg0 a).N) (hf : ((cfg0 a).win 3).flush t = true) :
    dat.flushed 3 t = (((cfg0 a).win 3).blk t).view.read (Elt F) (rowsOf3 a c dat) := by
  have h3 : t.val % 4 = 3 := of_decide_eq_true ((outFlush3 a t).symm.trans hf)
  have hi := outIndex3 a t
  have hi0 : ((cfg0 a).win 3).index t (0 : Fin 3) = t.val / 4 := congrFun hi (0 : Fin 3)
  have hi2 : ((cfg0 a).win 3).index t (2 : Fin 3) = 0 := congrFun hi (2 : Fin 3)
  funext y
  have hy0 : (y (0 : Fin 3)).val < 1 := (y (0 : Fin 3)).isLt
  have hy1 : (y (1 : Fin 3)).val < 1 := (y (1 : Fin 3)).isLt
  show (dat.after 3 t : S1x1x512.Idx → Elt F .f32) (((cfg0 a).win 3).xinj ((cfg0 a).grid.coords t) y)
    = rowsOf3 a c dat ((((cfg0 a).win 3).blk t).view.emb y)
  unfold rowsOf3
  refine after_congr a c dat 3 (Fin.ext ?_) (funext fun ax => Fin.ext ?_)
  · show t.val = 4 * (((cfg0 a).win 3).index t (0 : Fin 3) * 1 + 1 * (y (0 : Fin 3)).val) + 3
    rw [hi0]; omega
  · match ax with
    | ⟨0, _⟩ => show (y (0 : Fin 3)).val = 0; omega
    | ⟨1, _⟩ => show (y (1 : Fin 3)).val = 0; omega
    | ⟨2, _⟩ =>
      show (y (2 : Fin 3)).val = ((cfg0 a).win 3).index t (2 : Fin 3) * 512 + 1 * (y (2 : Fin 3)).val
      rw [hi2]; omega

/-- Row r of the array lies in the block of the row's last point, 4 r + 3, which writes it back. -/
theorem coverRows3 (i : S16x1x512.Idx) :
    ∃ t : Fin (cfg0 a).N, ((cfg0 a).win 3).flush t = true ∧ i ∈ (((cfg0 a).win 3).blk t).view.set := by
  have hb : (i (0 : Fin 3)).val < 16 := (i (0 : Fin 3)).isLt
  have h1 : (i (1 : Fin 3)).val < 1 := (i (1 : Fin 3)).isLt
  have h2 : (i (2 : Fin 3)).val < 512 := (i (2 : Fin 3)).isLt
  have hi := outIndex3 a ⟨4 * (i (0 : Fin 3)).val + 3, rowPt a ⟨(i (0 : Fin 3)).val, hb⟩⟩
  have hi0 : ((cfg0 a).win 3).index ⟨4 * (i (0 : Fin 3)).val + 3, rowPt a ⟨(i (0 : Fin 3)).val, hb⟩⟩ (0 : Fin 3)
      = (4 * (i (0 : Fin 3)).val + 3) / 4 := congrFun hi (0 : Fin 3)
  have hi1 : ((cfg0 a).win 3).index ⟨4 * (i (0 : Fin 3)).val + 3, rowPt a ⟨(i (0 : Fin 3)).val, hb⟩⟩ (1 : Fin 3) = 0 :=
    congrFun hi (1 : Fin 3)
  have hi2 : ((cfg0 a).win 3).index ⟨4 * (i (0 : Fin 3)).val + 3, rowPt a ⟨(i (0 : Fin 3)).val, hb⟩⟩ (2 : Fin 3) = 0 :=
    congrFun hi (2 : Fin 3)
  refine ⟨⟨4 * (i (0 : Fin 3)).val + 3, rowPt a ⟨(i (0 : Fin 3)).val, hb⟩⟩, ?_, ?_⟩
  · rw [outFlush3 a]
    exact decide_eq_true (by show (4 * (i (0 : Fin 3)).val + 3) % 4 = 3; omega)
  · refine Eq.mpr (congrArg (fun s => i ∈ s) (View.set_slice_whole main_v0_1
      (((cfg0 a).win 3).rect ⟨4 * (i (0 : Fin 3)).val + 3, rowPt a ⟨(i (0 : Fin 3)).val, hb⟩⟩)))
      (Rect.mem_set_unit.mpr fun ax => ?_)
    match ax with
    | ⟨0, _⟩ =>
      show ((cfg0 a).win 3).index ⟨4 * (i (0 : Fin 3)).val + 3, rowPt a ⟨(i (0 : Fin 3)).val, hb⟩⟩ (0 : Fin 3) * 1 ≤ (i (0 : Fin 3)).val
        ∧ (i (0 : Fin 3)).val < ((cfg0 a).win 3).index ⟨4 * (i (0 : Fin 3)).val + 3, rowPt a ⟨(i (0 : Fin 3)).val, hb⟩⟩ (0 : Fin 3) * 1 + 1
      rw [hi0]; omega
    | ⟨1, _⟩ =>
      show ((cfg0 a).win 3).index ⟨4 * (i (0 : Fin 3)).val + 3, rowPt a ⟨(i (0 : Fin 3)).val, hb⟩⟩ (1 : Fin 3) * 1 ≤ (i (1 : Fin 3)).val
        ∧ (i (1 : Fin 3)).val < ((cfg0 a).win 3).index ⟨4 * (i (0 : Fin 3)).val + 3, rowPt a ⟨(i (0 : Fin 3)).val, hb⟩⟩ (1 : Fin 3) * 1 + 1
      rw [hi1]; omega
    | ⟨2, _⟩ =>
      show ((cfg0 a).win 3).index ⟨4 * (i (0 : Fin 3)).val + 3, rowPt a ⟨(i (0 : Fin 3)).val, hb⟩⟩ (2 : Fin 3) * 512 ≤ (i (2 : Fin 3)).val
        ∧ (i (2 : Fin 3)).val < ((cfg0 a).win 3).index ⟨4 * (i (0 : Fin 3)).val + 3, rowPt a ⟨(i (0 : Fin 3)).val, hb⟩⟩ (2 : Fin 3) * 512 + 512
      rw [hi2]; omega

/-- After the whole grid the array holds, row by row, what the row's last point left in the block. -/
theorem arrRows3 : (dat.arrAt 3 (cfg0 a).N : S16x1x512.Idx → Elt F .f32) = rowsOf3 a c dat :=
  dat.arrAt_eq_of_cover 3 (rowsOf3 a c dat) (flushedRows3 a c dat) (coverRows3 a)

theorem arrRow3 (b : Fin 16) (d : Fin 512) :
    (dat.arrAt 3 (cfg0 a).N : S16x1x512.Idx → Elt F .f32) (ix3 b 0 d)
      = (dat.after 3 ⟨4 * b.val + 3, rowPt a b⟩ : S1x1x512.Idx → Elt F .f32) (ix3 0 0 d) := by
  rw [arrRows3]; rfl

/-! ### Window 4 -/

/-- Output array 4 after the whole grid, as one function of its index: row r holds what the proof data says the block
    held after the row's last point, number 4 r + 3. -/
def rowsOf4 : S16x1x512.Idx → Elt F .f32 := fun j =>
  (dat.after 4 ⟨4 * (j 0).val + 3, rowPt a ⟨(j 0).val, (j 0).isLt⟩⟩ : S1x1x512.Idx → Elt F .f32) (ix3 0 0 (j 2))

/-- What a point that writes block 4 back (a row's last point) writes is that row of the function above: the block's
    index in the array is (t / 4, 0, 0), its size (1, 1, 512), and 4 (t / 4) + 3 = t where t % 4 = 3. -/
theorem flushedRows4 (t : Fin (cfg0 a).N) (hf : ((cfg0 a).win 4).flush t = true) :
    dat.flushed 4 t = (((cfg0 a).win 4).blk t).view.read (Elt F) (rowsOf4 a c dat) := by
  have h3 : t.val % 4 = 3 := of_decide_eq_true ((outFlush4 a t).symm.trans hf)
  have hi := outIndex4 a t
  have hi0 : ((cfg0 a).win 4).index t (0 : Fin 3) = t.val / 4 := congrFun hi (0 : Fin 3)
  have hi2 : ((cfg0 a).win 4).index t (2 : Fin 3) = 0 := congrFun hi (2 : Fin 3)
  funext y
  have hy0 : (y (0 : Fin 3)).val < 1 := (y (0 : Fin 3)).isLt
  have hy1 : (y (1 : Fin 3)).val < 1 := (y (1 : Fin 3)).isLt
  show (dat.after 4 t : S1x1x512.Idx → Elt F .f32) (((cfg0 a).win 4).xinj ((cfg0 a).grid.coords t) y)
    = rowsOf4 a c dat ((((cfg0 a).win 4).blk t).view.emb y)
  unfold rowsOf4
  refine after_congr a c dat 4 (Fin.ext ?_) (funext fun ax => Fin.ext ?_)
  · show t.val = 4 * (((cfg0 a).win 4).index t (0 : Fin 3) * 1 + 1 * (y (0 : Fin 3)).val) + 3
    rw [hi0]; omega
  · match ax with
    | ⟨0, _⟩ => show (y (0 : Fin 3)).val = 0; omega
    | ⟨1, _⟩ => show (y (1 : Fin 3)).val = 0; omega
    | ⟨2, _⟩ =>
      show (y (2 : Fin 3)).val = ((cfg0 a).win 4).index t (2 : Fin 3) * 512 + 1 * (y (2 : Fin 3)).val
      rw [hi2]; omega

/-- Row r of the array lies in the block of the row's last point, 4 r + 3, which writes it back. -/
theorem coverRows4 (i : S16x1x512.Idx) :
    ∃ t : Fin (cfg0 a).N, ((cfg0 a).win 4).flush t = true ∧ i ∈ (((cfg0 a).win 4).blk t).view.set := by
  have hb : (i (0 : Fin 3)).val < 16 := (i (0 : Fin 3)).isLt
  have h1 : (i (1 : Fin 3)).val < 1 := (i (1 : Fin 3)).isLt
  have h2 : (i (2 : Fin 3)).val < 512 := (i (2 : Fin 3)).isLt
  have hi := outIndex4 a ⟨4 * (i (0 : Fin 3)).val + 3, rowPt a ⟨(i (0 : Fin 3)).val, hb⟩⟩
  have hi0 : ((cfg0 a).win 4).index ⟨4 * (i (0 : Fin 3)).val + 3, rowPt a ⟨(i (0 : Fin 3)).val, hb⟩⟩ (0 : Fin 3)
      = (4 * (i (0 : Fin 3)).val + 3) / 4 := congrFun hi (0 : Fin 3)
  have hi1 : ((cfg0 a).win 4).index ⟨4 * (i (0 : Fin 3)).val + 3, rowPt a ⟨(i (0 : Fin 3)).val, hb⟩⟩ (1 : Fin 3) = 0 :=
    congrFun hi (1 : Fin 3)
  have hi2 : ((cfg0 a).win 4).index ⟨4 * (i (0 : Fin 3)).val + 3, rowPt a ⟨(i (0 : Fin 3)).val, hb⟩⟩ (2 : Fin 3) = 0 :=
    congrFun hi (2 : Fin 3)
  refine ⟨⟨4 * (i (0 : Fin 3)).val + 3, rowPt a ⟨(i (0 : Fin 3)).val, hb⟩⟩, ?_, ?_⟩
  · rw [outFlush4 a]
    exact decide_eq_true (by show (4 * (i (0 : Fin 3)).val + 3) % 4 = 3; omega)
  · refine Eq.mpr (congrArg (fun s => i ∈ s) (View.set_slice_whole main_v0_2
      (((cfg0 a).win 4).rect ⟨4 * (i (0 : Fin 3)).val + 3, rowPt a ⟨(i (0 : Fin 3)).val, hb⟩⟩)))
      (Rect.mem_set_unit.mpr fun ax => ?_)
    match ax with
    | ⟨0, _⟩ =>
      show ((cfg0 a).win 4).index ⟨4 * (i (0 : Fin 3)).val + 3, rowPt a ⟨(i (0 : Fin 3)).val, hb⟩⟩ (0 : Fin 3) * 1 ≤ (i (0 : Fin 3)).val
        ∧ (i (0 : Fin 3)).val < ((cfg0 a).win 4).index ⟨4 * (i (0 : Fin 3)).val + 3, rowPt a ⟨(i (0 : Fin 3)).val, hb⟩⟩ (0 : Fin 3) * 1 + 1
      rw [hi0]; omega
    | ⟨1, _⟩ =>
      show ((cfg0 a).win 4).index ⟨4 * (i (0 : Fin 3)).val + 3, rowPt a ⟨(i (0 : Fin 3)).val, hb⟩⟩ (1 : Fin 3) * 1 ≤ (i (1 : Fin 3)).val
        ∧ (i (1 : Fin 3)).val < ((cfg0 a).win 4).index ⟨4 * (i (0 : Fin 3)).val + 3, rowPt a ⟨(i (0 : Fin 3)).val, hb⟩⟩ (1 : Fin 3) * 1 + 1
      rw [hi1]; omega
    | ⟨2, _⟩ =>
      show ((cfg0 a).win 4).index ⟨4 * (i (0 : Fin 3)).val + 3, rowPt a ⟨(i (0 : Fin 3)).val, hb⟩⟩ (2 : Fin 3) * 512 ≤ (i (2 : Fin 3)).val
        ∧ (i (2 : Fin 3)).val < ((cfg0 a).win 4).index ⟨4 * (i (0 : Fin 3)).val + 3, rowPt a ⟨(i (0 : Fin 3)).val, hb⟩⟩ (2 : Fin 3) * 512 + 512
      rw [hi2]; omega

/-- After the whole grid the array holds, row by row, what the row's last point left in the block. -/
theorem arrRows4 : (dat.arrAt 4 (cfg0 a).N : S16x1x512.Idx → Elt F .f32) = rowsOf4 a c dat :=
  dat.arrAt_eq_of_cover 4 (rowsOf4 a c dat) (flushedRows4 a c dat) (coverRows4 a)

theorem arrRow4 (b : Fin 16) (d : Fin 512) :
    (dat.arrAt 4 (cfg0 a).N : S16x1x512.Idx → Elt F .f32) (ix3 b 0 d)
      = (dat.after 4 ⟨4 * b.val + 3, rowPt a b⟩ : S1x1x512.Idx → Elt F .f32) (ix3 0 0 d) := by
  rw [arrRows4]; rfl

end Rows

/-! ## The three output arrays of the kernel's own proof data -/

variable (m : (ℓ : Loc nD τ sig) → Buf (Elt F) ℓ)

theorem out2_at (hO : Ok m) (c : Dev nD) (b : Fin 16) (d : Fin 512) :
    ((dats m hO 0 c).arrAt 2 (cfgM m hO).N : S16x1x512.Idx → Elt F .f32) (ix3 b 0 d) = accP m hO c (4 * b.val + 3) (ix3 0 0 d) :=
  (arrRow2 (adm m hO) c (dats m hO 0 c) b d).trans
    (congrFun (after0_2 m hO c ⟨4 * b.val + 3, rowPt (adm m hO) b⟩) (ix3 0 0 d))
theorem out3_at (hO : Ok m) (c : Dev nD) (b : Fin 16) (d : Fin 512) :
    ((dats m hO 0 c).arrAt 3 (cfgM m hO).N : S16x1x512.Idx → Elt F .f32) (ix3 b 0 d) = accT m hO c (4 * b.val + 3) (ix3 0 0 d) :=
  (arrRow3 (adm m hO) c (dats m hO 0 c) b d).trans
    (congrFun (after0_3 m hO c ⟨4 * b.val + 3, rowPt (adm m hO) b⟩) (ix3 0 0 d))
theorem out4_at (hO : Ok m) (c : Dev nD) (b : Fin 16) (d : Fin 512) :
    ((dats m hO 0 c).arrAt 4 (cfgM m hO).N : S16x1x512.Idx → Elt F .f32) (ix3 b 0 d) = accW m hO c (4 * b.val + 3) (ix3 0 0 d) :=
  (arrRow4 (adm m hO) c (dats m hO 0 c) b d).trans
    (congrFun (after0_4 m hO c ⟨4 * b.val + 3, rowPt (adm m hO) b⟩) (ix3 0 0 d))

end Cert.KernelIdeal.Hand

end
-- ==== Proof.KernelIdeal.Blocks.lean ====
/-
  The tile an input window holds: at a live point (row b, tile kv with kv * 512 < len_b) the window's block is tile kv
  of row b of its array, position r of the block being position kv * 512 + r of the row.
-/
import proofs.«404824_j9861244912212_2_alg».proof.Proof.KernelIdeal.Acc
import proofs.«404824_j9861244912212_2_alg».proof.Proof.KernelIdeal.Tables
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Point number 4 b + kv of the 16 x 4 grid. -/
abbrev pt (hO : Ok m) (b : Fin 16) (kv : Fin 4) : Fin (cfgM m hO).N := ⟨4 * b.val + kv.val, by
  have : (cfgM m hO).N = 64 := N_0
  omega⟩

theorem coords_pt0 (hO : Ok m) (b : Fin 16) (kv : Fin 4) : (grid0.coords (pt m hO b kv) 0).val = b.val := by
  have hb := b.isLt; have hk := kv.isLt
  have hs : grid0.stride 0 = 4 := by decide
  have hn : grid0.bound 0 = 16 := rfl
  show (4 * b.val + kv.val) / grid0.stride 0 % grid0.bound 0 = b.val
  rw [hs, hn]; omega
theorem coords_pt1 (hO : Ok m) (b : Fin 16) (kv : Fin 4) : (grid0.coords (pt m hO b kv) 1).val = kv.val := by
  have hb := b.isLt; have hk := kv.isLt
  have hs : grid0.stride 1 = 1 := by decide
  have hn : grid0.bound 1 = 4 := rfl
  show (4 * b.val + kv.val) / grid0.stride 1 % grid0.bound 1 = kv.val
  rw [hs, hn]; omega

/-- The word the body loads through the whole table memref is the table's entry at the load's offset. -/
theorem wordAt_eq_at (c : Dev nD) (pf : pre0.Contents (Elt F)) (i : grid0.Coords) :
    wordAt c (pf 0) i = pf.at 0 (Rect.unit (s := S16) (k0_off1 i) S1.size (k0_off1_inb i)) numel1_S1 := rfl

/-- The word the body loads at a point of row b is row b's length. -/
theorem lenAt_pt (hO : Ok m) (c : Dev nD) (b : Fin 16) (kv : Fin 4) : lenAt m hO c (pt m hO b kv) = lenW (tbl m) b := by
  have e0 : grid0.coords (pt m hO b kv) 0 = b := Fin.ext (coords_pt0 m hO b kv)
  refine (wordAt_eq_at c (tbl m) (grid0.coords (pt m hO b kv))).trans ?_
  refine (at_eq (tbl m) (grid0.coords (pt m hO b kv))).trans ?_
  rw [e0]

/-- The point is live exactly when kv * 512 < len_b. -/
theorem live_pt_iff (hO : Ok m) (hR : InRange (tbl m)) (c : Dev nD) (b : Fin 16) (kv : Fin 4) :
    live m hO c (pt m hO b kv) ↔ kv.val * 512 < (lenW (tbl m) b).toNat := by
  show k0_cond2 (grid0.coords (pt m hO b kv)) (lenAt m hO c (pt m hO b kv)) = 1#1 ↔ _
  rw [lenAt_pt m hO c b kv, cond2_iff _ _ (hR b).1 (hR b).2, coords_pt1]

/-- Window 0's block index at a point is its index map at the point's coordinates, whatever the table holds. -/
theorem index0_eq (a : (pcfg0 (F := F)).Adm) (t : Fin (cfg0 a).N) :
    ((cfg0 a).win 0).index t = cc0_transform_0 k0_off1_inb numel1_S1 a.1 (grid0.coords t) := rfl

/-- A block of window 0 whose index is (b, k, 0), read at (0, r, d), is the array at (b, k * 512 + r, d): a block's
    coordinate is index × size + the coordinate inside the block. -/
theorem blk0_read (a : (pcfg0 (F := F)).Adm) (X : S16x2048x512.Idx → Elt F .f32) (t : Fin (cfg0 a).N) (b : Fin 16) (k : Fin 4)
    (hidx : ((cfg0 a).win 0).index t = ![b.val, k.val, 0]) (r d : Fin 512) :
    ((((cfg0 a).win 0).blk t).view.read (Elt F) X : S1x512x512.Idx → Elt F .f32) (ix3 0 r d)
      = X (ix3 b ⟨k.val * 512 + r.val, by omega⟩ d) := by
  have h0 : ((cfg0 a).win 0).index t (0 : Fin 3) = b.val := congrFun hidx (0 : Fin 3)
  have h1 : ((cfg0 a).win 0).index t (1 : Fin 3) = k.val := congrFun hidx (1 : Fin 3)
  have h2 : ((cfg0 a).win 0).index t (2 : Fin 3) = 0 := congrFun hidx (2 : Fin 3)
  show X ((((cfg0 a).win 0).blk t).view.emb (ix3 0 r d)) = _
  refine congrArg X ?_
  funext ax; apply Fin.ext
  match ax with
  | ⟨0, _⟩ => show ((cfg0 a).win 0).index t (0 : Fin 3) * 1 + 1 * 0 = b.val; rw [h0]; omega
  | ⟨1, _⟩ => show ((cfg0 a).win 0).index t (1 : Fin 3) * 512 + 1 * r.val = k.val * 512 + r.val; rw [h1]; omega
  | ⟨2, _⟩ => show ((cfg0 a).win 0).index t (2 : Fin 3) * 512 + 1 * d.val = d.val; rw [h2]; omega

/-- Window 1's block index at a point is its index map at the point's coordinates, whatever the table holds. -/
theorem index1_eq (a : (pcfg0 (F := F)).Adm) (t : Fin (cfg0 a).N) :
    ((cfg0 a).win 1).index t = cc0_transform_1 k0_off1_inb numel1_S1 a.1 (grid0.coords t) := rfl

/-- A block of window 1 whose index is (b, k, 0), read at (0, r, d), is the array at (b, k * 512 + r, d): a block's
    coordinate is index × size + the coordinate inside the block. -/
theorem blk1_read (a : (pcfg0 (F := F)).Adm) (X : S16x2048x512.Idx → Elt F .f32) (t : Fin (cfg0 a).N) (b : Fin 16) (k : Fin 4)
    (hidx : ((cfg0 a).win 1).index t = ![b.val, k.val, 0]) (r d : Fin 512) :
    ((((cfg0 a).win 1).blk t).view.read (Elt F) X : S1x512x512.Idx → Elt F .f32) (ix3 0 r d)
      = X (ix3 b ⟨k.val * 512 + r.val, by omega⟩ d) := by
  have h0 : ((cfg0 a).win 1).index t (0 : Fin 3) = b.val := congrFun hidx (0 : Fin 3)
  have h1 : ((cfg0 a).win 1).index t (1 : Fin 3) = k.val := congrFun hidx (1 : Fin 3)
  have h2 : ((cfg0 a).win 1).index t (2 : Fin 3) = 0 := congrFun hidx (2 : Fin 3)
  show X ((((cfg0 a).win 1).blk t).view.emb (ix3 0 r d)) = _
  refine congrArg X ?_
  funext ax; apply Fin.ext
  match ax with
  | ⟨0, _⟩ => show ((cfg0 a).win 1).index t (0 : Fin 3) * 1 + 1 * 0 = b.val; rw [h0]; omega
  | ⟨1, _⟩ => show ((cfg0 a).win 1).index t (1 : Fin 3) * 512 + 1 * r.val = k.val * 512 + r.val; rw [h1]; omega
  | ⟨2, _⟩ => show ((cfg0 a).win 1).index t (2 : Fin 3) * 512 + 1 * d.val = d.val; rw [h2]; omega

/-- At a live point of row b the window 0's block index is (b, kv, 0): the cap ⌈len / 512⌉ - 1 is not below kv. -/
theorem index0_pt (hO : Ok m) (hR : InRange (tbl m)) (b : Fin 16) (kv : Fin 4) (hl : kv.val * 512 < (lenW (tbl m) b).toNat) :
    ((cfgM m hO).win 0).index (pt m hO b kv) = ![b.val, kv.val, 0] := by
  have e0 : grid0.coords (pt m hO b kv) 0 = b := Fin.ext (coords_pt0 m hO b kv)
  have e1 := coords_pt1 m hO b kv
  have hm : min kv.val (((lenW (tbl m) b).toNat + 511) / 512 - 1) = kv.val := Nat.min_eq_left (by omega)
  refine (index0_eq (adm m hO) (pt m hO b kv)).trans ?_
  refine (transform0_eq (tbl m) hR (grid0.coords (pt m hO b kv))).trans ?_
  rw [e0, e1, hm]

/-- At a live point of row b the window 1's block index is (b, kv, 0): the cap ⌈len / 512⌉ - 1 is not below kv. -/
theorem index1_pt (hO : Ok m) (hR : InRange (tbl m)) (b : Fin 16) (kv : Fin 4) (hl : kv.val * 512 < (lenW (tbl m) b).toNat) :
    ((cfgM m hO).win 1).index (pt m hO b kv) = ![b.val, kv.val, 0] := by
  have e0 : grid0.coords (pt m hO b kv) 0 = b := Fin.ext (coords_pt0 m hO b kv)
  have e1 := coords_pt1 m hO b kv
  have hm : min kv.val (((lenW (tbl m) b).toNat + 511) / 512 - 1) = kv.val := Nat.min_eq_left (by omega)
  refine (index1_eq (adm m hO) (pt m hO b kv)).trans ?_
  refine (transform1_eq (tbl m) hR (grid0.coords (pt m hO b kv))).trans ?_
  rw [e0, e1, hm]

/-- At a live point the first input's block is tile kv of row b. -/
theorem iblk0_at (hO : Ok m) (hR : InRange (tbl m)) (c : Dev nD) (b : Fin 16) (kv : Fin 4)
    (hl : kv.val * 512 < (lenW (tbl m) b).toNat) (r : Fin 512) (d : Fin 512) :
    (iblk m hO c 0 (pt m hO b kv) : S1x512x512.Idx → Elt F .f32) (ix3 0 r d)
      = (V m c main_arg0 : S16x2048x512.Idx → Elt F .f32) (ix3 b ⟨kv.val * 512 + r.val, by omega⟩ d) := by
  have h := blk0_read (adm m hO) (V m c main_arg0) (pt m hO b kv) b kv (index0_pt m hO hR b kv hl) r d
  exact h

/-- and the second input's likewise. -/
theorem iblk1_at (hO : Ok m) (hR : InRange (tbl m)) (c : Dev nD) (b : Fin 16) (kv : Fin 4)
    (hl : kv.val * 512 < (lenW (tbl m) b).toNat) (r : Fin 512) (d : Fin 512) :
    (iblk m hO c 1 (pt m hO b kv) : S1x512x512.Idx → Elt F .f32) (ix3 0 r d)
      = (V m c main_arg1 : S16x2048x512.Idx → Elt F .f32) (ix3 b ⟨kv.val * 512 + r.val, by omega⟩ d) := by
  have h := blk1_read (adm m hO) (V m c main_arg1) (pt m hO b kv) b kv (index1_pt m hO hR b kv hl) r d
  exact h

end Cert.KernelIdeal.Hand

end
-- ==== Proof.Spec.lean ====
/-
  The loss as one function of the argument arrays, over the extended reals.

  For row b of length len_b, position t is valid when t < len_b. Per row and feature: the masked column sums of the
  two inputs and of their smooth-L1 term. The result adds four means: the masked smooth-L1 sum over all valid
  elements divided by their number, and the smooth-L1 means between the two per-row averages and between each average
  and the row-normalised image embedding.
-/
import Idealize.ShloMosaic.PureOps.Ideal
import Idealize.ShloMosaic.Lib.ValueIdx
import Mathlib.Algebra.BigOperators.Group.Finset.Basic

noncomputable section

namespace Cert.Proof.Spec

open Idealize.ShloMosaic Idealize.ShloMosaic.ValueIdx

/-- 1 at a valid position of a row of length `len` (signed reading), else 0. -/
def valid (len : BitVec 32) (t : Fin 2048) : EReal := if (t.val : ℤ) < len.toInt then 1 else 0

/-- |x| on the extended reals. -/
def absE (x : EReal) : EReal := max x (-x)

/-- The two literals of the smooth-L1 term, as the programs spell them: 1 and 1/2. -/
def oneE : EReal := Ideal.ofBits .f32 0x3F800000#32
def halfE : EReal := Ideal.ofBits .f32 0x3F000000#32

/-- The smooth-L1 term of x and y: d = |x - y|; (1/2 d) d where d < 1, else d - 1/2. -/
def sl1 (x y : EReal) : EReal :=
  if absE (x - y) < oneE then halfE * absE (x - y) * absE (x - y) else absE (x - y) - halfE

/-- The masked column sum of `a` over row `b`'s valid positions, at feature `d`. -/
def colSum (a : (⟨3, ![16, 2048, 512]⟩ : Shape).Idx → EReal) (len : Fin 16 → BitVec 32) (b : Fin 16) (d : Fin 512) : EReal :=
  ∑ t : Fin 2048, a (ix3 b t d) * valid (len b) t

/-- The masked column sum of the smooth-L1 term of `a0` and `a1`. -/
def colSumW (a0 a1 : (⟨3, ![16, 2048, 512]⟩ : Shape).Idx → EReal) (len : Fin 16 → BitVec 32) (b : Fin 16) (d : Fin 512) : EReal :=
  ∑ t : Fin 2048, sl1 (a0 (ix3 b t d)) (a1 (ix3 b t d)) * valid (len b) t

/-- The other literals, as the programs spell them: 0, 512, 8192 (= 16 * 512) and the normalisation's floor 1e-12. -/
def zeroE : EReal := Ideal.ofBits .f32 0x00000000#32
def c512E : EReal := Ideal.ofBits .f32 0x44000000#32
def c8192E : EReal := Ideal.ofBits .f32 0x46000000#32
def epsE : EReal := Ideal.ofBits .f32 0x2B8CBCCC#32

/-- Row `b`'s length as a number. -/
def lenE (len : Fin 16 → BitVec 32) (b : Fin 16) : EReal := (((len b).toInt : ℝ) : EReal)

/-- The image embedding's row `b` divided by its Euclidean norm (floored at 1e-12), at feature `d`. -/
def imgN (a2 : (⟨2, ![16, 512]⟩ : Shape).Idx → EReal) (b : Fin 16) (d : Fin 512) : EReal :=
  Ideal.div (a2 (ix2 b d)) (max (Ideal.sqrt (zeroE + ∑ d' : Fin 512, a2 (ix2 b d') * a2 (ix2 b d'))) epsE)

/-- The mean over the 16 x 512 entries of `f` (a sum from 0, divided by 8192). -/
def mean2 (f : Fin 16 → Fin 512 → EReal) : EReal := Ideal.div (zeroE + ∑ b : Fin 16, ∑ d : Fin 512, f b d) c8192E

/-- The loss. -/
def loss (a0 a1 : (⟨3, ![16, 2048, 512]⟩ : Shape).Idx → EReal) (a2 : (⟨2, ![16, 512]⟩ : Shape).Idx → EReal) (len : Fin 16 → BitVec 32) : EReal :=
  let pm : Fin 16 → Fin 512 → EReal := fun b d => Ideal.div (colSum a0 len b d) (lenE len b)
  let tm : Fin 16 → Fin 512 → EReal := fun b d => Ideal.div (colSum a1 len b d) (lenE len b)
  let nvalid : EReal := (zeroE + ∑ b : Fin 16, lenE len b) * c512E
  let word : EReal := Ideal.div (zeroE + ∑ b : Fin 16, ∑ d : Fin 512, colSumW a0 a1 len b d) nvalid
  ((word + mean2 fun b d => sl1 (pm b d) (tm b d)) + mean2 fun b d => sl1 (pm b d) (imgN a2 b d)) + mean2 fun b d => sl1 (tm b d) (imgN a2 b d)

end Cert.Proof.Spec

end
-- ==== Proof.KernelIdeal.KValueStep.lean ====
/-
  One live step of each accumulator read at one feature, over the extended reals: the block found plus the sum over the
  tile's 512 positions of the element times the position's mask; the mask is 1 where the position lies below the row's
  length and 0 elsewhere; the third accumulator's element is the smooth-L1 term of the two inputs' elements.
-/
import proofs.«404824_j9861244912212_2_alg».proof.Proof.KernelIdeal.Base
import proofs.«404824_j9861244912212_2_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.Proof

/-- The accumulator update shared by the three steps, at feature `d`: the block found plus the sum over the tile's
    positions of the element times the position's mask entry. -/
theorem colstep_apply (x : FVec Ideal S1x512x512 .f32) (mk : FVec Ideal S1x512x1 .f32) (p : Vec Ideal S1x1x512 .f32) (d : Fin 512) :
    addf (shapeCast S1x1x512 p shapeCasts_S1x1x512_S1x1x512)
        (shapeCast S1x1x512 (multiReduction (F := Ideal) .add [1] S1x512 (mulf x (broadcastTo S1x512x512 mk broadcasts_S1x512x1_S1x512x512))
          0x00000000#32 reduces_S1x512x512_S1x512 (.inl rfl) rfl) shapeCasts_S1x512_S1x1x512) (ix3 0 0 d)
      = p (ix3 0 0 d) + ∑ r : Fin 512, x (ix3 0 r d) * mk (ix3 0 r 0) := by
  rw [addf_apply, shapeCast_self]
  refine congrArg (p (ix3 0 0 d) + ·) ?_
  rw [shapeCast_apply _ shapeCasts_S1x512_S1x1x512 (ix3 0 0 d) (ix2 0 d) (by
    rw [Shape.rowMajor_val_three, Shape.rowMajor_val_two]; rfl)]
  refine (Ideal.multiReduction_add_single (mulf x (broadcastTo S1x512x512 mk broadcasts_S1x512x1_S1x512x512)) 0x00000000#32
    reduces_S1x512x512_S1x512 (.inl rfl) rfl (ix2 0 d)).trans ?_
  show ∑ r : Fin 512, mulf x (broadcastTo S1x512x512 mk broadcasts_S1x512x1_S1x512x512) (reduces_S1x512x512_S1x512.lift (ix2 (0 : Fin 1) d) r) = _
  refine Fintype.sum_congr _ _ fun (r : Fin 512) => ?_
  have hl : reduces_S1x512x512_S1x512.lift (ix2 (0 : Fin 1) d) r = ix3 (0 : Fin 1) r d :=
    funext fun a => Fin.ext (match a with | ⟨0, _⟩ => rfl | ⟨1, _⟩ => rfl | ⟨2, _⟩ => rfl)
  rw [hl, mulf_apply]
  refine congrArg (x (ix3 0 r d) * ·) ?_
  exact broadcastTo_apply mk broadcasts_S1x512x1_S1x512x512 (ix3 0 r d) (ix3 0 r 0) fun a =>
    match a with | ⟨0, _⟩ => rfl | ⟨1, _⟩ => rfl | ⟨2, _⟩ => rfl

/-- The mask entry of tile position `r`: the length test `kv * 512 + r < len` (signed), as a float 1 or 0. -/
def msk (w : BitVec 32) (i : grid0.Coords) (r : Fin 512) : EReal := k0_pay5 (F := Ideal) w (tile0 i) (ix3 0 r 0)

/-- A tile position below 4 * 512 is its own signed reading: no wrap-around. -/
theorem tile_pos_toInt (k r : ℕ) (hk : k < 4) (hr : r < 512) :
    (BitVec.ofNat 32 k * 512#32 + BitVec.ofNat 32 r).toInt = (k : ℤ) * 512 + (r : ℤ) := by
  rw [BitVec.toInt_eq_toNat_cond]
  simp only [BitVec.toNat_add, BitVec.toNat_mul, BitVec.toNat_ofNat]
  have h1 : k % 2 ^ 32 = k := Nat.mod_eq_of_lt (by omega)
  have h2 : r % 2 ^ 32 = r := Nat.mod_eq_of_lt (by omega)
  have h3 : 512 % 2 ^ 32 = 512 := by norm_num
  rw [h1, h2, h3]
  have h4 : k * 512 % 2 ^ 32 = k * 512 := Nat.mod_eq_of_lt (by omega)
  rw [h4]
  have h5 : (k * 512 + r) % 2 ^ 32 = k * 512 + r := Nat.mod_eq_of_lt (by omega)
  rw [h5]
  rw [if_pos (by omega)]
  push_cast; ring

/-- The mask is 1 at the positions below the length and 0 at the others. -/
theorem msk_eq (w : BitVec 32) (i : grid0.Coords) (r : Fin 512) :
    msk w i r = if ((i 1).val : ℤ) * 512 + (r.val : ℤ) < w.toInt then 1 else 0 := by
  have hk : (i 1).val < 4 := (i 1).isLt
  unfold msk k0_pay5
  show ((((IntOp.cmpi .slt (IntOp.addi (tile0 i) (iota .tc S1x512x1 32 [1] iota_S1x512x1_d1_w32 (ix3 0 r 0))) w).setWidth 32).toInt : ℝ) : EReal) = _
  rw [iota_single_apply]
  show ((((BitVec.ofBool ((BitVec.ofNat 32 (i 1).val * 512#32 + BitVec.ofNat 32 r.val).slt w)).setWidth 32).toInt : ℝ) : EReal) = _
  rw [BitVec.slt_eq_decide, tile_pos_toInt _ _ hk r.isLt]
  by_cases h : ((i 1).val : ℤ) * 512 + (r.val : ℤ) < w.toInt
  · rw [if_pos h, decide_eq_true h]
    show (((1 : ℤ) : ℝ) : EReal) = 1
    norm_num
  · rw [if_neg h, decide_eq_false h]
    show (((0 : ℤ) : ℝ) : EReal) = 0
    norm_num

/-- One live step of the first accumulator at feature `d`. -/
theorem stepP_apply (w : BitVec 32) (i : grid0.Coords) (x : Vec Ideal S1x512x512 .f32) (p : Vec Ideal S1x1x512 .f32) (d : Fin 512) :
    stepP w i x p (ix3 0 0 d) = p (ix3 0 0 d) + ∑ r : Fin 512, x (ix3 0 r d) * msk w i r :=
  colstep_apply x (k0_pay5 (F := Ideal) w (tile0 i)) p d

/-- One live step of the second accumulator at feature `d`. -/
theorem stepT_apply (w : BitVec 32) (i : grid0.Coords) (y : Vec Ideal S1x512x512 .f32) (q : Vec Ideal S1x1x512 .f32) (d : Fin 512) :
    stepT w i y q (ix3 0 0 d) = q (ix3 0 0 d) + ∑ r : Fin 512, y (ix3 0 r d) * msk w i r :=
  colstep_apply y (k0_pay5 (F := Ideal) w (tile0 i)) q d

/-- A select on the strict comparison of two extended reals is the `if` on it. -/
theorem select_olt (a b A B : EReal) : Scalar.select (Ideal.cmp .olt a b) A B = if a < b then A else B := by
  show (if BitVec.ofBool (decide (a < b)) = 1#1 then A else B) = _
  by_cases h : a < b
  · rw [if_pos h, decide_eq_true h]; rfl
  · rw [if_neg h, decide_eq_false h]; rfl

/-- The elementwise term of the third accumulator is the smooth-L1 term of the two elements. -/
theorem pay8_apply (x y : Vec Ideal S1x512x512 .f32) (j : S1x512x512.Idx) : k0_pay8 x y j = Spec.sl1 (x j) (y j) := by
  unfold k0_pay8 Spec.sl1 Spec.absE Spec.oneE Spec.halfE
  exact select_olt _ _ _ _

/-- One live step of the third accumulator at feature `d`. -/
theorem stepW_apply (w : BitVec 32) (i : grid0.Coords) (x y : Vec Ideal S1x512x512 .f32) (p : Vec Ideal S1x1x512 .f32) (d : Fin 512) :
    stepW w i x y p (ix3 0 0 d) = p (ix3 0 0 d) + ∑ r : Fin 512, Spec.sl1 (x (ix3 0 r d)) (y (ix3 0 r d)) * msk w i r := by
  refine (colstep_apply (k0_pay8 x y) (k0_pay5 (F := Ideal) w (tile0 i)) p d).trans ?_
  refine congrArg (p (ix3 0 0 d) + ·) (Fintype.sum_congr _ _ fun r => ?_)
  rw [pay8_apply]; rfl

/-- The reset value of each accumulator is zero at every index. -/
theorem zeroP_apply (j : S1x1x512.Idx) : (zeroP (F := Ideal)) j = 0 := Ideal.ofBits_zero_f32
theorem zeroT_apply (j : S1x1x512.Idx) : (zeroT (F := Ideal)) j = 0 := Ideal.ofBits_zero_f32
theorem zeroW_apply (j : S1x1x512.Idx) : (zeroW (F := Ideal)) j = 0 := Ideal.ofBits_zero_f32

end Cert.KernelIdeal.Hand

end
-- ==== Proof.KernelIdeal.KValueSum.lean ====
/-
  Sums over a row of 2048 positions, tile by tile: the row's masked sum is the sum over its four tiles of 512 positions
  of each tile's masked sum; a tile wholly past the row's length contributes zero; and four accumulation steps from
  zero add up to the sum over the four tiles.
-/
import proofs.«404824_j9861244912212_2_alg».proof.Proof.Spec
import Mathlib.Algebra.BigOperators.Fin
import Mathlib.Logic.Equiv.Fin.Basic

noncomputable section

namespace Cert.KernelIdeal.Hand

open Cert.Proof

/-- 1 at the positions below the length (signed reading), else 0: the validity mask over the naturals. -/
def validN (len : BitVec 32) (n : ℕ) : EReal := if (n : ℤ) < len.toInt then 1 else 0

/-- A row's values over the naturals: zero past the row's end. -/
def rowN (g : Fin 2048 → EReal) (n : ℕ) : EReal := if h : n < 2048 then g ⟨n, h⟩ else 0

/-- A sum over 2048 positions is the sum over 4 tiles of the sums over each tile's 512 positions. -/
theorem sum_tiles {M : Type*} [AddCommMonoid M] (f : ℕ → M) :
    ∑ t : Fin 2048, f t.val = ∑ kv : Fin 4, ∑ r : Fin 512, f (kv.val * 512 + r.val) := by
  have e := (Equiv.sum_comp (finProdFinEquiv (m := 4) (n := 512)) (fun t : Fin (4 * 512) => f t.val)).symm
  refine e.trans ?_
  rw [Fintype.sum_prod_type]
  refine Fintype.sum_congr _ _ fun kv => Fintype.sum_congr _ _ fun r => ?_
  refine congrArg f ?_
  show r.val + 512 * kv.val = kv.val * 512 + r.val
  omega

/-- A row's masked sum, tile by tile. -/
theorem masked_sum_tiles (g : Fin 2048 → EReal) (len : BitVec 32) :
    ∑ t : Fin 2048, g t * Spec.valid len t
      = ∑ kv : Fin 4, ∑ r : Fin 512, rowN g (kv.val * 512 + r.val) * validN len (kv.val * 512 + r.val) := by
  rw [← sum_tiles (fun n => rowN g n * validN len n)]
  refine Fintype.sum_congr _ _ fun t => ?_
  unfold rowN validN Spec.valid
  rw [dif_pos t.isLt]

/-- A non-negative word's signed reading is its unsigned one. -/
theorem toInt_eq_toNat_of_nonneg (len : BitVec 32) (h0 : 0 ≤ len.toInt) : len.toInt = (len.toNat : ℤ) := by
  have hlt := len.isLt
  have e := BitVec.toInt_eq_toNat_cond len
  split at e <;> omega

/-- A tile that starts at or past the row's length contributes zero: every position's mask is 0. -/
theorem dead_tile (g : Fin 2048 → EReal) (len : BitVec 32) (k : ℕ) (h0 : 0 ≤ len.toInt) (hd : ¬ k * 512 < len.toNat) :
    ∑ r : Fin 512, rowN g (k * 512 + r.val) * validN len (k * 512 + r.val) = 0 := by
  refine Finset.sum_eq_zero fun r _ => ?_
  have e := toInt_eq_toNat_of_nonneg len h0
  have hn : ¬ ((k * 512 + r.val : ℕ) : ℤ) < len.toInt := by omega
  unfold validN
  rw [if_neg hn, mul_zero]

/-- Four accumulation steps, the first from zero, add up to the sum over the four tiles. -/
theorem row_of_tiles (A T : ℕ → EReal)
    (h : ∀ kv : Fin 4, A kv.val = (if kv.val = 0 then 0 else A (kv.val - 1)) + T kv.val) :
    A 3 = ∑ kv : Fin 4, T kv.val := by
  have h0 : A 0 = 0 + T 0 := h 0
  have h1 : A 1 = A 0 + T 1 := h 1
  have h2 : A 2 = A 1 + T 2 := h 2
  have h3 : A 3 = A 2 + T 3 := h 3
  rw [Fin.sum_univ_four, h3, h2, h1, h0, zero_add]
  rfl

end Cert.KernelIdeal.Hand

end
-- ==== Proof.KernelIdeal.KValue.lean ====
/-
  The accumulators at the extended reals: one live step adds the tile's masked column sum, and over a row's four tiles
  the steps add up to the masked column sum over the row's valid positions.
-/
import proofs.«404824_j9861244912212_2_alg».proof.Proof.KernelIdeal.Acc
import proofs.«404824_j9861244912212_2_alg».proof.Proof.KernelIdeal.Tables
import proofs.«404824_j9861244912212_2_alg».proof.Proof.KernelIdeal.Blocks
import proofs.«404824_j9861244912212_2_alg».proof.Proof.KernelIdeal.KValueStep
import proofs.«404824_j9861244912212_2_alg».proof.Proof.KernelIdeal.KValueSum
import proofs.«404824_j9861244912212_2_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.Proof

variable (m : (ℓ : Loc nD τ sig) → Buf (Elt Ideal) ℓ)

/-- The mask at a point whose tile number is known. -/
theorem msk_eq_of {i : grid0.Coords} {k : ℕ} (hk : (i 1).val = k) (w : BitVec 32) (r : Fin 512) :
    msk w i r = if (k : ℤ) * 512 + (r.val : ℤ) < w.toInt then 1 else 0 := by
  subst hk; exact msk_eq w i r

/-- The first accumulator after point `t`: one live step, or none, on the value before it — zero at a row's first tile. -/
theorem accP_unfold (hO : Ok m) (c : Dev nD) (t : Fin (cfgM m hO).N) :
    accP m hO c t.val
      = if live m hO c t then
          stepP (lenAt m hO c t) (grid0.coords t) (iblk m hO c 0 t) (if t.val % 4 = 0 then zeroP else accP m hO c (t.val - 1))
        else (if t.val % 4 = 0 then zeroP else accP m hO c (t.val - 1)) := by
  obtain ⟨n, h⟩ := t
  cases n with
  | zero => rw [accP, dif_pos h]; rfl
  | succ n => rw [accP, dif_pos h]; rfl

/-- After tile kv of row b the accumulator has gained the tile's masked sum of the row's values. -/
theorem accP_tile (hO : Ok m) (hR : InRange (tbl m)) (c : Dev nD) (b : Fin 16) (d : Fin 512) (kv : Fin 4) :
    accP m hO c (4 * b.val + kv.val) (ix3 0 0 d)
      = (if kv.val = 0 then 0 else accP m hO c (4 * b.val + (kv.val - 1)) (ix3 0 0 d))
        + ∑ r : Fin 512, rowN (fun t => (V m c main_arg0 : S16x2048x512.Idx → EReal) (ix3 b t d)) (kv.val * 512 + r.val)
            * validN (lenW (tbl m) b) (kv.val * 512 + r.val) := by
  have hkv : kv.val < 4 := kv.isLt
  have hprev : (if (pt m hO b kv).val % 4 = 0 then (zeroP (F := Ideal)) else accP m hO c ((pt m hO b kv).val - 1)) (ix3 0 0 d)
      = if kv.val = 0 then 0 else accP m hO c (4 * b.val + (kv.val - 1)) (ix3 0 0 d) := by
    show (if (4 * b.val + kv.val) % 4 = 0 then (zeroP (F := Ideal)) else accP m hO c (4 * b.val + kv.val - 1)) (ix3 0 0 d) = _
    by_cases h0 : kv.val = 0
    · rw [if_pos (by omega), if_pos h0]; exact zeroP_apply _
    · rw [if_neg (by omega), if_neg h0, show 4 * b.val + kv.val - 1 = 4 * b.val + (kv.val - 1) by omega]
  refine (congrFun (accP_unfold m hO c (pt m hO b kv)) (ix3 0 0 d)).trans ?_
  by_cases hl : live m hO c (pt m hO b kv)
  · rw [if_pos hl]
    have hl' := (live_pt_iff m hO hR c b kv).mp hl
    refine (stepP_apply _ _ _ _ d).trans ?_
    refine congrArg₂ (· + ·) hprev (Fintype.sum_congr _ _ fun r => ?_)
    refine congrArg₂ (· * ·) ?_ ?_
    · refine (iblk0_at m hO hR c b kv hl' r d).trans ?_
      unfold rowN
      rw [dif_pos (show kv.val * 512 + r.val < 2048 by omega)]
    · rw [msk_eq_of (coords_pt1 m hO b kv), lenAt_pt m hO c b kv]
      unfold validN
      push_cast
      rfl
  · rw [if_neg hl, hprev, dead_tile _ _ _ (le_trans (by decide) (hR b).1) (mt (live_pt_iff m hO hR c b kv).mpr hl), add_zero]

/-- The second accumulator after point `t`: one live step, or none, on the value before it — zero at a row's first tile. -/
theorem accT_unfold (hO : Ok m) (c : Dev nD) (t : Fin (cfgM m hO).N) :
    accT m hO c t.val
      = if live m hO c t then
          stepT (lenAt m hO c t) (grid0.coords t) (iblk m hO c 1 t) (if t.val % 4 = 0 then zeroT else accT m hO c (t.val - 1))
        else (if t.val % 4 = 0 then zeroT else accT m hO c (t.val - 1)) := by
  obtain ⟨n, h⟩ := t
  cases n with
  | zero => rw [accT, dif_pos h]; rfl
  | succ n => rw [accT, dif_pos h]; rfl

/-- After tile kv of row b the accumulator has gained the tile's masked sum of the row's values. -/
theorem accT_tile (hO : Ok m) (hR : InRange (tbl m)) (c : Dev nD) (b : Fin 16) (d : Fin 512) (kv : Fin 4) :
    accT m hO c (4 * b.val + kv.val) (ix3 0 0 d)
      = (if kv.val = 0 then 0 else accT m hO c (4 * b.val + (kv.val - 1)) (ix3 0 0 d))
        + ∑ r : Fin 512, rowN (fun t => (V m c main_arg1 : S16x2048x512.Idx → EReal) (ix3 b t d)) (kv.val * 512 + r.val)
            * validN (lenW (tbl m) b) (kv.val * 512 + r.val) := by
  have hkv : kv.val < 4 := kv.isLt
  have hprev : (if (pt m hO b kv).val % 4 = 0 then (zeroT (F := Ideal)) else accT m hO c ((pt m hO b kv).val - 1)) (ix3 0 0 d)
      = if kv.val = 0 then 0 else accT m hO c (4 * b.val + (kv.val - 1)) (ix3 0 0 d) := by
    show (if (4 * b.val + kv.val) % 4 = 0 then (zeroT (F := Ideal)) else accT m hO c (4 * b.val + kv.val - 1)) (ix3 0 0 d) = _
    by_cases h0 : kv.val = 0
    · rw [if_pos (by omega), if_pos h0]; exact zeroT_apply _
    · rw [if_neg (by omega), if_neg h0, show 4 * b.val + kv.val - 1 = 4 * b.val + (kv.val - 1) by omega]
  refine (congrFun (accT_unfold m hO c (pt m hO b kv)) (ix3 0 0 d)).trans ?_
  by_cases hl : live m hO c (pt m hO b kv)
  · rw [if_pos hl]
    have hl' := (live_pt_iff m hO hR c b kv).mp hl
    refine (stepT_apply _ _ _ _ d).trans ?_
    refine congrArg₂ (· + ·) hprev (Fintype.sum_congr _ _ fun r => ?_)
    refine congrArg₂ (· * ·) ?_ ?_
    · refine (iblk1_at m hO hR c b kv hl' r d).trans ?_
      unfold rowN
      rw [dif_pos (show kv.val * 512 + r.val < 2048 by omega)]
    · rw [msk_eq_of (coords_pt1 m hO b kv), lenAt_pt m hO c b kv]
      unfold validN
      push_cast
      rfl
  · rw [if_neg hl, hprev, dead_tile _ _ _ (le_trans (by decide) (hR b).1) (mt (live_pt_iff m hO hR c b kv).mpr hl), add_zero]

/-- The third accumulator after point `t`: one live step, or none, on the value before it — zero at a row's first tile. -/
theorem accW_unfold (hO : Ok m) (c : Dev nD) (t : Fin (cfgM m hO).N) :
    accW m hO c t.val
      = if live m hO c t then
          stepW (lenAt m hO c t) (grid0.coords t) (iblk m hO c 0 t) (iblk m hO c 1 t) (if t.val % 4 = 0 then zeroW else accW m hO c (t.val - 1))
        else (if t.val % 4 = 0 then zeroW else accW m hO c (t.val - 1)) := by
  obtain ⟨n, h⟩ := t
  cases n with
  | zero => rw [accW, dif_pos h]; rfl
  | succ n => rw [accW, dif_pos h]; rfl

/-- After tile kv of row b the third accumulator has gained the tile's masked sum of the row's smooth-L1 terms. -/
theorem accW_tile (hO : Ok m) (hR : InRange (tbl m)) (c : Dev nD) (b : Fin 16) (d : Fin 512) (kv : Fin 4) :
    accW m hO c (4 * b.val + kv.val) (ix3 0 0 d)
      = (if kv.val = 0 then 0 else accW m hO c (4 * b.val + (kv.val - 1)) (ix3 0 0 d))
        + ∑ r : Fin 512, rowN (fun t => Spec.sl1 ((V m c main_arg0 : S16x2048x512.Idx → EReal) (ix3 b t d))
              ((V m c main_arg1 : S16x2048x512.Idx → EReal) (ix3 b t d))) (kv.val * 512 + r.val)
            * validN (lenW (tbl m) b) (kv.val * 512 + r.val) := by
  have hkv : kv.val < 4 := kv.isLt
  have hprev : (if (pt m hO b kv).val % 4 = 0 then (zeroW (F := Ideal)) else accW m hO c ((pt m hO b kv).val - 1)) (ix3 0 0 d)
      = if kv.val = 0 then 0 else accW m hO c (4 * b.val + (kv.val - 1)) (ix3 0 0 d) := by
    show (if (4 * b.val + kv.val) % 4 = 0 then (zeroW (F := Ideal)) else accW m hO c (4 * b.val + kv.val - 1)) (ix3 0 0 d) = _
    by_cases h0 : kv.val = 0
    · rw [if_pos (by omega), if_pos h0]; exact zeroW_apply _
    · rw [if_neg (by omega), if_neg h0, show 4 * b.val + kv.val - 1 = 4 * b.val + (kv.val - 1) by omega]
  refine (congrFun (accW_unfold m hO c (pt m hO b kv)) (ix3 0 0 d)).trans ?_
  by_cases hl : live m hO c (pt m hO b kv)
  · rw [if_pos hl]
    have hl' := (live_pt_iff m hO hR c b kv).mp hl
    refine (stepW_apply _ _ _ _ _ d).trans ?_
    refine congrArg₂ (· + ·) hprev (Fintype.sum_congr _ _ fun r => ?_)
    refine congrArg₂ (· * ·) ?_ ?_
    · refine (congrArg₂ Spec.sl1 (iblk0_at m hO hR c b kv hl' r d) (iblk1_at m hO hR c b kv hl' r d)).trans ?_
      unfold rowN
      rw [dif_pos (show kv.val * 512 + r.val < 2048 by omega)]
    · rw [msk_eq_of (coords_pt1 m hO b kv), lenAt_pt m hO c b kv]
      unfold validN
      push_cast
      rfl
  · rw [if_neg hl, hprev, dead_tile _ _ _ (le_trans (by decide) (hR b).1) (mt (live_pt_iff m hO hR c b kv).mpr hl), add_zero]

/-- After a row's last tile the first accumulator holds the masked column sum of the first input over the row. -/
theorem accP_row (hO : Ok m) (hR : InRange (tbl m)) (c : Dev nD) (b : Fin 16) (d : Fin 512) :
    accP m hO c (4 * b.val + 3) (ix3 0 0 d) = Spec.colSum (V m c main_arg0) (lenW (tbl m)) b d := by
  unfold Spec.colSum
  rw [masked_sum_tiles (fun t => (V m c main_arg0 : S16x2048x512.Idx → EReal) (ix3 b t d))]
  exact row_of_tiles (fun k => accP m hO c (4 * b.val + k) (ix3 0 0 d))
    (fun k => ∑ r : Fin 512, rowN (fun t => (V m c main_arg0 : S16x2048x512.Idx → EReal) (ix3 b t d)) (k * 512 + r.val)
      * validN (lenW (tbl m) b) (k * 512 + r.val)) (accP_tile m hO hR c b d)

theorem accT_row (hO : Ok m) (hR : InRange (tbl m)) (c : Dev nD) (b : Fin 16) (d : Fin 512) :
    accT m hO c (4 * b.val + 3) (ix3 0 0 d) = Spec.colSum (V m c main_arg1) (lenW (tbl m)) b d := by
  unfold Spec.colSum
  rw [masked_sum_tiles (fun t => (V m c main_arg1 : S16x2048x512.Idx → EReal) (ix3 b t d))]
  exact row_of_tiles (fun k => accT m hO c (4 * b.val + k) (ix3 0 0 d))
    (fun k => ∑ r : Fin 512, rowN (fun t => (V m c main_arg1 : S16x2048x512.Idx → EReal) (ix3 b t d)) (k * 512 + r.val)
      * validN (lenW (tbl m) b) (k * 512 + r.val)) (accT_tile m hO hR c b d)

theorem accW_row (hO : Ok m) (hR : InRange (tbl m)) (c : Dev nD) (b : Fin 16) (d : Fin 512) :
    accW m hO c (4 * b.val + 3) (ix3 0 0 d) = Spec.colSumW (V m c main_arg0) (V m c main_arg1) (lenW (tbl m)) b d := by
  unfold Spec.colSumW
  rw [masked_sum_tiles (fun t => Spec.sl1 ((V m c main_arg0 : S16x2048x512.Idx → EReal) (ix3 b t d))
    ((V m c main_arg1 : S16x2048x512.Idx → EReal) (ix3 b t d)))]
  exact row_of_tiles (fun k => accW m hO c (4 * b.val + k) (ix3 0 0 d))
    (fun k => ∑ r : Fin 512, rowN (fun t => Spec.sl1 ((V m c main_arg0 : S16x2048x512.Idx → EReal) (ix3 b t d))
        ((V m c main_arg1 : S16x2048x512.Idx → EReal) (ix3 b t d))) (k * 512 + r.val)
      * validN (lenW (tbl m) b) (k * 512 + r.val)) (accW_tile m hO hR c b d)

end Cert.KernelIdeal.Hand

end
-- ==== Proof.KernelIdeal.TailFn.lean ====
/-
  The host operations after the region as one pure function of the three accumulated arrays, the image embedding and the
  lengths, stage by stage; at the extended reals it is the loss of the masked column sums.
-/
import proofs.«404824_j9861244912212_2_alg».proof.Proof.Gen.KernelIdeal.Launch
import proofs.«404824_j9861244912212_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx
open Cert.Proof

variable {F : FTy → Type} [FloatOps F]

set_option quotPrecheck false in
local notation "K3" => (⟨S16x1x512, .f32⟩ : BufTy).Contents (Elt F)
set_option quotPrecheck false in
local notation "K2" => (⟨S16x512, .f32⟩ : BufTy).Contents (Elt F)
set_option quotPrecheck false in
local notation "K21" => (⟨S16x1, .f32⟩ : BufTy).Contents (Elt F)
set_option quotPrecheck false in
local notation "K1" => (⟨S16, .f32⟩ : BufTy).Contents (Elt F)
set_option quotPrecheck false in
local notation "K0" => (⟨S_, .f32⟩ : BufTy).Contents (Elt F)
set_option quotPrecheck false in
local notation "KI" => (⟨S16, .i32⟩ : BufTy).Contents (Elt F)

/-! ## The pieces the operations are made of, each the operations' own pure functions -/

/-- The scalar constants: 0, 1, 1/2, 8192 (= 16 * 512), 512 and the norm's floor 1e-12. -/
def cZero : K0 := constant S_ .f32 0x00000000#32
def cOne : K0 := constant S_ .f32 0x3F800000#32
def cHalf : K0 := constant S_ .f32 0x3F000000#32
def c8192 : K0 := constant S_ .f32 0x46000000#32
def c512 : K0 := constant S_ .f32 0x44000000#32
def cEps : K0 := constant S_ .f32 0x2B8CBCCC#32

/-- A scalar spread over the 16 x 512 entries, and over the 16 x 1 column. -/
def spread (c : K0) : K2 := broadcastInDim S16x512 ![] bcast_S_S16x512 c
def spread1 (c : K0) : K21 := broadcastInDim S16x1 ![] bcast_S_S16x1 c
/-- One value per row as a 16 x 1 column, and a column repeated over the 512 features. -/
def rowB (x : K1) : K21 := broadcastInDim S16x1 ![0] bcast_S16_S16x1_0 x
def colB (x : K21) : K2 := broadcastInDim S16x512 ![0, 1] bcast_S16x1_S16x512_0_1 x

/-- The lengths as floats, one per row, repeated over the features. -/
def lensF (a3 : KI) : K2 := colB (rowB (sitofp .f32 a3 : K1))

/-- An accumulated [16, 1, 512] array read as [16, 512]. -/
def flat (P : K3) : K2 := shapeCast S16x512 P shapeCasts_S16x1x512_S16x512

/-- An accumulated array divided, row by row, by the row's length. -/
def avgF (P : K3) (a3 : KI) : K2 := Host.divf (flat P) (lensF a3)

/-- The image embedding divided, row by row, by its Euclidean norm floored at 1e-12. -/
def imgF (a2 : K2) : K2 :=
  Host.divf a2 (colB (maximumf (Host.sqrt (rowB (Host.reduceAdd (mulf a2 a2) cZero reducesTo_S16x512_S16_d1 h_S_))) (spread1 cEps)))

/-- The smooth-L1 term of two 16 x 512 arrays, entry by entry: with d = |x - y|, a select on d < 1 between (1/2 d) d
    and d - 1/2. -/
def sl1F (x y : K2) : K2 :=
  select (cmpf .olt (Host.absf (subf x y)) (spread cOne)) (mulf (mulf (spread cHalf) (Host.absf (subf x y))) (Host.absf (subf x y)))
    (subf (Host.absf (subf x y)) (spread cHalf))

/-- The mean over the 16 x 512 entries: their sum from 0, divided by 8192. -/
def meanF (x : K2) : K0 := Host.divf (Host.reduceAdd x cZero reducesTo_S16x512_S_d0_1 h_S_) c8192

/-- The 81 host operations after the region, composed: the scalar they end with (main_v58) as a function of the three
    output arrays P, T, W (main_v0_0, main_v0_1, main_v0_2), the image embedding a2 (main_arg2) and the lengths a3
    (main_arg3). Written stage by stage in the operations' order (Gen/KernelIdeal/Launch.lean hostOps1 … hostOps1_8), each
    stage the operation's own pure function of earlier stages, so that the run's composed term is this by unfolding. -/
def tailFn (P T W : (⟨S16x1x512, .f32⟩ : BufTy).Contents (Elt F)) (a2 : (⟨S16x512, .f32⟩ : BufTy).Contents (Elt F))
    (a3 : (⟨S16, .i32⟩ : BufTy).Contents (Elt F)) : (⟨S_, .f32⟩ : BufTy).Contents (Elt F) :=
  -- the two averages (main_v7, main_v9) and the normalised embedding (main_v14)
  let v7 : K2 := avgF P a3
  let v9 : K2 := avgF T a3
  let v14 : K2 := imgF a2
  -- the three means of smooth-L1 terms (main_v26, main_v38, main_v50)
  let v26 : K0 := meanF (sl1F v7 v9)
  let v38 : K0 := meanF (sl1F v7 v14)
  let v50 : K0 := meanF (sl1F v9 v14)
  -- the number of valid elements (main_v53) and the word term's numerator (main_v54)
  let v53 : K0 := mulf (Host.reduceAdd (sitofp .f32 a3 : K1) cZero reducesTo_S16_S_d0 h_S_) c512
  let v54 : K0 := Host.reduceAdd (flat W) cZero reducesTo_S16x512_S_d0_1 h_S_
  addf (addf (addf (Host.divf v54 v53) v26) v38) v50

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## At the extended reals: the entrywise operations read at an index -/

section Entrywise
variable {s : Shape}

/-- A quotient at an index is the quotient of the entries … -/
theorem hdivf_apply (x y : FVec Ideal s .f32) (i : s.Idx) : Host.divf x y i = Ideal.div (x i) (y i) := rfl
/-- … a square root the square root of the entry … -/
theorem hsqrt_apply (x : FVec Ideal s .f32) (i : s.Idx) : Host.sqrt x i = Ideal.sqrt (x i) := rfl
/-- … an absolute value the entry's … -/
theorem habsf_apply (x : FVec Ideal s .f32) (i : s.Idx) : Host.absf x i = Spec.absE (x i) := rfl
/-- … and an ordered less-than the bit of the entries' comparison. -/
theorem cmpf_olt_apply (x y : FVec Ideal s .f32) (i : s.Idx) : cmpf .olt x y i = BitVec.ofBool (decide (x i < y i)) := rfl

end Entrywise

/-! ## At the extended reals: each piece read at an index -/

set_option quotPrecheck false in
local notation "E3" => (⟨S16x1x512, .f32⟩ : BufTy).Contents (Elt Ideal)
set_option quotPrecheck false in
local notation "E2" => (⟨S16x512, .f32⟩ : BufTy).Contents (Elt Ideal)
set_option quotPrecheck false in
local notation "E21" => (⟨S16x1, .f32⟩ : BufTy).Contents (Elt Ideal)
set_option quotPrecheck false in
local notation "E1" => (⟨S16, .f32⟩ : BufTy).Contents (Elt Ideal)
set_option quotPrecheck false in
local notation "E0" => (⟨S_, .f32⟩ : BufTy).Contents (Elt Ideal)
set_option quotPrecheck false in
local notation "EI" => (⟨S16, .i32⟩ : BufTy).Contents (Elt Ideal)

/-- The constants are the words the loss is written with. -/
theorem cZero_apply (i : S_.Idx) : cZero (F := Ideal) i = Spec.zeroE := rfl
theorem cOne_apply (i : S_.Idx) : cOne (F := Ideal) i = Spec.oneE := rfl
theorem cHalf_apply (i : S_.Idx) : cHalf (F := Ideal) i = Spec.halfE := rfl
theorem c8192_apply (i : S_.Idx) : c8192 (F := Ideal) i = Spec.c8192E := rfl
theorem c512_apply (i : S_.Idx) : c512 (F := Ideal) i = Spec.c512E := rfl
theorem cEps_apply (i : S_.Idx) : cEps (F := Ideal) i = Spec.epsE := rfl

/-- A spread scalar reads the scalar everywhere. -/
theorem spread_apply (c : E0) (i : S16x512.Idx) : spread c i = c ValueIdx.ix0 := by
  unfold spread
  exact broadcastInDim_apply _ bcast_S_S16x512 c i ValueIdx.ix0 (fun a => a.elim0)
theorem spread1_apply (c : E0) (i : S16x1.Idx) : spread1 c i = c ValueIdx.ix0 := by
  unfold spread1
  exact broadcastInDim_apply _ bcast_S_S16x1 c i ValueIdx.ix0 (fun a => a.elim0)

/-- The column of per-row values reads row b's value. -/
theorem rowB_apply (x : E1) (b : Fin 16) (c : Fin 1) : rowB x (ix2 b c) = x (ix1 b) := by
  unfold rowB
  exact broadcastInDim_apply _ bcast_S16_S16x1_0 x (ix2 b c) (ix1 b) (fun a => match a with
    | ⟨0, _⟩ => by show b.val = if (16 : Nat) = 1 then 0 else b.val; rw [if_neg (by decide)])
/-- A column repeated over the features reads the column's entry of row b. -/
theorem colB_apply (x : E21) (b : Fin 16) (d : Fin 512) : colB x (ix2 b d) = x (ix2 b 0) := by
  unfold colB
  exact broadcastInDim_apply _ bcast_S16x1_S16x512_0_1 x (ix2 b d) (ix2 b 0) (fun a => match a with
    | ⟨0, _⟩ => by show b.val = if (16 : Nat) = 1 then 0 else b.val; rw [if_neg (by decide)]
    | ⟨1, _⟩ => by show 0 = if (1 : Nat) = 1 then 0 else d.val; rw [if_pos rfl])

/-- The [16, 1, 512] array read as [16, 512]: entry (b, d) is entry (b, 0, d), the two having one row-major position. -/
theorem flat_apply (P : E3) (b : Fin 16) (d : Fin 512) : flat P (ix2 b d) = P (ix3 b 0 d) := by
  unfold flat
  refine shapeCast_apply P shapeCasts_S16x1x512_S16x512 (ix2 b d) (ix3 b 0 d) ?_
  rw [Shape.rowMajor_val_three, Shape.rowMajor_val_two]
  show (b.val * 1 + 0) * 512 + d.val = b.val * 512 + d.val
  omega

theorem lensF_apply (a3 : EI) (b : Fin 16) (d : Fin 512) : lensF a3 (ix2 b d) = Spec.lenE (fun b => a3 (ix1 b)) b := by
  unfold lensF
  rw [colB_apply, rowB_apply]
  rfl

theorem avgF_apply (P : E3) (a3 : EI) (b : Fin 16) (d : Fin 512) :
    avgF P a3 (ix2 b d) = Ideal.div (P (ix3 b 0 d)) (Spec.lenE (fun b => a3 (ix1 b)) b) := by
  unfold avgF
  rw [hdivf_apply, flat_apply, lensF_apply]

/-- A sum along the features, from 0. -/
theorem rowSum_apply (x : E2) (b : Fin 16) :
    Host.reduceAdd (F := Ideal) (φ := .f32) x (cZero (F := Ideal)) reducesTo_S16x512_S16_d1 h_S_ (ix1 b)
      = Spec.zeroE + ∑ d : Fin 512, x (ix2 b d) := by
  simp only [Host.reduceAdd, Ideal.hostReduceAdd_def]
  rw [Ideal.hostReduceAdd_single reducesTo_S16x512_S16_d1 (by decide)]
  refine congrArg (Spec.zeroE + ·) (Finset.sum_congr rfl fun k _ => congrArg x (funext fun a => Fin.ext (by
    match a with | ⟨0, _⟩ => rfl | ⟨1, _⟩ => rfl)))
/-- A sum over all 16 x 512 entries, from 0. -/
theorem total2_apply (x : E2) :
    Host.reduceAdd (F := Ideal) (φ := .f32) x (cZero (F := Ideal)) reducesTo_S16x512_S_d0_1 h_S_ ValueIdx.ix0
      = Spec.zeroE + ∑ b : Fin 16, ∑ d : Fin 512, x (ix2 b d) := by
  simp only [Host.reduceAdd, Ideal.hostReduceAdd_def]
  rw [Ideal.hostReduceAdd_total reducesTo_S16x512_S_d0_1 (fun b => b.elim0), sum_idx2]
  rfl
/-- A sum over the 16 rows, from 0. -/
theorem total1_apply (x : E1) :
    Host.reduceAdd (F := Ideal) (φ := .f32) x (cZero (F := Ideal)) reducesTo_S16_S_d0 h_S_ ValueIdx.ix0
      = Spec.zeroE + ∑ b : Fin 16, x (ix1 b) := by
  simp only [Host.reduceAdd, Ideal.hostReduceAdd_def]
  rw [Ideal.hostReduceAdd_total reducesTo_S16_S_d0 (fun b => b.elim0), sum_idx1]
  rfl

theorem imgF_apply (a2 : E2) (b : Fin 16) (d : Fin 512) : imgF a2 (ix2 b d) = Spec.imgN a2 b d := by
  unfold imgF
  rw [hdivf_apply, colB_apply, maximumf_apply, hsqrt_apply, rowB_apply, spread1_apply, rowSum_apply, cEps_apply]
  rfl

/-- The smooth-L1 term as the operations spell it: a select on |x - y| < 1 between (1/2 |x - y|) |x - y| and
    |x - y| - 1/2. -/
theorem sl1_word (x y : EReal) :
    Scalar.select (BitVec.ofBool (decide (Spec.absE (x - y) < Spec.oneE)))
      (Spec.halfE * Spec.absE (x - y) * Spec.absE (x - y)) (Spec.absE (x - y) - Spec.halfE) = Spec.sl1 x y := by
  unfold Spec.sl1
  by_cases h : Spec.absE (x - y) < Spec.oneE
  · rw [if_pos h, decide_eq_true h]; exact select_one _ _
  · rw [if_neg h, decide_eq_false h]; exact select_zero _ _

theorem sl1F_apply (x y : E2) (i : S16x512.Idx) : sl1F x y i = Spec.sl1 (x i) (y i) := by
  unfold sl1F
  simp only [select_apply, cmpf_olt_apply, mulf_apply, subf_apply, habsf_apply, spread_apply, cOne_apply, cHalf_apply]
  exact sl1_word (x i) (y i)

theorem meanF_apply (x : E2) : meanF x ValueIdx.ix0 = Spec.mean2 fun b d => x (ix2 b d) := by
  unfold meanF
  rw [hdivf_apply, total2_apply, c8192_apply]
  rfl

/-! ## The result -/

/-- At the extended reals: where the three arrays hold the masked column sums, the tail's scalar is the loss. -/
theorem tailFn_loss (a0 a1 : (⟨S16x2048x512, .f32⟩ : BufTy).Contents (Elt Ideal)) (a2 : (⟨S16x512, .f32⟩ : BufTy).Contents (Elt Ideal))
    (a3 : (⟨S16, .i32⟩ : BufTy).Contents (Elt Ideal)) (P T W : (⟨S16x1x512, .f32⟩ : BufTy).Contents (Elt Ideal))
    (hP : ∀ (b : Fin 16) (d : Fin 512), P (ix3 b 0 d) = Spec.colSum a0 (fun b => a3 (ix1 b)) b d)
    (hT : ∀ (b : Fin 16) (d : Fin 512), T (ix3 b 0 d) = Spec.colSum a1 (fun b => a3 (ix1 b)) b d)
    (hW : ∀ (b : Fin 16) (d : Fin 512), W (ix3 b 0 d) = Spec.colSumW a0 a1 (fun b => a3 (ix1 b)) b d) :
    tailFn (F := Ideal) P T W a2 a3 ValueIdx.ix0 = Spec.loss a0 a1 a2 (fun b => a3 (ix1 b)) := by
  have hp : ∀ (b : Fin 16) (d : Fin 512), avgF P a3 (ix2 b d)
      = Ideal.div (Spec.colSum a0 (fun b => a3 (ix1 b)) b d) (Spec.lenE (fun b => a3 (ix1 b)) b) :=
    fun b d => by rw [avgF_apply, hP]
  have ht : ∀ (b : Fin 16) (d : Fin 512), avgF T a3 (ix2 b d)
      = Ideal.div (Spec.colSum a1 (fun b => a3 (ix1 b)) b d) (Spec.lenE (fun b => a3 (ix1 b)) b) :=
    fun b d => by rw [avgF_apply, hT]
  have hw : ∀ (b : Fin 16) (d : Fin 512), flat W (ix2 b d) = Spec.colSumW a0 a1 (fun b => a3 (ix1 b)) b d :=
    fun b d => by rw [flat_apply, hW]
  simp only [tailFn]
  rw [addf_apply, addf_apply, addf_apply, hdivf_apply, mulf_apply, meanF_apply, meanF_apply, meanF_apply, total2_apply,
    total1_apply, c512_apply]
  simp only [sl1F_apply, hp, ht, hw, imgF_apply]
  rfl

end Cert.KernelIdeal.Hand

end
-- ==== Proof.KernelIdeal.Tail.lean ====
/-
  The kernel's result: the 81 host operations after the region, read one at a time over what the region left, are the
  loss of the three masked column sums.
-/
import proofs.«404824_j9861244912212_2_alg».proof.Proof.KernelIdeal.Run
import proofs.«404824_j9861244912212_2_alg».proof.Proof.KernelIdeal.Out
import proofs.«404824_j9861244912212_2_alg».proof.Proof.KernelIdeal.KValue
import proofs.«404824_j9861244912212_2_alg».proof.Proof.KernelIdeal.TailFn
import proofs.«404824_j9861244912212_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Idealize.ShloMosaic.StableHlo

open Cert.Proof

section Generic

variable {F : FTy → Type} [FloatOps F]
variable (m : (ℓ : Loc nD τ sig) → Buf (Elt F) ℓ)

/-- What the region leaves at its three output arrays: what the proof data compute. -/
theorem Vexit_out0 (hO : Ok m) (c : Dev nD) :
    Vexit m hO c (Proc.devRef .tc main_v0_0) = (dats m hO 0 c).arrAt 2 (cfgM m hO).N :=
  Vexit_arr m hO c 2
theorem Vexit_out1 (hO : Ok m) (c : Dev nD) :
    Vexit m hO c (Proc.devRef .tc main_v0_1) = (dats m hO 0 c).arrAt 3 (cfgM m hO).N :=
  Vexit_arr m hO c 3
theorem Vexit_out2 (hO : Ok m) (c : Dev nD) :
    Vexit m hO c (Proc.devRef .tc main_v0_2) = (dats m hO 0 c).arrAt 4 (cfgM m hO).N :=
  Vexit_arr m hO c 4

/-- The image embedding and the table of lengths are not arrays of the pipeline: the region leaves them as launched. -/
theorem Vexit_arg2 (hO : Ok m) (c : Dev nD) :
    Vexit m hO c (Proc.devRef .tc main_arg2) = V m c main_arg2 :=
  Vexit_of_ne m hO c main_arg2 (by decide)
theorem Vexit_arg3 (hO : Ok m) (c : Dev nD) :
    Vexit m hO c (Proc.devRef .tc main_arg3) = V m c main_arg3 :=
  Vexit_of_ne m hO c main_arg3 (by decide)

set_option maxHeartbeats 4000000 in
/-- The scalar the program ends with is the tail's function of the three output arrays, the image embedding and the
    lengths: each of the 81 operations writes its own pure function of earlier results, and none rewrites an operand
    of a later one. -/
theorem Vend_result (hO : Ok m) (c : Dev nD) :
    Vend m hO c (Proc.devRef .tc main_v58)
      = tailFn ((dats m hO 0 c).arrAt 2 (cfgM m hO).N) ((dats m hO 0 c).arrAt 3 (cfgM m hO).N)
          ((dats m hO 0 c).arrAt 4 (cfgM m hO).N) (V m c main_arg2) (V m c main_arg3) := by
  unfold Vend tailOps
  simp only [hostOps1, hostOps1_1, hostOps1_2, hostOps1_3, hostOps1_4, hostOps1_5, hostOps1_6, hostOps1_7, hostOps1_8,
    List.flatten_cons, List.flatten_nil, List.append_nil, List.cons_append, List.nil_append]
  after_results_simp
  rw [Vexit_out0, Vexit_out1, Vexit_out2, Vexit_arg2, Vexit_arg3]
  simp only [TRef.toBuf, TRef.ofBuf, cast_eq]
  generalize (dats m hO 0 c).arrAt 2 (cfgM m hO).N = P
  generalize (dats m hO 0 c).arrAt 3 (cfgM m hO).N = T
  generalize (dats m hO 0 c).arrAt 4 (cfgM m hO).N = W
  generalize V m c main_arg2 = a2
  generalize V m c main_arg3 = a3
  rfl

end Generic

variable (m : (ℓ : Loc nD τ sig) → Buf (Elt Ideal) ℓ)

/-- Row b's length word in the table is the launched table's word at b. -/
theorem lenW_tbl (c : Dev nD) :
    lenW (tbl m) = fun b : Fin 16 => (V m c main_arg3 : S16.Idx → BitVec 32) (ix1 b) := by
  obtain rfl : c = 0 := Subsingleton.elim _ _
  rfl

theorem kernel_result (hO : Ok m) (hR : InRange (tbl m)) (c : Dev nD) :
    (Vend m hO c main_v58 : S_.Idx → EReal) ValueIdx.ix0
      = Spec.loss (V m c main_arg0) (V m c main_arg1) (V m c main_arg2) (lenW (tbl m)) := by
  have hlen := lenW_tbl m c
  refine (congrFun (Vend_result m hO c) ValueIdx.ix0).trans ?_
  rw [hlen]
  refine tailFn_loss (V m c main_arg0) (V m c main_arg1) (V m c main_arg2) (V m c main_arg3) _ _ _ ?_ ?_ ?_
  · intro b d
    rw [← hlen]
    exact (out2_at m hO c b d).trans (accP_row m hO hR c b d)
  · intro b d
    rw [← hlen]
    exact (out3_at m hO c b d).trans (accT_row m hO hR c b d)
  · intro b d
    rw [← hlen]
    exact (out4_at m hO c b d).trans (accW_row m hO hR c b d)

end Cert.KernelIdeal.Hand

end
-- ==== Proof.RefSide.lean ====
/-
  The reference's value: its generated run read one operation at a time is the loss of the argument arrays.
-/
import proofs.«404824_j9861244912212_2_alg».proof.Proof.Gen.ReferenceIdeal.Run
import proofs.«404824_j9861244912212_2_alg».proof.Proof.Gen.ReferenceIdeal.Read
import proofs.«404824_j9861244912212_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Proof.RefSide

open Cert.ReferenceIdeal Cert.ReferenceIdeal.Read Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Words -/

/-- A position below 2048, as a 32-bit word, reads signed as itself. -/
theorem toInt_pos (t : Fin 2048) : (BitVec.ofNat 32 t.val).toInt = (t.val : ℤ) := by
  have h := t.isLt
  rw [BitVec.toInt_eq_toNat_of_lt (by rw [BitVec.toNat_ofNat]; omega), BitVec.toNat_ofNat]
  omega

/-- The mask's element: the signed comparison of the position with the length, converted to a float, is 1 at a valid
    position and 0 elsewhere. -/
theorem mask_word (t : Fin 2048) (w : BitVec 32) :
    FloatOps.uitofp (F := Ideal) .f32 (IntOp.cmpi .slt (BitVec.ofNat 32 t.val) w) = Spec.valid w t := by
  show (((BitVec.ofBool ((BitVec.ofNat 32 t.val).slt w)).toNat : ℝ) : EReal) = _
  unfold Spec.valid
  rw [BitVec.slt, toInt_pos]
  by_cases h : (t.val : ℤ) < w.toInt
  · rw [if_pos h, decide_eq_true h]; simp
  · rw [if_neg h, decide_eq_false h]; simp

/-- The smooth-L1 term as the reference spells it: a select on |x - y| < 1 between (1/2 |x - y|) |x - y| and
    |x - y| - 1/2. -/
theorem sl1_word (x y : Ideal .f32) :
    Scalar.select (FloatOps.cmpf (F := Ideal) .olt (FloatOps.hostAbsf (FloatOps.subf x y)) (FloatOps.ofBits .f32 0x3F800000#32))
      (FloatOps.mulf (FloatOps.mulf (FloatOps.ofBits .f32 0x3F000000#32) (FloatOps.hostAbsf (FloatOps.subf x y)))
        (FloatOps.hostAbsf (FloatOps.subf x y)))
      (FloatOps.subf (FloatOps.hostAbsf (FloatOps.subf x y)) (FloatOps.ofBits .f32 0x3F000000#32)) = Spec.sl1 x y := by
  show Scalar.select (BitVec.ofBool (decide (Spec.absE (x - y) < Spec.oneE)))
    (Spec.halfE * Spec.absE (x - y) * Spec.absE (x - y)) (Spec.absE (x - y) - Spec.halfE) = _
  unfold Spec.sl1
  by_cases h : Spec.absE (x - y) < Spec.oneE
  · rw [if_pos h, decide_eq_true h]; exact select_one _ _
  · rw [if_neg h, decide_eq_false h]; exact select_zero _ _

/-! ## The arguments -/

abbrev A3 := (⟨S16x2048x512, .f32⟩ : BufTy).Contents (Elt Ideal)
abbrev A2 := (⟨S16x512, .f32⟩ : BufTy).Contents (Elt Ideal)
abbrev A1 := (⟨S16, .i32⟩ : BufTy).Contents (Elt Ideal)

/-- The table of lengths as a function of the row. -/
abbrev lens (a3 : A1) : Fin 16 → BitVec 32 := fun b => a3 (ix1 b)

variable (a0 a1 : A3) (a2 : A2) (a3 : A1)

/-! ## The mask -/

/-- The mask at row b, position t. -/
theorem v6_at (b : Fin 16) (t : Fin 2048) : val_main_v6 (F := Ideal) a3 (ix2 b t) = Spec.valid (lens a3 b) t := by
  rw [val_main_v6_apply, val_main_v5_apply, val_main_v3_apply, val_main_v1_apply, val_main_v0_apply,
    val_main_v4_apply, val_main_v2_apply]
  have h : idx_main_v2 (idx_main_v4 (ix2 b t)) = ix1 b := funext fun a => Fin.ext (by match a with | ⟨0, _⟩ => rfl)
  rw [h]
  exact mask_word t (a3 (ix1 b))

/-- The mask spread over the features, each of its three copies. -/
theorem v10_at (b : Fin 16) (t : Fin 2048) (d : Fin 512) :
    val_main_v10 (F := Ideal) a3 (ix3 b t d) = Spec.valid (lens a3 b) t := by
  rw [val_main_v10_apply, val_main_v7_apply]
  have h : idx_main_v7 (idx_main_v10 (ix3 b t d)) = ix2 b t :=
    funext fun a => Fin.ext (by match a with | ⟨0, _⟩ => rfl | ⟨1, _⟩ => rfl)
  rw [h]; exact v6_at a3 b t
theorem v15_at (b : Fin 16) (t : Fin 2048) (d : Fin 512) :
    val_main_v15 (F := Ideal) a3 (ix3 b t d) = Spec.valid (lens a3 b) t := by
  rw [val_main_v15_apply, val_main_v7_apply]
  have h : idx_main_v7 (idx_main_v15 (ix3 b t d)) = ix2 b t :=
    funext fun a => Fin.ext (by match a with | ⟨0, _⟩ => rfl | ⟨1, _⟩ => rfl)
  rw [h]; exact v6_at a3 b t
theorem v71_at (b : Fin 16) (t : Fin 2048) (d : Fin 512) :
    val_main_v71 (F := Ideal) a3 (ix3 b t d) = Spec.valid (lens a3 b) t := by
  rw [val_main_v71_apply, val_main_v7_apply]
  have h : idx_main_v7 (idx_main_v71 (ix3 b t d)) = ix2 b t :=
    funext fun a => Fin.ext (by match a with | ⟨0, _⟩ => rfl | ⟨1, _⟩ => rfl)
  rw [h]; exact v6_at a3 b t

/-! ## The masked column sums, the lengths, the two averages -/

theorem v12_at (b : Fin 16) (d : Fin 512) : val_main_v12 (F := Ideal) a0 a3 (ix2 b d) = Spec.colSum a0 (lens a3) b d := by
  rw [val_main_v12_apply, val_main_cst_apply, Ideal.ofBits_def, Ideal.ofBits_zero_f32, zero_add]
  unfold Spec.colSum
  refine Finset.sum_congr rfl fun t _ => ?_
  have h : idx_main_v12 (ix2 b d) t = ix3 b t d :=
    funext fun a => Fin.ext (by match a with | ⟨0, _⟩ => rfl | ⟨1, _⟩ => rfl | ⟨2, _⟩ => rfl)
  rw [h, val_main_v11_apply, v10_at]
  rfl
theorem v17_at (b : Fin 16) (d : Fin 512) : val_main_v17 (F := Ideal) a1 a3 (ix2 b d) = Spec.colSum a1 (lens a3) b d := by
  rw [val_main_v17_apply, val_main_cst_0_apply, Ideal.ofBits_def, Ideal.ofBits_zero_f32, zero_add]
  unfold Spec.colSum
  refine Finset.sum_congr rfl fun t _ => ?_
  have h : idx_main_v17 (ix2 b d) t = ix3 b t d :=
    funext fun a => Fin.ext (by match a with | ⟨0, _⟩ => rfl | ⟨1, _⟩ => rfl | ⟨2, _⟩ => rfl)
  rw [h, val_main_v16_apply, v15_at]
  rfl

theorem v13_at (b : Fin 16) (d : Fin 512) : val_main_v13 (F := Ideal) a3 (ix2 b d) = Spec.lenE (lens a3) b := by
  rw [val_main_v13_apply, val_main_v9_apply, val_main_v8_apply]
  have h : idx_main_v9 (idx_main_v13 (ix2 b d)) = ix1 b := funext fun a => Fin.ext (by match a with | ⟨0, _⟩ => rfl)
  rw [h]; rfl
theorem v18_at (b : Fin 16) (d : Fin 512) : val_main_v18 (F := Ideal) a3 (ix2 b d) = Spec.lenE (lens a3) b := by
  rw [val_main_v18_apply, val_main_v9_apply, val_main_v8_apply]
  have h : idx_main_v9 (idx_main_v18 (ix2 b d)) = ix1 b := funext fun a => Fin.ext (by match a with | ⟨0, _⟩ => rfl)
  rw [h]; rfl

/-- The average of the first input over row b's valid positions. -/
abbrev pm (b : Fin 16) (d : Fin 512) : EReal := Ideal.div (Spec.colSum a0 (lens a3) b d) (Spec.lenE (lens a3) b)
/-- The average of the second input over row b's valid positions. -/
abbrev tm (b : Fin 16) (d : Fin 512) : EReal := Ideal.div (Spec.colSum a1 (lens a3) b d) (Spec.lenE (lens a3) b)

theorem v14_at (b : Fin 16) (d : Fin 512) : val_main_v14 (F := Ideal) a0 a3 (ix2 b d) = pm a0 a3 b d := by
  rw [val_main_v14_apply, v12_at, v13_at]; rfl
theorem v19_at (b : Fin 16) (d : Fin 512) : val_main_v19 (F := Ideal) a1 a3 (ix2 b d) = tm a1 a3 b d := by
  rw [val_main_v19_apply, v17_at, v18_at]; rfl

/-! ## The normalised image embedding -/

theorem v24_at (b : Fin 16) (d : Fin 512) : val_main_v24 (F := Ideal) a2 (ix2 b d) = Spec.imgN a2 b d := by
  rw [val_main_v24_apply, val_main_v23_apply, val_main_v22_apply, val_main_v20_apply, val_main_call0_v2_apply,
    val_main_call0_v1_apply, val_main_call0_cst_apply, val_main_v21_apply, val_main_cst_1_apply]
  have h : idx_main_call0_v2 (idx_main_v23 (ix2 b d)) = ix1 b := funext fun a => Fin.ext (by match a with | ⟨0, _⟩ => rfl)
  have hs : ∑ k : Fin 512, val_main_call0_v0 (F := Ideal) a2 (idx_main_call0_v1 (ix1 b) k)
      = ∑ d' : Fin 512, a2 (ix2 b d') * a2 (ix2 b d') :=
    Finset.sum_congr rfl fun k _ => by
      have hk : idx_main_call0_v1 (ix1 b) k = ix2 b k :=
        funext fun a => Fin.ext (by match a with | ⟨0, _⟩ => rfl | ⟨1, _⟩ => rfl)
      rw [hk, val_main_call0_v0_apply]; rfl
  rw [h, hs]; rfl

/-! ## The smooth-L1 terms -/

/-- Between the two averages. -/
theorem v34_at (b : Fin 16) (d : Fin 512) :
    val_main_v34 (F := Ideal) a0 a1 a3 (ix2 b d) = Spec.sl1 (pm a0 a3 b d) (tm a1 a3 b d) := by
  rw [val_main_v34_apply, val_main_v28_apply, val_main_v31_apply, val_main_v33_apply, val_main_v30_apply,
    val_main_v26_apply, val_main_v25_apply, val_main_v27_apply, val_main_cst_2_apply, val_main_v29_apply,
    val_main_cst_3_apply, val_main_v32_apply, val_main_cst_4_apply, v14_at, v19_at]
  exact sl1_word _ _
/-- Between the first average and the image embedding. -/
theorem v46_at (b : Fin 16) (d : Fin 512) :
    val_main_v46 (F := Ideal) a0 a2 a3 (ix2 b d) = Spec.sl1 (pm a0 a3 b d) (Spec.imgN a2 b d) := by
  rw [val_main_v46_apply, val_main_v40_apply, val_main_v43_apply, val_main_v45_apply, val_main_v42_apply,
    val_main_v38_apply, val_main_v37_apply, val_main_v39_apply, val_main_cst_7_apply, val_main_v41_apply,
    val_main_cst_8_apply, val_main_v44_apply, val_main_cst_9_apply, v14_at, v24_at]
  exact sl1_word _ _
/-- Between the second average and the image embedding. -/
theorem v58_at (b : Fin 16) (d : Fin 512) :
    val_main_v58 (F := Ideal) a1 a2 a3 (ix2 b d) = Spec.sl1 (tm a1 a3 b d) (Spec.imgN a2 b d) := by
  rw [val_main_v58_apply, val_main_v52_apply, val_main_v55_apply, val_main_v57_apply, val_main_v54_apply,
    val_main_v50_apply, val_main_v49_apply, val_main_v51_apply, val_main_cst_12_apply, val_main_v53_apply,
    val_main_cst_13_apply, val_main_v56_apply, val_main_cst_14_apply, v19_at, v24_at]
  exact sl1_word _ _
/-- Between the two inputs, element by element. -/
theorem v70_at (i : S16x2048x512.Idx) : val_main_v70 (F := Ideal) a0 a1 i = Spec.sl1 (a0 i) (a1 i) := by
  rw [val_main_v70_apply, val_main_v64_apply, val_main_v67_apply, val_main_v69_apply, val_main_v66_apply,
    val_main_v62_apply, val_main_v61_apply, val_main_v63_apply, val_main_cst_17_apply, val_main_v65_apply,
    val_main_cst_18_apply, val_main_v68_apply, val_main_cst_19_apply]
  exact sl1_word _ _

/-! ## The three means over the 16 x 512 entries -/

theorem v36_at : val_main_v36 (F := Ideal) a0 a1 a3 ix0 = Spec.mean2 fun b d => Spec.sl1 (pm a0 a3 b d) (tm a1 a3 b d) := by
  rw [val_main_v36_apply, val_main_v35_apply, val_main_cst_5_apply, val_main_cst_6_apply, sum_idx2]
  simp only [v34_at]
  rfl
theorem v48_at : val_main_v48 (F := Ideal) a0 a2 a3 ix0 = Spec.mean2 fun b d => Spec.sl1 (pm a0 a3 b d) (Spec.imgN a2 b d) := by
  rw [val_main_v48_apply, val_main_v47_apply, val_main_cst_10_apply, val_main_cst_11_apply, sum_idx2]
  simp only [v46_at]
  rfl
theorem v60_at : val_main_v60 (F := Ideal) a1 a2 a3 ix0 = Spec.mean2 fun b d => Spec.sl1 (tm a1 a3 b d) (Spec.imgN a2 b d) := by
  rw [val_main_v60_apply, val_main_v59_apply, val_main_cst_15_apply, val_main_cst_16_apply, sum_idx2]
  simp only [v58_at]
  rfl

/-! ## The number of valid elements and the word term's numerator -/

/-- The lengths, summed over their 16 x 1 array, times the 512 features. -/
theorem v74_at : val_main_v74 (F := Ideal) a3 ix0 = (Spec.zeroE + ∑ b : Fin 16, Spec.lenE (lens a3) b) * Spec.c512E := by
  rw [val_main_v74_apply, val_main_v73_apply, val_main_cst_20_apply, val_main_cst_21_apply, sum_idx2]
  have h : ∀ b : Fin 16, ∑ c : Fin 1, val_main_v9 (F := Ideal) a3 (ix2 b c) = Spec.lenE (lens a3) b := fun b => by
    rw [Fin.sum_univ_one, val_main_v9_apply, val_main_v8_apply]
    have hi : idx_main_v9 (ix2 b (0 : Fin 1)) = ix1 b := funext fun a => Fin.ext (by match a with | ⟨0, _⟩ => rfl)
    rw [hi]; rfl
  simp only [h]
  rfl

/-- The sum over all of the 16 x 2048 x 512 elements, regrouped by row, then feature, then position. -/
theorem v75_at :
    val_main_v75 (F := Ideal) a0 a1 a3 ix0 = Spec.zeroE + ∑ b : Fin 16, ∑ d : Fin 512, Spec.colSumW a0 a1 (lens a3) b d := by
  rw [val_main_v75_apply, val_main_cst_22_apply, sum_idx3]
  refine congrArg (Spec.zeroE + ·) (Finset.sum_congr rfl fun b _ => ?_)
  rw [Finset.sum_comm]
  refine Finset.sum_congr rfl fun d _ => ?_
  unfold Spec.colSumW
  refine Finset.sum_congr rfl fun t _ => ?_
  rw [val_main_v72_apply, v70_at, v71_at]
  rfl

/-! ## The result -/

theorem reference_result (a0 a1 : (⟨S16x2048x512, .f32⟩ : BufTy).Contents (Elt Ideal)) (a2 : (⟨S16x512, .f32⟩ : BufTy).Contents (Elt Ideal))
    (a3 : (⟨S16, .i32⟩ : BufTy).Contents (Elt Ideal))
    (hR : ∀ b : Fin 16, 1 ≤ (a3 (ix1 b)).toInt ∧ (a3 (ix1 b)).toInt ≤ 2048) :
    val_main_v79 (F := Ideal) a0 a1 a2 a3 ix0 = Spec.loss a0 a1 a2 (fun b => a3 (ix1 b)) := by
  rw [val_main_v79_apply, val_main_v78_apply, val_main_v77_apply, val_main_v76_apply, v75_at, v74_at, v36_at,
    v48_at, v60_at]
  rfl

end Cert.Proof.RefSide

end
-- ==== Proof.PreRange.lean ====
/-
  The precondition read back: where the precondition's predicate is all ones, every length lies between 1 and 2048 and
  every float input is finite.
-/
import proofs.«404824_j9861244912212_2_alg».proof.Pre_finite_inputs
import proofs.«404824_j9861244912212_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Proof.PreRange

open Idealize.ShloMosaic Cert.Pre_finite_inputs

/-- The scalar shape has one index. -/
instance : Subsingleton S_.Idx := ⟨fun a b => funext fun d => d.elim0⟩

/-- The predicate's last two conjuncts, each an `and` over the 16 rows of a signed comparison with a broadcast
    constant: every length is at least 1 and at most 2048. -/
theorem inRange_of_pre {F : FTy → Type} [FloatOps F] (a0 a1 : FVec F S16x2048x512 .f32) (a2 : FVec F S16x512 .f32) (a3 : IVec S16 32)
    (h : Cert.Pre_finite_inputs.fn (F := F) a0 a1 a2 a3 = fun _ => 1#1) :
    ∀ b : Fin 16, 1 ≤ (a3 (ValueIdx.ix1 b)).toInt ∧ (a3 (ValueIdx.ix1 b)).toInt ≤ 2048 := by
  intro b
  have e := congrFun h ValueIdx.ix0
  dsimp only [fn, fn_part1] at e
  simp only [andi, IntOp.andi_eq_one] at e
  obtain ⟨⟨-, hge⟩, hle⟩ := e
  have g1 := Host.reduce_andi_all _ _ _ _ _ hge (ValueIdx.ix1 b)
  have g2 := Host.reduce_andi_all _ _ _ _ _ hle (ValueIdx.ix1 b)
  simp only [cmpi, IntOp.cmpi_sge, IntOp.cmpi_sle] at g1 g2
  -- a broadcast scalar constant reads the constant at every index
  change (1#32 : BitVec 32).toInt ≤ _ at g1
  change _ ≤ (2048#32 : BitVec 32).toInt at g2
  have c1 : (1#32 : BitVec 32).toInt = 1 := by decide
  have c2 : (2048#32 : BitVec 32).toInt = 2048 := by decide
  rw [c1] at g1; rw [c2] at g2
  exact ⟨g1, g2⟩

/-- An extended real whose absolute value is below +∞ is neither infinity. -/
theorem finite_of_abs_lt (x : EReal) (hx : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at hx
  simp only [Ideal.cmp, StableHlo.Predicate.ofBool_eq_one_iff, decide_eq_true_eq] at hx
  refine ⟨?_, ?_⟩
  · rintro rfl; simp at hx
  · rintro rfl; simp at hx

/-- The predicate's first three conjuncts, each an `and` over an input's entries of |x| < +∞: every entry is finite. -/
theorem finite_of_pre (a0 a1 : FVec Ideal S16x2048x512 .f32) (a2 : FVec Ideal S16x512 .f32) (a3 : IVec S16 32)
    (h : Cert.Pre_finite_inputs.fn (F := Ideal) a0 a1 a2 a3 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have e := congrFun h ValueIdx.ix0
  dsimp only [fn, fn_part1] at e
  simp only [andi, IntOp.andi_eq_one] at e
  obtain ⟨⟨⟨⟨f0, f1⟩, f2⟩, -⟩, -⟩ := e
  refine ⟨fun i => ?_, fun i => ?_, fun i => ?_⟩
  · exact finite_of_abs_lt _ (Host.reduce_andi_all _ _ _ _ _ f0 i)
  · exact finite_of_abs_lt _ (Host.reduce_andi_all _ _ _ _ _ f1 i)
  · exact finite_of_abs_lt _ (Host.reduce_andi_all _ _ _ _ _ f2 i)

end Cert.Proof.PreRange

end
-- ==== Proof.lean ====
/-
  The certificate of the ragged masked reduction (a smooth-L1 loss over valid positions): the kernel program and its
  reference program compute the same loss over the extended reals.

  The kernel runs on a 16 x 4 grid (row b, tile kv of 512 positions). Row b's length len_b comes from a prefetched
  table; the windows of the two inputs fetch tile min(kv, ceil(len_b / 512) - 1); three accumulators per row are reset
  at kv = 0 and, where kv * 512 < len_b, gain the tile's masked column sums (of each input and of their smooth-L1 term).
  Under the precondition 1 <= len_b <= 2048 every fetched tile lies inside its array, so the program runs; a live tile
  is tile kv itself, so after the row's four tiles each accumulator holds the masked column sum over the row's valid
  positions — exactly the reference's sums over the time axis, the dead positions adding a * 0 = 0. The host operations
  that follow (the per-row means, the normalised image embedding, three smooth-L1 means and the packed word loss) are
  the reference's own; the word loss's numerator is the reference's sum over all elements regrouped row by row, which
  commutativity and associativity of + on the extended reals allow.

  The frames: the kernel programs by the launch through the region followed by its host operations (one argument,
  generic in the float instance), the reference by its generated run.
-/
import proofs.«404824_j9861244912212_2_alg».proof.Defs
import proofs.«404824_j9861244912212_2_alg».proof.Proof.Gen.Kernel
import proofs.«404824_j9861244912212_2_alg».proof.Proof.Gen.KernelIdeal
import proofs.«404824_j9861244912212_2_alg».proof.Proof.Gen.ReferenceIdeal
import proofs.«404824_j9861244912212_2_alg».proof.Proof.Gen.Pre_finite_inputs
import proofs.«404824_j9861244912212_2_alg».proof.Proof.Gen.ReferenceIdeal.Run
import proofs.«404824_j9861244912212_2_alg».proof.Proof.Gen.ReferenceIdeal.Read
import proofs.«404824_j9861244912212_2_alg».proof.Proof.Kernel.Run
import proofs.«404824_j9861244912212_2_alg».proof.Proof.KernelIdeal.Run
import proofs.«404824_j9861244912212_2_alg».proof.Proof.KernelIdeal.Tail
import proofs.«404824_j9861244912212_2_alg».proof.Proof.RefSide
import proofs.«404824_j9861244912212_2_alg».proof.Proof.PreRange
import Idealize.ShloMosaic.Adequacy
import Idealize.ShloMosaic.Init

noncomputable section

namespace Cert.Proof

open Idealize.ShloMosaic Idealize.ShloMosaic.TcCoe Idealize.SL.Sem

/-! ## The lengths' range, from the precondition -/

theorem inRange_k (m : (ℓ : Loc Cert.Kernel.nD Cert.Kernel.τ Cert.Kernel.sig) → Buf (Elt Bits) ℓ) (h : Cert.Pre_Kernel m) :
    Cert.Kernel.Hand.InRange (Cert.Kernel.Hand.tbl m) := fun b =>
  PreRange.inRange_of_pre (F := Bits) _ _ _ _ (h 0) b

theorem inRange_ki (m : (ℓ : Loc Cert.KernelIdeal.nD Cert.KernelIdeal.τ Cert.KernelIdeal.sig) → Buf (Elt Ideal) ℓ) (h : Cert.Pre_KernelIdeal m) :
    Cert.KernelIdeal.Hand.InRange (Cert.KernelIdeal.Hand.tbl m) := fun b =>
  PreRange.inRange_of_pre (F := Ideal) _ _ _ _ (h 0) b

/-! ## The claims -/

theorem frame_k : Cert.frame_Kernel := fun m ρ h =>
  Cert.Kernel.Hand.frame m ρ (Cert.Kernel.Hand.ok0_of_inRange _ (inRange_k m h)) (inRange_k m h)

theorem frame_ki : Cert.frame_KernelIdeal := fun m ρ h =>
  Cert.KernelIdeal.Hand.frame m ρ (Cert.KernelIdeal.Hand.ok0_of_inRange _ (inRange_ki m h)) (inRange_ki m h)

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the loss of the (agreeing) argument arrays. -/
theorem algebraic : Cert.algebraic_KernelIdeal_ReferenceIdeal := by
  intro m ρ m' ρ' hpre hagree
  have hR := inRange_ki m hpre
  have hO := Cert.KernelIdeal.Hand.ok0_of_inRange _ hR
  refine ⟨fun c => Cert.KernelIdeal.Hand.Vend m hO c Cert.KernelIdeal.main_v58, ?_, ?_⟩
  · refine (θ_run Cert.KernelIdeal.defs _ _).mono (fun r h c => ?_) (Cert.KernelIdeal.Hand.run_main m ρ hO hR)
    have mem : ∀ b : Ref Cert.KernelIdeal.sig .tc, b.isScoped = false →
        (Proc.devRef .tc b : DevRef Cert.KernelIdeal.τ Cert.KernelIdeal.sig) ∈ Pipeline.ucRefs Cert.KernelIdeal.τ Cert.KernelIdeal.sig := fun b hb =>
      Finset.mem_filter.mpr ⟨StableHlo.devRef_mem_tcRefs b, by simpa using hb⟩
    exact ⟨h c _ (mem Cert.KernelIdeal.main_v58 rfl),
      (h c _ (mem Cert.KernelIdeal.main_arg0 rfl)).trans (Cert.KernelIdeal.Hand.Vend_arg0 m hO c),
      (h c _ (mem Cert.KernelIdeal.main_arg1 rfl)).trans (Cert.KernelIdeal.Hand.Vend_arg1 m hO c),
      (h c _ (mem Cert.KernelIdeal.main_arg2 rfl)).trans (Cert.KernelIdeal.Hand.Vend_arg2 m hO c),
      (h c _ (mem Cert.KernelIdeal.main_arg3 rfl)).trans (Cert.KernelIdeal.Hand.Vend_arg3 m hO c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v79_eq, (hagree c).1, (hagree c).2.1, (hagree c).2.2.1, (hagree c).2.2.2]
    funext i
    obtain rfl := ValueIdx.eq_ix0 i
    obtain rfl : c = 0 := Subsingleton.elim _ _
    have hk := Cert.KernelIdeal.Hand.kernel_result m hO hR 0
    have hr := RefSide.reference_result (m (((0 : Dev Cert.KernelIdeal.nD).tc : Thread Cert.KernelIdeal.nD Cert.KernelIdeal.τ).loc Cert.KernelIdeal.main_arg0))
      (m (((0 : Dev Cert.KernelIdeal.nD).tc : Thread Cert.KernelIdeal.nD Cert.KernelIdeal.τ).loc Cert.KernelIdeal.main_arg1))
      (m (((0 : Dev Cert.KernelIdeal.nD).tc : Thread Cert.KernelIdeal.nD Cert.KernelIdeal.τ).loc Cert.KernelIdeal.main_arg2))
      (m (((0 : Dev Cert.KernelIdeal.nD).tc : Thread Cert.KernelIdeal.nD Cert.KernelIdeal.τ).loc Cert.KernelIdeal.main_arg3)) (fun b => hR b)
    exact hr.trans hk.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
